-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v97)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v97) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v105) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x1216 : Shape := ⟨2, ![4096, 1216]⟩
abbrev S2x38912 : Shape := ⟨2, ![2, 38912]⟩
abbrev S1x1216 : Shape := ⟨2, ![1, 1216]⟩
abbrev S1 : Shape := ⟨1, ![1]⟩
abbrev S1216x1 : Shape := ⟨2, ![1216, 1]⟩
abbrev S1216 : Shape := ⟨1, ![1216]⟩
abbrev S4 : Shape := ⟨1, ![4]⟩
abbrev S_ : Shape := ⟨0, ![]⟩

class Facts : Prop where
  bcast_S_S4096x1216 : S_.BroadcastsInDim S4096x1216 (![] : Fin 0 → Fin S4096x1216.rank)
  reducesTo_S4096x1216_S_d0_1 : S4096x1216.ReducesTo [0, 1] S_
  h_S_ : 0 < S_.numel
  bcast_S_S1x1216 : S_.BroadcastsInDim S1x1216 (![] : Fin 0 → Fin S1x1216.rank)
  reducesTo_S1x1216_S_d0_1 : S1x1216.ReducesTo [0, 1] S_
  bcast_S_S1 : S_.BroadcastsInDim S1 (![] : Fin 0 → Fin S1.rank)
  reducesTo_S1_S_d0 : S1.ReducesTo [0] S_
  bcast_S_S1216x1 : S_.BroadcastsInDim S1216x1 (![] : Fin 0 → Fin S1216x1.rank)
  reducesTo_S1216x1_S_d0_1 : S1216x1.ReducesTo [0, 1] S_
  bcast_S_S1216 : S_.BroadcastsInDim S1216 (![] : Fin 0 → Fin S1216.rank)
  reducesTo_S1216_S_d0 : S1216.ReducesTo [0] S_
  bcast_S_S4 : S_.BroadcastsInDim S4 (![] : Fin 0 → Fin S4.rank)
  reducesTo_S4_S_d0 : S4.ReducesTo [0] S_
  bcast_S_S2x38912 : S_.BroadcastsInDim S2x38912 (![] : Fin 0 → Fin S2x38912.rank)
  reducesTo_S2x38912_S_d0_1 : S2x38912.ReducesTo [0, 1] S_

variable [Facts]

def fn_part2 {F : FTy → Type} [FloatOps F] (main_arg1 : IVec S2x38912 32) (main_v32 : IVec S_ 1) (main_c_12 : IVec S_ 32) : IVec S_ 1 :=
  let main_v33 : IVec S2x38912 32 := broadcastInDim S2x38912 ![] bcast_S_S2x38912 main_c_12
  let main_v34 : IVec S2x38912 1 := cmpi .slt main_arg1 main_v33
  let main_c_13 : IVec S_ 1 := constantI S_ 1 1#1
  let main_v35 : IVec S_ 1 := (fun x v => Host.reduce IntOp.andi x v reducesTo_S2x38912_S_d0_1 h_S_) main_v34 main_c_13
  let main_v36 : IVec S_ 1 := andi main_v32 main_v35
  main_v36

def fn_part1 {F : FTy → Type} [FloatOps F] (main_arg1 : IVec S2x38912 32) (main_arg5 : FVec F S1216 .f32) (main_arg6 : FVec F S4 .f32) (main_v13 : IVec S_ 1) (main_v16 : IVec S1216x1 1) : IVec S_ 1 :=
  let main_c_5 : IVec S_ 1 := constantI S_ 1 1#1
  let main_v17 : IVec S_ 1 := (fun x v => Host.reduce IntOp.andi x v reducesTo_S1216x1_S_d0_1 h_S_) main_v16 main_c_5
  let main_v18 : IVec S_ 1 := andi main_v13 main_v17
  let main_v19 : FVec F S1216 .f32 := Host.absf main_arg5
  let main_cst_6 : FVec F S_ .f32 := constant S_ .f32 0x7F800000#32
  let main_v20 : FVec F S1216 .f32 := broadcastInDim S1216 ![] bcast_S_S1216 main_cst_6
  let main_v21 : IVec S1216 1 := cmpf .olt main_v19 main_v20
  let main_c_7 : IVec S_ 1 := constantI S_ 1 1#1
  let main_v22 : IVec S_ 1 := (fun x v => Host.reduce IntOp.andi x v reducesTo_S1216_S_d0 h_S_) main_v21 main_c_7
  let main_v23 : IVec S_ 1 := andi main_v18 main_v22
  let main_v24 : FVec F S4 .f32 := Host.absf main_arg6
  let main_cst_8 : FVec F S_ .f32 := constant S_ .f32 0x7F800000#32
  let main_v25 : FVec F S4 .f32 := broadcastInDim S4 ![] bcast_S_S4 main_cst_8
  let main_v26 : IVec S4 1 := cmpf .olt main_v24 main_v25
  let main_c_9 : IVec S_ 1 := constantI S_ 1 1#1
  let main_v27 : IVec S_ 1 := (fun x v => Host.reduce IntOp.andi x v reducesTo_S4_S_d0 h_S_) main_v26 main_c_9
  let main_v28 : IVec S_ 1 := andi main_v23 main_v27
  let main_c_10 : IVec S_ 32 := constantI S_ 32 0#32
  let main_v29 : IVec S2x38912 32 := broadcastInDim S2x38912 ![] bcast_S_S2x38912 main_c_10
  let main_v30 : IVec S2x38912 1 := cmpi .sge main_arg1 main_v29
  let main_c_11 : IVec S_ 1 := constantI S_ 1 1#1
  let main_v31 : IVec S_ 1 := (fun x v => Host.reduce IntOp.andi x v reducesTo_S2x38912_S_d0_1 h_S_) main_v30 main_c_11
  let main_v32 : IVec S_ 1 := andi main_v28 main_v31
  let main_c_12 : IVec S_ 32 := constantI S_ 32 1216#32
  fn_part2 (F := F) main_arg1 main_v32 main_c_12

def fn {F : FTy → Type} [FloatOps F] (main_arg0 : FVec F S4096x1216 .f32) (main_arg1 : IVec S2x38912 32) (main_arg2 : FVec F S1x1216 .f32) (main_arg3 : FVec F S1 .f32) (main_arg4 : FVec F S1216x1 .f32) (main_arg5 : FVec F S1216 .f32) (main_arg6 : FVec F S4 .f32) : IVec S_ 1 :=
  let main_v0 : FVec F S4096x1216 .f32 := Host.absf main_arg0
  let main_cst : FVec F S_ .f32 := constant S_ .f32 0x7F800000#32
  let main_v1 : FVec F S4096x1216 .f32 := broadcastInDim S4096x1216 ![] bcast_S_S4096x1216 main_cst
  let main_v2 : IVec S4096x1216 1 := cmpf .olt main_v0 main_v1
  let main_c : IVec S_ 1 := constantI S_ 1 1#1
  let main_v3 : IVec S_ 1 := (fun x v => Host.reduce IntOp.andi x v reducesTo_S4096x1216_S_d0_1 h_S_) main_v2 main_c
  let main_v4 : FVec F S1x1216 .f32 := Host.absf main_arg2
  let main_cst_0 : FVec F S_ .f32 := constant S_ .f32 0x7F800000#32
  let main_v5 : FVec F S1x1216 .f32 := broadcastInDim S1x1216 ![] bcast_S_S1x1216 main_cst_0
  let main_v6 : IVec S1x1216 1 := cmpf .olt main_v4 main_v5
  let main_c_1 : IVec S_ 1 := constantI S_ 1 1#1
  let main_v7 : IVec S_ 1 := (fun x v => Host.reduce IntOp.andi x v reducesTo_S1x1216_S_d0_1 h_S_) main_v6 main_c_1
  let main_v8 : IVec S_ 1 := andi main_v3 main_v7
  let main_v9 : FVec F S1 .f32 := Host.absf main_arg3
  let main_cst_2 : FVec F S_ .f32 := constant S_ .f32 0x7F800000#32
  let main_v10 : FVec F S1 .f32 := broadcastInDim S1 ![] bcast_S_S1 main_cst_2
  let main_v11 : IVec S1 1 := cmpf .olt main_v9 main_v10
  let main_c_3 : IVec S_ 1 := constantI S_ 1 1#1
  let main_v12 : IVec S_ 1 := (fun x v => Host.reduce IntOp.andi x v reducesTo_S1_S_d0 h_S_) main_v11 main_c_3
  let main_v13 : IVec S_ 1 := andi main_v8 main_v12
  let main_v14 : FVec F S1216x1 .f32 := Host.absf main_arg4
  let main_cst_4 : FVec F S_ .f32 := constant S_ .f32 0x7F800000#32
  let main_v15 : FVec F S1216x1 .f32 := broadcastInDim S1216x1 ![] bcast_S_S1216x1 main_cst_4
  let main_v16 : IVec S1216x1 1 := cmpf .olt main_v14 main_v15
  fn_part1 (F := F) main_arg1 main_arg5 main_arg6 main_v13 main_v16
-- ==== Kernel.lean ====
abbrev S4096x1216 : Shape := ⟨2, ![4096, 1216]⟩
abbrev S2x38912 : Shape := ⟨2, ![2, 38912]⟩
abbrev S1x1216 : Shape := ⟨2, ![1, 1216]⟩
abbrev S1 : Shape := ⟨1, ![1]⟩
abbrev S1216x1 : Shape := ⟨2, ![1216, 1]⟩
abbrev S1216 : Shape := ⟨1, ![1216]⟩
abbrev S4 : Shape := ⟨1, ![4]⟩
abbrev S_ : Shape := ⟨0, ![]⟩
abbrev S1x38912 : Shape := ⟨2, ![1, 38912]⟩
abbrev S38912 : Shape := ⟨1, ![38912]⟩
abbrev S40128 : Shape := ⟨1, ![40128]⟩
abbrev S40128x1 : Shape := ⟨2, ![40128, 1]⟩
abbrev S1216x1216 : Shape := ⟨2, ![1216, 1216]⟩
abbrev S40128x2 : Shape := ⟨2, ![40128, 2]⟩
abbrev S1x1 : Shape := ⟨2, ![1, 1]⟩
abbrev S1024x1216 : Shape := ⟨2, ![1024, 1216]⟩
abbrev S1024 : Shape := ⟨1, ![1024]⟩
abbrev S1024x1 : Shape := ⟨2, ![1024, 1]⟩
abbrev S1024x64 : Shape := ⟨2, ![1024, 64]⟩
abbrev S4096x1x19x64 : Shape := ⟨4, ![4096, 1, 19, 64]⟩

abbrev nBuf : Space → Nat
  | .hbm => 128
  | .vmem => 8
  | .smem => 0
  | _ => 0

abbrev bufTy : (tb : Table) → Fin (tcTables nBuf tb) → BufTy
  | .hbm, ⟨0, _⟩ => ⟨S4096x1216, .f32⟩
  | .hbm, ⟨1, _⟩ => ⟨S2x38912, .i32⟩
  | .hbm, ⟨2, _⟩ => ⟨S1x1216, .f32⟩
  | .hbm, ⟨3, _⟩ => ⟨S1, .f32⟩
  | .hbm, ⟨4, _⟩ => ⟨S1216x1, .f32⟩
  | .hbm, ⟨5, _⟩ => ⟨S1216, .f32⟩
  | .hbm, ⟨6, _⟩ => ⟨S4, .f32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S2x38912, .i32⟩
  | .hbm, ⟨11, _⟩ => ⟨S2x38912, .i32⟩
  | .hbm, ⟨12, _⟩ => ⟨S_, .i32⟩
  | .hbm, ⟨13, _⟩ => ⟨S2x38912, .i32⟩
  | .hbm, ⟨14, _⟩ => ⟨S2x38912, .i32⟩
  | .hbm, ⟨15, _⟩ => ⟨S1216, .i32⟩
  | .hbm, ⟨16, _⟩ => ⟨S1x38912, .i32⟩
  | .hbm, ⟨17, _⟩ => ⟨S38912, .i32⟩
  | .hbm, ⟨18, _⟩ => ⟨S40128, .i32⟩
  | .hbm, ⟨19, _⟩ => ⟨S1x38912, .i32⟩
  | .hbm, ⟨20, _⟩ => ⟨S38912, .i32⟩
  | .hbm, ⟨21, _⟩ => ⟨S40128, .i32⟩
  | .hbm, ⟨22, _⟩ => ⟨S_, .f32⟩
  | .hbm, ⟨23, _⟩ => ⟨S40128, .f32⟩
  | .hbm, ⟨24, _⟩ => ⟨S_, .f32⟩
  | .hbm, ⟨25, _⟩ => ⟨S1216, .f32⟩
  | .hbm, ⟨26, _⟩ => ⟨S40128x1, .i32⟩
  | .hbm, ⟨27, _⟩ => ⟨S1216, .f32⟩
  | .hbm, ⟨28, _⟩ => ⟨S_, .f32⟩
  | .hbm, ⟨29, _⟩ => ⟨S1216, .f32⟩
  | .hbm, ⟨30, _⟩ => ⟨S1216, .i1⟩
  | .hbm, ⟨31, _⟩ => ⟨S_, .f32⟩
  | .hbm, ⟨32, _⟩ => ⟨S1216, .f32⟩
  | .hbm, ⟨33, _⟩ => ⟨S1216, .f32⟩
  | .hbm, ⟨34, _⟩ => ⟨S1216, .f32⟩
  | .hbm, ⟨35, _⟩ => ⟨S_, .f32⟩
  | .hbm, ⟨36, _⟩ => ⟨S_, .f32⟩
  | .hbm, ⟨37, _⟩ => ⟨S1216, .f32⟩
  | .hbm, ⟨38, _⟩ => ⟨S1216, .f32⟩
  | .hbm, ⟨39, _⟩ => ⟨S_, .i32⟩
  | .hbm, ⟨40, _⟩ => ⟨S40128, .i32⟩
  | .hbm, ⟨41, _⟩ => ⟨S40128, .i1⟩
  | .hbm, ⟨42, _⟩ => ⟨S_, .i32⟩
  | .hbm, ⟨43, _⟩ => ⟨S40128, .i32⟩
  | .hbm, ⟨44, _⟩ => ⟨S40128, .i32⟩
  | .hbm, ⟨45, _⟩ => ⟨S40128, .i32⟩
  | .hbm, ⟨46, _⟩ => ⟨S40128x1, .i32⟩
  | .hbm, ⟨47, _⟩ => ⟨S40128, .f32⟩
  | .hbm, ⟨48, _⟩ => ⟨S_, .i32⟩
  | .hbm, ⟨49, _⟩ => ⟨S40128, .i32⟩
  | .hbm, ⟨50, _⟩ => ⟨S40128, .i1⟩
  | .hbm, ⟨51, _⟩ => ⟨S_, .i32⟩
  | .hbm, ⟨52, _⟩ => ⟨S40128, .i32⟩
  | .hbm, ⟨53, _⟩ => ⟨S40128, .i32⟩
  | .hbm, ⟨54, _⟩ => ⟨S40128, .i32⟩
  | .hbm, ⟨55, _⟩ => ⟨S40128x1, .i32⟩
  | .hbm, ⟨56, _⟩ => ⟨S40128, .f32⟩
  | .hbm, ⟨57, _⟩ => ⟨S40128, .f32⟩
  | .hbm, ⟨58, _⟩ => ⟨S_, .f32⟩
  | .hbm, ⟨59, _⟩ => ⟨S1216x1216, .f32⟩
  | .hbm, ⟨60, _⟩ => ⟨S_, .i32⟩
  | .hbm, ⟨61, _⟩ => ⟨S40128, .i32⟩
  | .hbm, ⟨62, _⟩ => ⟨S40128, .i1⟩
  | .hbm, ⟨63, _⟩ => ⟨S_, .i32⟩
  | .hbm, ⟨64, _⟩ => ⟨S40128, .i32⟩
  | .hbm, ⟨65, _⟩ => ⟨S40128, .i32⟩
  | .hbm, ⟨66, _⟩ => ⟨S40128, .i32⟩
  | .hbm, ⟨67, _⟩ => ⟨S_, .i32⟩
  | .hbm, ⟨68, _⟩ => ⟨S40128, .i32⟩
  | .hbm, ⟨69, _⟩ => ⟨S40128, .i1⟩
  | .hbm, ⟨70, _⟩ => ⟨S_, .i32⟩
  | .hbm, ⟨71, _⟩ => ⟨S40128, .i32⟩
  | .hbm, ⟨72, _⟩ => ⟨S40128, .i32⟩
  | .hbm, ⟨73, _⟩ => ⟨S40128, .i32⟩
  | .hbm, ⟨74, _⟩ => ⟨S40128x1, .i32⟩
  | .hbm, ⟨75, _⟩ => ⟨S40128x1, .i32⟩
  | .hbm, ⟨76, _⟩ => ⟨S40128x2, .i32⟩
  | .hbm, ⟨77, _⟩ => ⟨S1216x1216, .f32⟩
  | .hbm, ⟨78, _⟩ => ⟨S1216x1216, .f32⟩
  | .hbm, ⟨79, _⟩ => ⟨S1x1, .f32⟩
  | .hbm, ⟨80, _⟩ => ⟨S1x1216, .f32⟩
  | .hbm, ⟨81, _⟩ => ⟨S1x1216, .f32⟩
  | .hbm, ⟨82, _⟩ => ⟨S1, .f32⟩
  | .hbm, ⟨83, _⟩ => ⟨S_, .f32⟩
  | .hbm, ⟨84, _⟩ => ⟨S1x1216, .f32⟩
  | .hbm, ⟨85, _⟩ => ⟨S1x1216, .f32⟩
  | .hbm, ⟨86, _⟩ => ⟨S1, .f32⟩
  | .hbm, ⟨87, _⟩ => ⟨S_, .f32⟩
  | .hbm, ⟨88, _⟩ => ⟨S1x1216, .f32⟩
  | .hbm, ⟨89, _⟩ => ⟨S1x1216, .f32⟩
  | .hbm, ⟨90, _⟩ => ⟨S1x1216, .f32⟩
  | .hbm, ⟨91, _⟩ => ⟨S1x1216, .f32⟩
  | .hbm, ⟨92, _⟩ => ⟨S1, .f32⟩
  | .hbm, ⟨93, _⟩ => ⟨S_, .f32⟩
  | .hbm, ⟨94, _⟩ => ⟨S1x1216, .f32⟩
  | .hbm, ⟨95, _⟩ => ⟨S1x1216, .f32⟩
  | .hbm, ⟨96, _⟩ => ⟨S1x1216, .f32⟩
  | .hbm, ⟨97, _⟩ => ⟨S1, .f32⟩
  | .hbm, ⟨98, _⟩ => ⟨S_, .f32⟩
  | .hbm, ⟨99, _⟩ => ⟨S1x1216, .f32⟩
  | .hbm, ⟨100, _⟩ => ⟨S1x1216, .f32⟩
  | .hbm, ⟨101, _⟩ => ⟨S1x1216, .f32⟩
  | .hbm, ⟨102, _⟩ => ⟨S1x1216, .f32⟩
  | .hbm, ⟨103, _⟩ => ⟨S1x1216, .f32⟩
  | .hbm, ⟨104, _⟩ => ⟨S1, .f32⟩
  | .hbm, ⟨105, _⟩ => ⟨S_, .f32⟩
  | .hbm, ⟨106, _⟩ => ⟨S1x1216, .f32⟩
  | .hbm, ⟨107, _⟩ => ⟨S1x1216, .f32⟩
  | .hbm, ⟨108, _⟩ => ⟨S1x1216, .f32⟩
  | .hbm, ⟨109, _⟩ => ⟨S1, .f32⟩
  | .hbm, ⟨110, _⟩ => ⟨S_, .f32⟩
  | .hbm, ⟨111, _⟩ => ⟨S1x1216, .f32⟩
  | .hbm, ⟨112, _⟩ => ⟨S1x1216, .f32⟩
  | .hbm, ⟨113, _⟩ => ⟨S1x1216, .f32⟩
  | .hbm, ⟨114, _⟩ => ⟨S1x1216, .f32⟩
  | .hbm, ⟨115, _⟩ => ⟨S1x1216, .f32⟩
  | .hbm, ⟨116, _⟩ => ⟨S1, .f32⟩
  | .hbm, ⟨117, _⟩ => ⟨S_, .f32⟩
  | .hbm, ⟨118, _⟩ => ⟨S1x1216, .f32⟩
  | .hbm, ⟨119, _⟩ => ⟨S1x1216, .f32⟩
  | .hbm, ⟨120, _⟩ => ⟨S1x1216, .f32⟩
  | .hbm, ⟨121, _⟩ => ⟨S1, .f32⟩
  | .hbm, ⟨122, _⟩ => ⟨S_, .f32⟩
  | .hbm, ⟨123, _⟩ => ⟨S1x1216, .f32⟩
  | .hbm, ⟨124, _⟩ => ⟨S1x1216, .f32⟩
  | .hbm, ⟨125, _⟩ => ⟨S1x1216, .f32⟩
  | .hbm, ⟨126, _⟩ => ⟨S4096x1216, .f32⟩
  | .hbm, ⟨127, _⟩ => ⟨S4096x1x19x64, .f32⟩
  | .local _ .vmem, ⟨0, _⟩ => ⟨S1024x1216, .f32⟩
  | .local _ .vmem, ⟨1, _⟩ => ⟨S1024x1216, .f32⟩
  | .local _ .vmem, ⟨2, _⟩ => ⟨S1x1216, .f32⟩
  | .local _ .vmem, ⟨3, _⟩ => ⟨S1x1, .f32⟩
  | .local _ .vmem, ⟨4, _⟩ => ⟨S1x1216, .f32⟩
  | .local _ .vmem, ⟨5, _⟩ => ⟨S1x1216, .f32⟩
  | .local _ .vmem, ⟨6, _⟩ => ⟨S1024x1216, .f32⟩
  | .local _ .vmem, ⟨7, _⟩ => ⟨S1024x1216, .f32⟩
  | _, _ => ⟨S4096x1216, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_c_0 : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_cst : Ref sig .tc := ⟨.hbm, 22, rfl⟩
abbrev main_v8 : Ref sig .tc := ⟨.hbm, 23, rfl⟩
abbrev main_cst_1 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_cst_2 : Ref sig .tc := ⟨.hbm, 28, rfl⟩
abbrev main_v12 : Ref sig .tc := ⟨.hbm, 29, rfl⟩
abbrev main_v13 : Ref sig .tc := ⟨.hbm, 30, rfl⟩
abbrev main_cst_3 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_cst_4 : Ref sig .tc := ⟨.hbm, 35, rfl⟩
abbrev main_call1_v0 : Ref sig .tc := ⟨.hbm, 36, rfl⟩
abbrev main_call1_v1 : Ref sig .tc := ⟨.hbm, 37, rfl⟩
abbrev main_v17 : Ref sig .tc := ⟨.hbm, 38, rfl⟩
abbrev main_c_5 : Ref sig .tc := ⟨.hbm, 39, rfl⟩
abbrev main_v18 : Ref sig .tc := ⟨.hbm, 40, rfl⟩
abbrev main_v19 : Ref sig .tc := ⟨.hbm, 41, rfl⟩
abbrev main_c_6 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_c_7 : Ref sig .tc := ⟨.hbm, 48, rfl⟩
abbrev main_v25 : Ref sig .tc := ⟨.hbm, 49, rfl⟩
abbrev main_v26 : Ref sig .tc := ⟨.hbm, 50, rfl⟩
abbrev main_c_8 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_cst_9 : Ref sig .tc := ⟨.hbm, 58, rfl⟩
abbrev main_v33 : Ref sig .tc := ⟨.hbm, 59, rfl⟩
abbrev main_c_10 : Ref sig .tc := ⟨.hbm, 60, rfl⟩
abbrev main_v34 : Ref sig .tc := ⟨.hbm, 61, rfl⟩
abbrev main_v35 : Ref sig .tc := ⟨.hbm, 62, rfl⟩
abbrev main_c_11 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_c_12 : Ref sig .tc := ⟨.hbm, 67, rfl⟩
abbrev main_v39 : Ref sig .tc := ⟨.hbm, 68, rfl⟩
abbrev main_v40 : Ref sig .tc := ⟨.hbm, 69, rfl⟩
abbrev main_c_13 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩
abbrev main_v95 : Ref sig .tc := ⟨.hbm, 125, rfl⟩
abbrev main_v96 : Ref sig .tc := ⟨.hbm, 126, rfl⟩
abbrev main_v97 : Ref sig .tc := ⟨.hbm, 127, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1216 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1216 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1216 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1216 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x1216 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  bcast_S_S2x38912 : S_.BroadcastsInDim S2x38912 (![] : Fin 0 → Fin S2x38912.rank)
  slices_S2x38912_S1x38912_0_0 : S2x38912.Slices ![0, 0] S1x38912
  shapeCasts_S1x38912_S38912 : S1x38912.ShapeCasts S38912
  concatenates_S38912_S1216_S40128_d0 : Shape.Concatenates [S38912, S1216] S40128 0
  slices_S2x38912_S1x38912_1_0 : S2x38912.Slices ![1, 0] S1x38912
  bcast_S_S40128 : S_.BroadcastsInDim S40128 (![] : Fin 0 → Fin S40128.rank)
  bcast_S_S1216 : S_.BroadcastsInDim S1216 (![] : Fin 0 → Fin S1216.rank)
  bcast_S40128_S40128x1_0 : S40128.BroadcastsInDim S40128x1 (![0] : Fin 1 → Fin S40128x1.rank)
  bcast_S_S1216x1216 : S_.BroadcastsInDim S1216x1216 (![] : Fin 0 → Fin S1216x1216.rank)
  concatenates_S40128x1_S40128x1_S40128x2_d1 : Shape.Concatenates [S40128x1, S40128x1] S40128x2 1
  transposes_S1216x1216_S1216x1216_1_0 : S1216x1216.Transposes [1, 0] S1216x1216
  shapeCasts_S1_S1x1 : S1.ShapeCasts S1x1
  transposes_S1216x1_S1x1216_1_0 : S1216x1.Transposes [1, 0] S1x1216
  shapeCasts_S1216_S1x1216 : S1216.ShapeCasts S1x1216
  slices_S4_S1_0 : S4.Slices ![0] S1
  shapeCasts_S1_S_ : S1.ShapeCasts S_
  bcast_S_S1x1216 : S_.BroadcastsInDim S1x1216 (![] : Fin 0 → Fin S1x1216.rank)
  slices_S4_S1_1 : S4.Slices ![1] S1
  slices_S4_S1_2 : S4.Slices ![2] S1
  slices_S4_S1_3 : S4.Slices ![3] S1
  inb_S1024x1216_S1024x1216_0_0 : ∀ a, (![0, 0] : Fin 2 → Nat) a + S1024x1216.size a ≤ S1024x1216.size a
  h_S1024x1216 : 0 < S1024x1216.numel
  inb_S1x1216_S1x1216_0_0 : ∀ a, (![0, 0] : Fin 2 → Nat) a + S1x1216.size a ≤ S1x1216.size a
  h_S1x1216 : 0 < S1x1216.numel
  broadcasts_S1x1216_S1024x1216 : S1x1216.Broadcasts S1024x1216
  reduces_S1024x1216_S1024 : S1024x1216.Reduces [1] S1024
  shapeCasts_S1024_S1024x1 : S1024.ShapeCasts S1024x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S1024x1 : S1x1.Broadcasts S1024x1
  shapeCasts_S1x1216_S1x1216 : S1x1216.ShapeCasts S1x1216
  broadcasts_S1024x1_S1024x1216 : S1024x1.Broadcasts S1024x1216
  slices_S1024x1216_o0_0_S1024x64 : S1024x1216.Slices ![0, 0] S1024x64
  reduces_S1024x64_S1024 : S1024x64.Reduces [1] S1024
  broadcasts_S1024x1_S1024x64 : S1024x1.Broadcasts S1024x64
  slices_S1024x1216_o0_64_S1024x64 : S1024x1216.Slices ![0, 64] S1024x64
  slices_S1024x1216_o0_128_S1024x64 : S1024x1216.Slices ![0, 128] S1024x64
  slices_S1024x1216_o0_192_S1024x64 : S1024x1216.Slices ![0, 192] S1024x64
  slices_S1024x1216_o0_256_S1024x64 : S1024x1216.Slices ![0, 256] S1024x64
  slices_S1024x1216_o0_320_S1024x64 : S1024x1216.Slices ![0, 320] S1024x64
  slices_S1024x1216_o0_384_S1024x64 : S1024x1216.Slices ![0, 384] S1024x64
  slices_S1024x1216_o0_448_S1024x64 : S1024x1216.Slices ![0, 448] S1024x64
  slices_S1024x1216_o0_512_S1024x64 : S1024x1216.Slices ![0, 512] S1024x64
  slices_S1024x1216_o0_576_S1024x64 : S1024x1216.Slices ![0, 576] S1024x64
  slices_S1024x1216_o0_640_S1024x64 : S1024x1216.Slices ![0, 640] S1024x64
  slices_S1024x1216_o0_704_S1024x64 : S1024x1216.Slices ![0, 704] S1024x64
  slices_S1024x1216_o0_768_S1024x64 : S1024x1216.Slices ![0, 768] S1024x64
  slices_S1024x1216_o0_832_S1024x64 : S1024x1216.Slices ![0, 832] S1024x64
  slices_S1024x1216_o0_896_S1024x64 : S1024x1216.Slices ![0, 896] S1024x64
  slices_S1024x1216_o0_960_S1024x64 : S1024x1216.Slices ![0, 960] S1024x64
  slices_S1024x1216_o0_1024_S1024x64 : S1024x1216.Slices ![0, 1024] S1024x64
  slices_S1024x1216_o0_1088_S1024x64 : S1024x1216.Slices ![0, 1088] S1024x64
  slices_S1024x1216_o0_1152_S1024x64 : S1024x1216.Slices ![0, 1152] S1024x64
  concatenates_S1024x64_S1024x64_S1024x64_S1024x64_S1024x64_S1024x64_S1024x64_S1024x64_S1024x64_S1024x64_S1024x64_S1024x64_S1024x64_S1024x64_S1024x64_S1024x64_S1024x64_S1024x64_S1024x64_S1024x1216_d1 : Shape.Concatenates [S1024x64, S1024x64, S1024x64, S1024x64, S1024x64, S1024x64, S1024x64, S1024x64, S1024x64, S1024x64, S1024x64, S1024x64, S1024x64, S1024x64, S1024x64, S1024x64, S1024x64, S1024x64, S1024x64] S1024x1216 1
  shapeCasts_S4096x1216_S4096x1x19x64 : S4096x1216.ShapeCasts S4096x1x19x64
  scatter_S1216_S40128x1_S40128_n_0_0_1_wf : ScatterDims.WF S1216 S40128x1 S40128 [] [0] [0] 1
  gather_S1216_S40128x1_S40128_n_0_n_n_0_1_1_wf : GatherDims.WF S1216 S40128x1 S40128 [] [0] [] [0] [] 1 ![1]
  scatter_S1216x1216_S40128x2_S40128_n_01_01_1_wf : ScatterDims.WF S1216x1216 S40128x2 S40128 [] [0, 1] [0, 1] 1
  dot_S1x1216_S1216x1216_S1x1216_1_0_0_1_n_n_wf : DotDims.WF S1x1216 S1216x1216 S1x1216 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1216.size a ≤ S4096x1216.size a
  hwx0_0 : ∀ i : grid0.Coords, EltTy.bits .f32 = 32 ∨ (Rect.block (s := S4096x1216) S1024x1216.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x1216.size a ≤ S1x1216.size a
  hwx0_1 : ∀ i : grid0.Coords, EltTy.bits .f32 = 32 ∨ (Rect.block (s := S1x1216) S1x1216.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1.size a ≤ S1x1.size a
  hwx0_2 : ∀ i : grid0.Coords, EltTy.bits .f32 = 32 ∨ (Rect.block (s := S1x1) S1x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1216.size a ≤ S1x1216.size a
  hwx0_3 : ∀ i : grid0.Coords, EltTy.bits .f32 = 32 ∨ (Rect.block (s := S1x1216) S1x1216.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1216.size a ≤ S1x1216.size a
  hwx0_4 : ∀ i : grid0.Coords, EltTy.bits .f32 = 32 ∨ (Rect.block (s := S1x1216) S1x1216.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x1216.size a ≤ S4096x1216.size a
  hwx0_5 : ∀ i : grid0.Coords, EltTy.bits .f32 = 32 ∨ (Rect.block (s := S4096x1216) S1024x1216.size (cc0_transform_5 i) (hinb0_5 i)).WholeWords (EltTy.packing .f32)

variable [Facts₀]

def scatter_S1216_S40128x1_S40128_n_0_0_1 : ScatterDims S1216 S40128x1 S40128 where
  updateWindowDims := []
  insertedWindowDims := [0]
  scatterDimsToOperandDims := [0]
  indexVectorDim := 1
  wf := scatter_S1216_S40128x1_S40128_n_0_0_1_wf
def gather_S1216_S40128x1_S40128_n_0_n_n_0_1_1 : GatherDims S1216 S40128x1 S40128 where
  offsetDims := []
  collapsedSliceDims := [0]
  operandBatchingDims := []
  startIndicesBatchingDims := []
  startIndexMap := [0]
  indexVectorDim := 1
  sliceSizes := ![1]
  wf := gather_S1216_S40128x1_S40128_n_0_n_n_0_1_1_wf
def scatter_S1216x1216_S40128x2_S40128_n_01_01_1 : ScatterDims S1216x1216 S40128x2 S40128 where
  updateWindowDims := []
  insertedWindowDims := [0, 1]
  scatterDimsToOperandDims := [0, 1]
  indexVectorDim := 1
  wf := scatter_S1216x1216_S40128x2_S40128_n_01_01_1_wf
def dot_S1x1216_S1216x1216_S1x1216_1_0_0_1_n_n : DotDims S1x1216 S1216x1216 S1x1216 where
  lhsContracting := [1]
  rhsContracting := [0]
  lhsNonContracting := [0]
  rhsNonContracting := [1]
  lhsBatch := []
  rhsBatch := []
  wf := dot_S1x1216_S1216x1216_S1x1216_1_0_0_1_n_n_wf

abbrev win0_0 : Pipeline.Window sig grid0 :=
  Pipeline.Window.ofSpec (Memref.whole main_arg0) S1024x1216.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S1x1216.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v49) S1x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v90) S1x1216.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v95) S1x1216.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v96) S1024x1216.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S4096x1216 : Shape := ⟨2, ![4096, 1216]⟩
abbrev S2x38912 : Shape := ⟨2, ![2, 38912]⟩
abbrev S1x1216 : Shape := ⟨2, ![1, 1216]⟩
abbrev S1 : Shape := ⟨1, ![1]⟩
abbrev S1216x1 : Shape := ⟨2, ![1216, 1]⟩
abbrev S1216 : Shape := ⟨1, ![1216]⟩
abbrev S4 : Shape := ⟨1, ![4]⟩
abbrev S4096x1 : Shape := ⟨2, ![4096, 1]⟩
abbrev S1x1 : Shape := ⟨2, ![1, 1]⟩
abbrev S_ : Shape := ⟨0, ![]⟩
abbrev S1x38912 : Shape := ⟨2, ![1, 38912]⟩
abbrev S38912 : Shape := ⟨1, ![38912]⟩
abbrev S40128 : Shape := ⟨1, ![40128]⟩
abbrev S40128x1 : Shape := ⟨2, ![40128, 1]⟩
abbrev S1216x4096 : Shape := ⟨2, ![1216, 4096]⟩
abbrev S40128x4096 : Shape := ⟨2, ![40128, 4096]⟩
abbrev S4096x1x19x64 : Shape := ⟨4, ![4096, 1, 19, 64]⟩
abbrev S4096x1x19 : Shape := ⟨3, ![4096, 1, 19]⟩
abbrev S4096x1x19x1 : Shape := ⟨4, ![4096, 1, 19, 1]⟩

abbrev nBuf : Space → Nat
  | .hbm => 149
  | .vmem => 0
  | .smem => 0
  | _ => 0

abbrev hbmTy0_0 (i : Nat) : BufTy := match i % 128 with
  | 0 => ⟨S4096x1216, .f32⟩
  | 1 => ⟨S2x38912, .i32⟩
  | 2 => ⟨S1x1216, .f32⟩
  | 3 => ⟨S1, .f32⟩
  | 4 => ⟨S1216x1, .f32⟩
  | 5 => ⟨S1216, .f32⟩
  | 6 => ⟨S4, .f32⟩
  | 7 => ⟨S1216x1, .f32⟩
  | 8 => ⟨S4096x1, .f32⟩
  | 9 => ⟨S1x1, .f32⟩
  | 10 => ⟨S4096x1, .f32⟩
  | 11 => ⟨S4096x1, .f32⟩
  | 12 => ⟨S_, .f32⟩
  | 13 => ⟨S4096x1, .f32⟩
  | 14 => ⟨S4096x1, .f32⟩
  | 15 => ⟨S1x1216, .f32⟩
  | 16 => ⟨S4096x1216, .f32⟩
  | 17 => ⟨S1x1216, .f32⟩
  | 18 => ⟨S4096x1216, .f32⟩
  | 19 => ⟨S4096x1216, .f32⟩
  | 20 => ⟨S1216, .i32⟩
  | 21 => ⟨S1x38912, .i32⟩
  | 22 => ⟨S38912, .i32⟩
  | 23 => ⟨S40128, .i32⟩
  | 24 => ⟨S1x38912, .i32⟩
  | 25 => ⟨S38912, .i32⟩
  | 26 => ⟨S40128, .i32⟩
  | 27 => ⟨S_, .f32⟩
  | 28 => ⟨S40128, .f32⟩
  | 29 => ⟨S_, .f32⟩
  | 30 => ⟨S1216, .f32⟩
  | 31 => ⟨S40128x1, .i32⟩
  | 32 => ⟨S1216, .f32⟩
  | 33 => ⟨S_, .f32⟩
  | 34 => ⟨S1216, .f32⟩
  | 35 => ⟨S1216, .i1⟩
  | 36 => ⟨S_, .f32⟩
  | 37 => ⟨S1216, .f32⟩
  | 38 => ⟨S1216, .f32⟩
  | 39 => ⟨S1216, .f32⟩
  | 40 => ⟨S_, .f32⟩
  | 41 => ⟨S_, .f32⟩
  | 42 => ⟨S1216, .f32⟩
  | 43 => ⟨S1216, .f32⟩
  | 44 => ⟨S_, .i32⟩
  | 45 => ⟨S40128, .i32⟩
  | 46 => ⟨S40128, .i1⟩
  | 47 => ⟨S_, .i32⟩
  | 48 => ⟨S40128, .i32⟩
  | 49 => ⟨S40128, .i32⟩
  | 50 => ⟨S40128, .i32⟩
  | 51 => ⟨S40128x1, .i32⟩
  | 52 => ⟨S40128, .f32⟩
  | 53 => ⟨S_, .i32⟩
  | 54 => ⟨S40128, .i32⟩
  | 55 => ⟨S40128, .i1⟩
  | 56 => ⟨S_, .i32⟩
  | 57 => ⟨S40128, .i32⟩
  | 58 => ⟨S40128, .i32⟩
  | 59 => ⟨S40128, .i32⟩
  | 60 => ⟨S40128x1, .i32⟩
  | 61 => ⟨S40128, .f32⟩
  | 62 => ⟨S40128, .f32⟩
  | 63 => ⟨S1, .f32⟩
  | 64 => ⟨S_, .f32⟩
  | 65 => ⟨S4096x1216, .f32⟩
  | 66 => ⟨S4096x1216, .f32⟩
  | 67 => ⟨S1216x4096, .f32⟩
  | 68 => ⟨S1216x4096, .f32⟩
  | 69 => ⟨S40128x1, .f32⟩
  | 70 => ⟨S_, .i32⟩
  | 71 => ⟨S40128, .i32⟩
  | 72 => ⟨S40128, .i1⟩
  | 73 => ⟨S_, .i32⟩
  | 74 => ⟨S40128, .i32⟩
  | 75 => ⟨S40128, .i32⟩
  | 76 => ⟨S40128, .i32⟩
  | 77 => ⟨S40128x1, .i32⟩
  | 78 => ⟨S40128x4096, .f32⟩
  | 79 => ⟨S40128x4096, .f32⟩
  | 80 => ⟨S40128x4096, .f32⟩
  | 81 => ⟨S_, .f32⟩
  | 82 => ⟨S1216x4096, .f32⟩
  | 83 => ⟨S40128x1, .i32⟩
  | 84 => ⟨S1216x4096, .f32⟩
  | 85 => ⟨S1, .f32⟩
  | 86 => ⟨S_, .f32⟩
  | 87 => ⟨S1216x4096, .f32⟩
  | 88 => ⟨S1216x4096, .f32⟩
  | 89 => ⟨S1216x4096, .f32⟩
  | 90 => ⟨S40128x1, .f32⟩
  | 91 => ⟨S_, .i32⟩
  | 92 => ⟨S40128, .i32⟩
  | 93 => ⟨S40128, .i1⟩
  | 94 => ⟨S_, .i32⟩
  | 95 => ⟨S40128, .i32⟩
  | 96 => ⟨S40128, .i32⟩
  | 97 => ⟨S40128, .i32⟩
  | 98 => ⟨S40128x1, .i32⟩
  | 99 => ⟨S40128x4096, .f32⟩
  | 100 => ⟨S40128x4096, .f32⟩
  | 101 => ⟨S40128x4096, .f32⟩
  | 102 => ⟨S_, .f32⟩
  | 103 => ⟨S1216x4096, .f32⟩
  | 104 => ⟨S40128x1, .i32⟩
  | 105 => ⟨S1216x4096, .f32⟩
  | 106 => ⟨S1, .f32⟩
  | 107 => ⟨S_, .f32⟩
  | 108 => ⟨S1216x4096, .f32⟩
  | 109 => ⟨S1216x4096, .f32⟩
  | 110 => ⟨S1216x4096, .f32⟩
  | 111 => ⟨S40128x1, .f32⟩
  | 112 => ⟨S_, .i32⟩
  | 113 => ⟨S40128, .i32⟩
  | 114 => ⟨S40128, .i1⟩
  | 115 => ⟨S_, .i32⟩
  | 116 => ⟨S40128, .i32⟩
  | 117 => ⟨S40128, .i32⟩
  | 118 => ⟨S40128, .i32⟩
  | 119 => ⟨S40128x1, .i32⟩
  | 120 => ⟨S40128x4096, .f32⟩
  | 121 => ⟨S40128x4096, .f32⟩
  | 122 => ⟨S40128x4096, .f32⟩
  | 123 => ⟨S_, .f32⟩
  | 124 => ⟨S1216x4096, .f32⟩
  | 125 => ⟨S40128x1, .i32⟩
  | 126 => ⟨S1216x4096, .f32⟩
  | 127 => ⟨S1, .f32⟩
  | _ => ⟨S4096x1216, .f32⟩

abbrev hbmTy0_1 (i : Nat) : BufTy := match i % 128 with
  | 0 => ⟨S_, .f32⟩
  | 1 => ⟨S1216x4096, .f32⟩
  | 2 => ⟨S1216x4096, .f32⟩
  | 3 => ⟨S1216x4096, .f32⟩
  | 4 => ⟨S4096x1216, .f32⟩
  | 5 => ⟨S4096x1x19x64, .f32⟩
  | 6 => ⟨S_, .f32⟩
  | 7 => ⟨S4096x1x19, .f32⟩
  | 8 => ⟨S_, .f32⟩
  | 9 => ⟨S4096x1x19, .f32⟩
  | 10 => ⟨S4096x1x19, .f32⟩
  | 11 => ⟨S4096x1x19x1, .f32⟩
  | 12 => ⟨S4096x1x19x64, .f32⟩
  | 13 => ⟨S4096x1x19x64, .f32⟩
  | 14 => ⟨S4096x1x19x64, .f32⟩
  | 15 => ⟨S_, .f32⟩
  | 16 => ⟨S4096x1x19, .f32⟩
  | 17 => ⟨S4096x1x19x1, .f32⟩
  | 18 => ⟨S4096x1x19x1, .f32⟩
  | 19 => ⟨S4096x1x19x64, .f32⟩
  | 20 => ⟨S4096x1x19x64, .f32⟩
  | _ => ⟨S4096x1216, .f32⟩

abbrev hbmTy (i : Nat) : BufTy := match i / 128 with
  | 0 => hbmTy0_0 i
  | 1 => hbmTy0_1 i
  | _ => ⟨S4096x1216, .f32⟩

abbrev bufTy : (tb : Table) → Fin (tcTables nBuf tb) → BufTy
  | .hbm, ⟨i, _⟩ => hbmTy i
  | _, _ => ⟨S4096x1216, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_call0_cst : Ref sig .tc := ⟨.hbm, 12, rfl⟩
abbrev main_call0_v0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst : Ref sig .tc := ⟨.hbm, 27, rfl⟩
abbrev main_v18 : Ref sig .tc := ⟨.hbm, 28, rfl⟩
abbrev main_cst_0 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_1 : Ref sig .tc := ⟨.hbm, 33, rfl⟩
abbrev main_v22 : Ref sig .tc := ⟨.hbm, 34, rfl⟩
abbrev main_v23 : Ref sig .tc := ⟨.hbm, 35, rfl⟩
abbrev main_cst_2 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_3 : Ref sig .tc := ⟨.hbm, 40, rfl⟩
abbrev main_call1_v0 : Ref sig .tc := ⟨.hbm, 41, rfl⟩
abbrev main_call1_v1 : Ref sig .tc := ⟨.hbm, 42, rfl⟩
abbrev main_v27 : Ref sig .tc := ⟨.hbm, 43, rfl⟩
abbrev main_c : Ref sig .tc := ⟨.hbm, 44, rfl⟩
abbrev main_v28 : Ref sig .tc := ⟨.hbm, 45, rfl⟩
abbrev main_v29 : Ref sig .tc := ⟨.hbm, 46, rfl⟩
abbrev main_c_4 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_c_5 : Ref sig .tc := ⟨.hbm, 53, rfl⟩
abbrev main_v35 : Ref sig .tc := ⟨.hbm, 54, rfl⟩
abbrev main_v36 : Ref sig .tc := ⟨.hbm, 55, rfl⟩
abbrev main_c_6 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_c_7 : Ref sig .tc := ⟨.hbm, 70, rfl⟩
abbrev main_v50 : Ref sig .tc := ⟨.hbm, 71, rfl⟩
abbrev main_v51 : Ref sig .tc := ⟨.hbm, 72, rfl⟩
abbrev main_c_8 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_cst_9 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_c_10 : Ref sig .tc := ⟨.hbm, 91, rfl⟩
abbrev main_v68 : Ref sig .tc := ⟨.hbm, 92, rfl⟩
abbrev main_v69 : Ref sig .tc := ⟨.hbm, 93, rfl⟩
abbrev main_c_11 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_cst_12 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_c_13 : Ref sig .tc := ⟨.hbm, 112, rfl⟩
abbrev main_v86 : Ref sig .tc := ⟨.hbm, 113, rfl⟩
abbrev main_v87 : Ref sig .tc := ⟨.hbm, 114, rfl⟩
abbrev main_c_14 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩
abbrev main_v93 : Ref sig .tc := ⟨.hbm, 121, rfl⟩
abbrev main_v94 : Ref sig .tc := ⟨.hbm, 122, rfl⟩
abbrev main_cst_15 : Ref sig .tc := ⟨.hbm, 123, rfl⟩
abbrev main_v95 : Ref sig .tc := ⟨.hbm, 124, rfl⟩
abbrev main_v96 : Ref sig .tc := ⟨.hbm, 125, rfl⟩
abbrev main_v97 : Ref sig .tc := ⟨.hbm, 126, rfl⟩
abbrev main_v98 : Ref sig .tc := ⟨.hbm, 127, rfl⟩
abbrev main_v99 : Ref sig .tc := ⟨.hbm, 128, rfl⟩
abbrev main_v100 : Ref sig .tc := ⟨.hbm, 129, rfl⟩
abbrev main_v101 : Ref sig .tc := ⟨.hbm, 130, rfl⟩
abbrev main_v102 : Ref sig .tc := ⟨.hbm, 131, rfl⟩
abbrev main_v103 : Ref sig .tc := ⟨.hbm, 132, rfl⟩
abbrev main_v104 : Ref sig .tc := ⟨.hbm, 133, rfl⟩
abbrev main_call2_cst : Ref sig .tc := ⟨.hbm, 134, rfl⟩
abbrev main_call2_v0 : Ref sig .tc := ⟨.hbm, 135, rfl⟩
abbrev main_call2_cst_0 : Ref sig .tc := ⟨.hbm, 136, rfl⟩
abbrev main_call2_v1 : Ref sig .tc := ⟨.hbm, 137, rfl⟩
abbrev main_call2_v2 : Ref sig .tc := ⟨.hbm, 138, rfl⟩
abbrev main_call2_v3 : Ref sig .tc := ⟨.hbm, 139, rfl⟩
abbrev main_call2_v4 : Ref sig .tc := ⟨.hbm, 140, rfl⟩
abbrev main_call2_v5 : Ref sig .tc := ⟨.hbm, 141, rfl⟩
abbrev main_call2_v6 : Ref sig .tc := ⟨.hbm, 142, rfl⟩
abbrev main_call2_cst_1 : Ref sig .tc := ⟨.hbm, 143, rfl⟩
abbrev main_call2_v7 : Ref sig .tc := ⟨.hbm, 144, rfl⟩
abbrev main_call2_v8 : Ref sig .tc := ⟨.hbm, 145, rfl⟩
abbrev main_call2_v9 : Ref sig .tc := ⟨.hbm, 146, rfl⟩
abbrev main_call2_v10 : Ref sig .tc := ⟨.hbm, 147, rfl⟩
abbrev main_v105 : Ref sig .tc := ⟨.hbm, 148, rfl⟩

abbrev nD : Nat := 1
abbrev τ : Topo := Topo.v7x

variable {F : FTy → Type} [FloatOps F]

class Facts₀ : Prop where
  transposes_S1x1216_S1216x1_1_0 : S1x1216.Transposes [1, 0] S1216x1
  bcast_S1_S1x1_1 : S1.BroadcastsInDim S1x1 (![1] : Fin 1 → Fin S1x1.rank)
  bcast_S1x1_S4096x1_0_1 : S1x1.BroadcastsInDim S4096x1 (![0, 1] : Fin 2 → Fin S4096x1.rank)
  bcast_S_S4096x1 : S_.BroadcastsInDim S4096x1 (![] : Fin 0 → Fin S4096x1.rank)
  transposes_S1216x1_S1x1216_1_0 : S1216x1.Transposes [1, 0] S1x1216
  bcast_S1216_S1x1216_1 : S1216.BroadcastsInDim S1x1216 (![1] : Fin 1 → Fin S1x1216.rank)
  bcast_S1x1216_S4096x1216_0_1 : S1x1216.BroadcastsInDim S4096x1216 (![0, 1] : Fin 2 → Fin S4096x1216.rank)
  slices_S2x38912_S1x38912_0_0 : S2x38912.Slices ![0, 0] S1x38912
  shapeCasts_S1x38912_S38912 : S1x38912.ShapeCasts S38912
  concatenates_S38912_S1216_S40128_d0 : Shape.Concatenates [S38912, S1216] S40128 0
  slices_S2x38912_S1x38912_1_0 : S2x38912.Slices ![1, 0] S1x38912
  bcast_S_S40128 : S_.BroadcastsInDim S40128 (![] : Fin 0 → Fin S40128.rank)
  bcast_S_S1216 : S_.BroadcastsInDim S1216 (![] : Fin 0 → Fin S1216.rank)
  bcast_S40128_S40128x1_0 : S40128.BroadcastsInDim S40128x1 (![0] : Fin 1 → Fin S40128x1.rank)
  slices_S4_S1_0 : S4.Slices ![0] S1
  shapeCasts_S1_S_ : S1.ShapeCasts S_
  bcast_S_S4096x1216 : S_.BroadcastsInDim S4096x1216 (![] : Fin 0 → Fin S4096x1216.rank)
  transposes_S4096x1216_S1216x4096_1_0 : S4096x1216.Transposes [1, 0] S1216x4096
  bcast_S40128x1_S40128x4096_0_1 : S40128x1.BroadcastsInDim S40128x4096 (![0, 1] : Fin 2 → Fin S40128x4096.rank)
  bcast_S_S1216x4096 : S_.BroadcastsInDim S1216x4096 (![] : Fin 0 → Fin S1216x4096.rank)
  slices_S4_S1_1 : S4.Slices ![1] S1
  slices_S4_S1_2 : S4.Slices ![2] S1
  slices_S4_S1_3 : S4.Slices ![3] S1
  transposes_S1216x4096_S4096x1216_1_0 : S1216x4096.Transposes [1, 0] S4096x1216
  shapeCasts_S4096x1216_S4096x1x19x64 : S4096x1216.ShapeCasts S4096x1x19x64
  reducesTo_S4096x1x19x64_S4096x1x19_d3 : S4096x1x19x64.ReducesTo [3] S4096x1x19
  h_S_ : 0 < S_.numel
  bcast_S_S4096x1x19 : S_.BroadcastsInDim S4096x1x19 (![] : Fin 0 → Fin S4096x1x19.rank)
  bcast_S4096x1x19_S4096x1x19x1_0_1_2 : S4096x1x19.BroadcastsInDim S4096x1x19x1 (![0, 1, 2] : Fin 3 → Fin S4096x1x19x1.rank)
  bcast_S4096x1x19x1_S4096x1x19x64_0_1_2_3 : S4096x1x19x1.BroadcastsInDim S4096x1x19x64 (![0, 1, 2, 3] : Fin 4 → Fin S4096x1x19x64.rank)
  dot_S4096x1216_S1216x1_S4096x1_1_0_0_1_n_n_wf : DotDims.WF S4096x1216 S1216x1 S4096x1 [1] [0] [0] [1] [] []
  dot_S4096x1_S1x1216_S4096x1216_1_0_0_1_n_n_wf : DotDims.WF S4096x1 S1x1216 S4096x1216 [1] [0] [0] [1] [] []
  scatter_S1216_S40128x1_S40128_n_0_0_1_wf : ScatterDims.WF S1216 S40128x1 S40128 [] [0] [0] 1
  gather_S1216_S40128x1_S40128_n_0_n_n_0_1_1_wf : GatherDims.WF S1216 S40128x1 S40128 [] [0] [] [0] [] 1 ![1]
  gather_S1216x4096_S40128x1_S40128x4096_1_0_n_n_0_1_14096_wf : GatherDims.WF S1216x4096 S40128x1 S40128x4096 [1] [0] [] [0] [] 1 ![1, 4096]
  scatter_S1216x4096_S40128x1_S40128x4096_1_0_0_1_wf : ScatterDims.WF S1216x4096 S40128x1 S40128x4096 [1] [0] [0] 1

variable [Facts₀]

def dot_S4096x1216_S1216x1_S4096x1_1_0_0_1_n_n : DotDims S4096x1216 S1216x1 S4096x1 where
  lhsContracting := [1]
  rhsContracting := [0]
  lhsNonContracting := [0]
  rhsNonContracting := [1]
  lhsBatch := []
  rhsBatch := []
  wf := dot_S4096x1216_S1216x1_S4096x1_1_0_0_1_n_n_wf
def dot_S4096x1_S1x1216_S4096x1216_1_0_0_1_n_n : DotDims S4096x1 S1x1216 S4096x1216 where
  lhsContracting := [1]
  rhsContracting := [0]
  lhsNonContracting := [0]
  rhsNonContracting := [1]
  lhsBatch := []
  rhsBatch := []
  wf := dot_S4096x1_S1x1216_S4096x1216_1_0_0_1_n_n_wf
def scatter_S1216_S40128x1_S40128_n_0_0_1 : ScatterDims S1216 S40128x1 S40128 where
  updateWindowDims := []
  insertedWindowDims := [0]
  scatterDimsToOperandDims := [0]
  indexVectorDim := 1
  wf := scatter_S1216_S40128x1_S40128_n_0_0_1_wf
def gather_S1216_S40128x1_S40128_n_0_n_n_0_1_1 : GatherDims S1216 S40128x1 S40128 where
  offsetDims := []
  collapsedSliceDims := [0]
  operandBatchingDims := []
  startIndicesBatchingDims := []
  startIndexMap := [0]
  indexVectorDim := 1
  sliceSizes := ![1]
  wf := gather_S1216_S40128x1_S40128_n_0_n_n_0_1_1_wf
def gather_S1216x4096_S40128x1_S40128x4096_1_0_n_n_0_1_14096 : GatherDims S1216x4096 S40128x1 S40128x4096 where
  offsetDims := [1]
  collapsedSliceDims := [0]
  operandBatchingDims := []
  startIndicesBatchingDims := []
  startIndexMap := [0]
  indexVectorDim := 1
  sliceSizes := ![1, 4096]
  wf := gather_S1216x4096_S40128x1_S40128x4096_1_0_n_n_0_1_14096_wf
def scatter_S1216x4096_S40128x1_S40128x4096_1_0_0_1 : ScatterDims S1216x4096 S40128x1 S40128x4096 where
  updateWindowDims := [1]
  insertedWindowDims := [0]
  scatterDimsToOperandDims := [0]
  indexVectorDim := 1
  wf := scatter_S1216x4096_S40128x1_S40128x4096_1_0_0_1_wf

class Facts : Prop extends Facts₀ where

variable [Facts]
-- ==== Proof.RefRunHand.lean ====
/-
  What the buffers hold after the reference's first 83 operations.

  The reference's @main is a straight line of operations; each writes one buffer, and no buffer is written twice. The
  line is cut into six stages. After a stage, every buffer that a later stage (or the rest of the line) still reads
  holds its value as a function of the arguments: a buffer the stage writes holds its operation applied to the
  operands' contents, which are by then the operands' values; a buffer the stage does not write holds what it held
  before. What a buffer holds after the whole line is what it holds after the last stage.
-/
import proofs.«411973_j34162169872617_3_alg».proof.Proof.RefRead

noncomputable section

namespace Cert.ReferenceIdeal.Hand

open Cert.ReferenceIdeal Cert.ReferenceIdeal.Gen Cert.ReferenceIdeal.Read Idealize.ShloMosaic Idealize.ShloMosaic.TcCoe Idealize.SL.Sem Idealize.ShloMosaic.StableHlo

variable {F : FTy → Type} [FloatOps F]

/-! ## The operations, and the line cut into stages -/

/-- The operations up to and including the one that writes main_v66, in order. -/
abbrev opsA : List (HloOp τ sig (Elt F)) :=
  [ unary main_arg2 main_v0 ((transpose S1216x1 [1, 0] · transposes_S1x1216_S1216x1_1_0) : (⟨S1x1216, .f32⟩ : BufTy).Contents (Elt F) → (⟨S1216x1, .f32⟩ : BufTy).Contents (Elt F)),
    binary main_arg0 main_v0 main_v1 ((fun l r => Host.dotGeneral dot_S4096x1216_S1216x1_S4096x1_1_0_0_1_n_n none l r) : (⟨S4096x1216, .f32⟩ : BufTy).Contents (Elt F) → (⟨S1216x1, .f32⟩ : BufTy).Contents (Elt F) → (⟨S4096x1, .f32⟩ : BufTy).Contents (Elt F)),
    unary main_arg3 main_v2 (broadcastInDim S1x1 ![1] bcast_S1_S1x1_1 : (⟨S1, .f32⟩ : BufTy).Contents (Elt F) → (⟨S1x1, .f32⟩ : BufTy).Contents (Elt F)),
    unary main_v2 main_v3 (broadcastInDim S4096x1 ![0, 1] bcast_S1x1_S4096x1_0_1 : (⟨S1x1, .f32⟩ : BufTy).Contents (Elt F) → (⟨S4096x1, .f32⟩ : BufTy).Contents (Elt F)),
    binary main_v1 main_v3 main_v4 (addf : (⟨S4096x1, .f32⟩ : BufTy).Contents (Elt F) → (⟨S4096x1, .f32⟩ : BufTy).Contents (Elt F) → (⟨S4096x1, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S4096x1, .f32⟩) main_call0_v0) (broadcastInDim S4096x1 ![] bcast_S_S4096x1),
    TRef.binary (TRef.of (T := ⟨S4096x1, .f32⟩) main_v4) (TRef.of (T := ⟨S4096x1, .f32⟩) main_call0_v0) (TRef.of (T := ⟨S4096x1, .f32⟩) main_v5) maximumf,
    unary main_arg4 main_v6 ((transpose S1x1216 [1, 0] · transposes_S1216x1_S1x1216_1_0) : (⟨S1216x1, .f32⟩ : BufTy).Contents (Elt F) → (⟨S1x1216, .f32⟩ : BufTy).Contents (Elt F)),
    binary main_v5 main_v6 main_v7 ((fun l r => Host.dotGeneral dot_S4096x1_S1x1216_S4096x1216_1_0_0_1_n_n none l r) : (⟨S4096x1, .f32⟩ : BufTy).Contents (Elt F) → (⟨S1x1216, .f32⟩ : BufTy).Contents (Elt F) → (⟨S4096x1216, .f32⟩ : BufTy).Contents (Elt F)),
    unary main_arg5 main_v8 (broadcastInDim S1x1216 ![1] bcast_S1216_S1x1216_1 : (⟨S1216, .f32⟩ : BufTy).Contents (Elt F) → (⟨S1x1216, .f32⟩ : BufTy).Contents (Elt F)),
    unary main_v8 main_v9 (broadcastInDim S4096x1216 ![0, 1] bcast_S1x1216_S4096x1216_0_1 : (⟨S1x1216, .f32⟩ : BufTy).Contents (Elt F) → (⟨S4096x1216, .f32⟩ : BufTy).Contents (Elt F)),
    binary main_v7 main_v9 main_v10 (addf : (⟨S4096x1216, .f32⟩ : BufTy).Contents (Elt F) → (⟨S4096x1216, .f32⟩ : BufTy).Contents (Elt F) → (⟨S4096x1216, .f32⟩ : BufTy).Contents (Elt F)),
    nullary main_v11 (iotaInDim S1216 32 0),
    unary main_arg1 main_v12 ((extractStridedSlice S1x38912 ![0, 0] · slices_S2x38912_S1x38912_0_0) : (⟨S2x38912, .i32⟩ : BufTy).Contents (Elt F) → (⟨S1x38912, .i32⟩ : BufTy).Contents (Elt F)),
    reshape main_v12 main_v13 rfl shapeCasts_S1x38912_S38912,
    binary main_v13 main_v11 main_v14 ((fun a b => concatenate S40128 0 [⟨S38912, a⟩, ⟨S1216, b⟩] concatenates_S38912_S1216_S40128_d0) : (⟨S38912, .i32⟩ : BufTy).Contents (Elt F) → (⟨S1216, .i32⟩ : BufTy).Contents (Elt F) → (⟨S40128, .i32⟩ : BufTy).Contents (Elt F)),
    unary main_arg1 main_v15 ((extractStridedSlice S1x38912 ![1, 0] · slices_S2x38912_S1x38912_1_0) : (⟨S2x38912, .i32⟩ : BufTy).Contents (Elt F) → (⟨S1x38912, .i32⟩ : BufTy).Contents (Elt F)),
    reshape main_v15 main_v16 rfl shapeCasts_S1x38912_S38912,
    binary main_v16 main_v11 main_v17 ((fun a b => concatenate S40128 0 [⟨S38912, a⟩, ⟨S1216, b⟩] concatenates_S38912_S1216_S40128_d0) : (⟨S38912, .i32⟩ : BufTy).Contents (Elt F) → (⟨S1216, .i32⟩ : BufTy).Contents (Elt F) → (⟨S40128, .i32⟩ : BufTy).Contents (Elt F)),
    nullary main_cst (constant S_ .f32 0x3F800000#32),
    unary main_cst main_v18 (broadcastInDim S40128 ![] bcast_S_S40128 : (⟨S_, .f32⟩ : BufTy).Contents (Elt F) → (⟨S40128, .f32⟩ : BufTy).Contents (Elt F)),
    nullary main_cst_0 (constant S_ .f32 0x00000000#32),
    unary main_cst_0 main_v19 (broadcastInDim S1216 ![] bcast_S_S1216 : (⟨S_, .f32⟩ : BufTy).Contents (Elt F) → (⟨S1216, .f32⟩ : BufTy).Contents (Elt F)),
    unary main_v17 main_v20 (broadcastInDim S40128x1 ![0] bcast_S40128_S40128x1_0 : (⟨S40128, .i32⟩ : BufTy).Contents (Elt F) → (⟨S40128x1, .i32⟩ : BufTy).Contents (Elt F)),
    ternary main_v19 main_v20 main_v18 main_v21 ((fun x i u => Host.scatterAdd scatter_S1216_S40128x1_S40128_n_0_0_1 x i u) : (⟨S1216, .f32⟩ : BufTy).Contents (Elt F) → (⟨S40128x1, .i32⟩ : BufTy).Contents (Elt F) → (⟨S40128, .f32⟩ : BufTy).Contents (Elt F) → (⟨S1216, .f32⟩ : BufTy).Contents (Elt F)),
    nullary main_cst_1 (constant S_ .f32 0x00000000#32),
    unary main_cst_1 main_v22 (broadcastInDim S1216 ![] bcast_S_S1216 : (⟨S_, .f32⟩ : BufTy).Contents (Elt F) → (⟨S1216, .f32⟩ : BufTy).Contents (Elt F)),
    binary main_v21 main_v22 main_v23 (cmpf (F := F) .ogt : (⟨S1216, .f32⟩ : BufTy).Contents (Elt F) → (⟨S1216, .f32⟩ : BufTy).Contents (Elt F) → (⟨S1216, .i1⟩ : BufTy).Contents (Elt F)),
    nullary main_cst_2 (constant S_ .f32 0x2B8CBCCC#32),
    unary main_cst_2 main_v24 (broadcastInDim S1216 ![] bcast_S_S1216 : (⟨S_, .f32⟩ : BufTy).Contents (Elt F) → (⟨S1216, .f32⟩ : BufTy).Contents (Elt F)),
    binary main_v21 main_v24 main_v25 (maximumf : (⟨S1216, .f32⟩ : BufTy).Contents (Elt F) → (⟨S1216, .f32⟩ : BufTy).Contents (Elt F) → (⟨S1216, .f32⟩ : BufTy).Contents (Elt F)),
    unary main_v25 main_v26 (Host.rsqrt : (⟨S1216, .f32⟩ : BufTy).Contents (Elt F) → (⟨S1216, .f32⟩ : BufTy).Contents (Elt F)),
    nullary main_cst_3 (constant S_ .f32 0x00000000#32),
    TRef.unary (TRef.of (T := ⟨S_, .f32⟩) main_cst_3) (TRef.of (T := ⟨S_, .f32⟩) main_call1_v0) id,
    TRef.unary (TRef.of (T := ⟨S_, .f32⟩) main_call1_v0) (TRef.of (T := ⟨S1216, .f32⟩) main_call1_v1) (broadcastInDim S1216 ![] bcast_S_S1216),
    TRef.ternary (TRef.of (T := ⟨S1216, .i1⟩) main_v23) (TRef.of (T := ⟨S1216, .f32⟩) main_v26) (TRef.of (T := ⟨S1216, .f32⟩) main_call1_v1) (TRef.of (T := ⟨S1216, .f32⟩) main_v27) select,
    nullary main_c (constantI S_ 32 0#32),
    unary main_c main_v28 (broadcastInDim S40128 ![] bcast_S_S40128 : (⟨S_, .i32⟩ : BufTy).Contents (Elt F) → (⟨S40128, .i32⟩ : BufTy).Contents (Elt F)),
    binary main_v14 main_v28 main_v29 (cmpi .slt : (⟨S40128, .i32⟩ : BufTy).Contents (Elt F) → (⟨S40128, .i32⟩ : BufTy).Contents (Elt F) → (⟨S40128, .i1⟩ : BufTy).Contents (Elt F)),
    nullary main_c_4 (constantI S_ 32 1216#32),
    unary main_c_4 main_v30 (broadcastInDim S40128 ![] bcast_S_S40128 : (⟨S_, .i32⟩ : BufTy).Contents (Elt F) → (⟨S40128, .i32⟩ : BufTy).Contents (Elt F)),
    binary main_v14 main_v30 main_v31 (addi : (⟨S40128, .i32⟩ : BufTy).Contents (Elt F) → (⟨S40128, .i32⟩ : BufTy).Contents (Elt F) → (⟨S40128, .i32⟩ : BufTy).Contents (Elt F)),
    ternary main_v29 main_v31 main_v14 main_v32 (select : (⟨S40128, .i1⟩ : BufTy).Contents (Elt F) → (⟨S40128, .i32⟩ : BufTy).Contents (Elt F) → (⟨S40128, .i32⟩ : BufTy).Contents (Elt F) → (⟨S40128, .i32⟩ : BufTy).Contents (Elt F)),
    unary main_v32 main_v33 (broadcastInDim S40128x1 ![0] bcast_S40128_S40128x1_0 : (⟨S40128, .i32⟩ : BufTy).Contents (Elt F) → (⟨S40128x1, .i32⟩ : BufTy).Contents (Elt F)),
    binary main_v27 main_v33 main_v34 ((fun x i => Host.gather gather_S1216_S40128x1_S40128_n_0_n_n_0_1_1 x i) : (⟨S1216, .f32⟩ : BufTy).Contents (Elt F) → (⟨S40128x1, .i32⟩ : BufTy).Contents (Elt F) → (⟨S40128, .f32⟩ : BufTy).Contents (Elt F)),
    nullary main_c_5 (constantI S_ 32 0#32),
    unary main_c_5 main_v35 (broadcastInDim S40128 ![] bcast_S_S40128 : (⟨S_, .i32⟩ : BufTy).Contents (Elt F) → (⟨S40128, .i32⟩ : BufTy).Contents (Elt F)),
    binary main_v17 main_v35 main_v36 (cmpi .slt : (⟨S40128, .i32⟩ : BufTy).Contents (Elt F) → (⟨S40128, .i32⟩ : BufTy).Contents (Elt F) → (⟨S40128, .i1⟩ : BufTy).Contents (Elt F)),
    nullary main_c_6 (constantI S_ 32 1216#32),
    unary main_c_6 main_v37 (broadcastInDim S40128 ![] bcast_S_S40128 : (⟨S_, .i32⟩ : BufTy).Contents (Elt F) → (⟨S40128, .i32⟩ : BufTy).Contents (Elt F)),
    binary main_v17 main_v37 main_v38 (addi : (⟨S40128, .i32⟩ : BufTy).Contents (Elt F) → (⟨S40128, .i32⟩ : BufTy).Contents (Elt F) → (⟨S40128, .i32⟩ : BufTy).Contents (Elt F)),
    ternary main_v36 main_v38 main_v17 main_v39 (select : (⟨S40128, .i1⟩ : BufTy).Contents (Elt F) → (⟨S40128, .i32⟩ : BufTy).Contents (Elt F) → (⟨S40128, .i32⟩ : BufTy).Contents (Elt F) → (⟨S40128, .i32⟩ : BufTy).Contents (Elt F)),
    unary main_v39 main_v40 (broadcastInDim S40128x1 ![0] bcast_S40128_S40128x1_0 : (⟨S40128, .i32⟩ : BufTy).Contents (Elt F) → (⟨S40128x1, .i32⟩ : BufTy).Contents (Elt F)),
    binary main_v27 main_v40 main_v41 ((fun x i => Host.gather gather_S1216_S40128x1_S40128_n_0_n_n_0_1_1 x i) : (⟨S1216, .f32⟩ : BufTy).Contents (Elt F) → (⟨S40128x1, .i32⟩ : BufTy).Contents (Elt F) → (⟨S40128, .f32⟩ : BufTy).Contents (Elt F)),
    binary main_v34 main_v41 main_v42 (mulf : (⟨S40128, .f32⟩ : BufTy).Contents (Elt F) → (⟨S40128, .f32⟩ : BufTy).Contents (Elt F) → (⟨S40128, .f32⟩ : BufTy).Contents (Elt F)),
    unary main_arg6 main_v43 ((extractStridedSlice S1 ![0] · slices_S4_S1_0) : (⟨S4, .f32⟩ : BufTy).Contents (Elt F) → (⟨S1, .f32⟩ : BufTy).Contents (Elt F)),
    reshape main_v43 main_v44 rfl shapeCasts_S1_S_,
    unary main_v44 main_v45 (broadcastInDim S4096x1216 ![] bcast_S_S4096x1216 : (⟨S_, .f32⟩ : BufTy).Contents (Elt F) → (⟨S4096x1216, .f32⟩ : BufTy).Contents (Elt F)),
    binary main_v10 main_v45 main_v46 (mulf : (⟨S4096x1216, .f32⟩ : BufTy).Contents (Elt F) → (⟨S4096x1216, .f32⟩ : BufTy).Contents (Elt F) → (⟨S4096x1216, .f32⟩ : BufTy).Contents (Elt F)),
    unary main_v46 main_v47 ((transpose S1216x4096 [1, 0] · transposes_S4096x1216_S1216x4096_1_0) : (⟨S4096x1216, .f32⟩ : BufTy).Contents (Elt F) → (⟨S1216x4096, .f32⟩ : BufTy).Contents (Elt F)),
    unary main_v10 main_v48 ((transpose S1216x4096 [1, 0] · transposes_S4096x1216_S1216x4096_1_0) : (⟨S4096x1216, .f32⟩ : BufTy).Contents (Elt F) → (⟨S1216x4096, .f32⟩ : BufTy).Contents (Elt F)),
    unary main_v42 main_v49 (broadcastInDim S40128x1 ![0] bcast_S40128_S40128x1_0 : (⟨S40128, .f32⟩ : BufTy).Contents (Elt F) → (⟨S40128x1, .f32⟩ : BufTy).Contents (Elt F)),
    nullary main_c_7 (constantI S_ 32 0#32),
    unary main_c_7 main_v50 (broadcastInDim S40128 ![] bcast_S_S40128 : (⟨S_, .i32⟩ : BufTy).Contents (Elt F) → (⟨S40128, .i32⟩ : BufTy).Contents (Elt F)),
    binary main_v14 main_v50 main_v51 (cmpi .slt : (⟨S40128, .i32⟩ : BufTy).Contents (Elt F) → (⟨S40128, .i32⟩ : BufTy).Contents (Elt F) → (⟨S40128, .i1⟩ : BufTy).Contents (Elt F)),
    nullary main_c_8 (constantI S_ 32 1216#32),
    unary main_c_8 main_v52 (broadcastInDim S40128 ![] bcast_S_S40128 : (⟨S_, .i32⟩ : BufTy).Contents (Elt F) → (⟨S40128, .i32⟩ : BufTy).Contents (Elt F)),
    binary main_v14 main_v52 main_v53 (addi : (⟨S40128, .i32⟩ : BufTy).Contents (Elt F) → (⟨S40128, .i32⟩ : BufTy).Contents (Elt F) → (⟨S40128, .i32⟩ : BufTy).Contents (Elt F)),
    ternary main_v51 main_v53 main_v14 main_v54 (select : (⟨S40128, .i1⟩ : BufTy).Contents (Elt F) → (⟨S40128, .i32⟩ : BufTy).Contents (Elt F) → (⟨S40128, .i32⟩ : BufTy).Contents (Elt F) → (⟨S40128, .i32⟩ : BufTy).Contents (Elt F)),
    unary main_v54 main_v55 (broadcastInDim S40128x1 ![0] bcast_S40128_S40128x1_0 : (⟨S40128, .i32⟩ : BufTy).Contents (Elt F) → (⟨S40128x1, .i32⟩ : BufTy).Contents (Elt F)),
    binary main_v48 main_v55 main_v56 ((fun x i => Host.gather gather_S1216x4096_S40128x1_S40128x4096_1_0_n_n_0_1_14096 x i) : (⟨S1216x4096, .f32⟩ : BufTy).Contents (Elt F) → (⟨S40128x1, .i32⟩ : BufTy).Contents (Elt F) → (⟨S40128x4096, .f32⟩ : BufTy).Contents (Elt F)),
    unary main_v49 main_v57 (broadcastInDim S40128x4096 ![0, 1] bcast_S40128x1_S40128x4096_0_1 : (⟨S40128x1, .f32⟩ : BufTy).Contents (Elt F) → (⟨S40128x4096, .f32⟩ : BufTy).Contents (Elt F)),
    binary main_v57 main_v56 main_v58 (mulf : (⟨S40128x4096, .f32⟩ : BufTy).Contents (Elt F) → (⟨S40128x4096, .f32⟩ : BufTy).Contents (Elt F) → (⟨S40128x4096, .f32⟩ : BufTy).Contents (Elt F)),
    nullary main_cst_9 (constant S_ .f32 0x00000000#32),
    unary main_cst_9 main_v59 (broadcastInDim S1216x4096 ![] bcast_S_S1216x4096 : (⟨S_, .f32⟩ : BufTy).Contents (Elt F) → (⟨S1216x4096, .f32⟩ : BufTy).Contents (Elt F)),
    unary main_v17 main_v60 (broadcastInDim S40128x1 ![0] bcast_S40128_S40128x1_0 : (⟨S40128, .i32⟩ : BufTy).Contents (Elt F) → (⟨S40128x1, .i32⟩ : BufTy).Contents (Elt F)),
    ternary main_v59 main_v60 main_v58 main_v61 ((fun x i u => Host.scatterAdd scatter_S1216x4096_S40128x1_S40128x4096_1_0_0_1 x i u) : (⟨S1216x4096, .f32⟩ : BufTy).Contents (Elt F) → (⟨S40128x1, .i32⟩ : BufTy).Contents (Elt F) → (⟨S40128x4096, .f32⟩ : BufTy).Contents (Elt F) → (⟨S1216x4096, .f32⟩ : BufTy).Contents (Elt F)),
    unary main_arg6 main_v62 ((extractStridedSlice S1 ![1] · slices_S4_S1_1) : (⟨S4, .f32⟩ : BufTy).Contents (Elt F) → (⟨S1, .f32⟩ : BufTy).Contents (Elt F)),
    reshape main_v62 main_v63 rfl shapeCasts_S1_S_,
    unary main_v63 main_v64 (broadcastInDim S1216x4096 ![] bcast_S_S1216x4096 : (⟨S_, .f32⟩ : BufTy).Contents (Elt F) → (⟨S1216x4096, .f32⟩ : BufTy).Contents (Elt F)),
    binary main_v64 main_v61 main_v65 (mulf : (⟨S1216x4096, .f32⟩ : BufTy).Contents (Elt F) → (⟨S1216x4096, .f32⟩ : BufTy).Contents (Elt F) → (⟨S1216x4096, .f32⟩ : BufTy).Contents (Elt F)),
    binary main_v47 main_v65 main_v66 (addf : (⟨S1216x4096, .f32⟩ : BufTy).Contents (Elt F) → (⟨S1216x4096, .f32⟩ : BufTy).Contents (Elt F) → (⟨S1216x4096, .f32⟩ : BufTy).Contents (Elt F)) ]

/-- Stage 1: the first layer and the hidden rows' start, to main_v10. -/
abbrev ch1 : List (HloOp τ sig (Elt F)) :=
  [ unary main_arg2 main_v0 ((transpose S1216x1 [1, 0] · transposes_S1x1216_S1216x1_1_0) : (⟨S1x1216, .f32⟩ : BufTy).Contents (Elt F) → (⟨S1216x1, .f32⟩ : BufTy).Contents (Elt F)),
    binary main_arg0 main_v0 main_v1 ((fun l r => Host.dotGeneral dot_S4096x1216_S1216x1_S4096x1_1_0_0_1_n_n none l r) : (⟨S4096x1216, .f32⟩ : BufTy).Contents (Elt F) → (⟨S1216x1, .f32⟩ : BufTy).Contents (Elt F) → (⟨S4096x1, .f32⟩ : BufTy).Contents (Elt F)),
    unary main_arg3 main_v2 (broadcastInDim S1x1 ![1] bcast_S1_S1x1_1 : (⟨S1, .f32⟩ : BufTy).Contents (Elt F) → (⟨S1x1, .f32⟩ : BufTy).Contents (Elt F)),
    unary main_v2 main_v3 (broadcastInDim S4096x1 ![0, 1] bcast_S1x1_S4096x1_0_1 : (⟨S1x1, .f32⟩ : BufTy).Contents (Elt F) → (⟨S4096x1, .f32⟩ : BufTy).Contents (Elt F)),
    binary main_v1 main_v3 main_v4 (addf : (⟨S4096x1, .f32⟩ : BufTy).Contents (Elt F) → (⟨S4096x1, .f32⟩ : BufTy).Contents (Elt F) → (⟨S4096x1, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S4096x1, .f32⟩) main_call0_v0) (broadcastInDim S4096x1 ![] bcast_S_S4096x1),
    TRef.binary (TRef.of (T := ⟨S4096x1, .f32⟩) main_v4) (TRef.of (T := ⟨S4096x1, .f32⟩) main_call0_v0) (TRef.of (T := ⟨S4096x1, .f32⟩) main_v5) maximumf,
    unary main_arg4 main_v6 ((transpose S1x1216 [1, 0] · transposes_S1216x1_S1x1216_1_0) : (⟨S1216x1, .f32⟩ : BufTy).Contents (Elt F) → (⟨S1x1216, .f32⟩ : BufTy).Contents (Elt F)),
    binary main_v5 main_v6 main_v7 ((fun l r => Host.dotGeneral dot_S4096x1_S1x1216_S4096x1216_1_0_0_1_n_n none l r) : (⟨S4096x1, .f32⟩ : BufTy).Contents (Elt F) → (⟨S1x1216, .f32⟩ : BufTy).Contents (Elt F) → (⟨S4096x1216, .f32⟩ : BufTy).Contents (Elt F)),
    unary main_arg5 main_v8 (broadcastInDim S1x1216 ![1] bcast_S1216_S1x1216_1 : (⟨S1216, .f32⟩ : BufTy).Contents (Elt F) → (⟨S1x1216, .f32⟩ : BufTy).Contents (Elt F)),
    unary main_v8 main_v9 (broadcastInDim S4096x1216 ![0, 1] bcast_S1x1216_S4096x1216_0_1 : (⟨S1x1216, .f32⟩ : BufTy).Contents (Elt F) → (⟨S4096x1216, .f32⟩ : BufTy).Contents (Elt F)),
    binary main_v7 main_v9 main_v10 (addf : (⟨S4096x1216, .f32⟩ : BufTy).Contents (Elt F) → (⟨S4096x1216, .f32⟩ : BufTy).Contents (Elt F) → (⟨S4096x1216, .f32⟩ : BufTy).Contents (Elt F)) ]

/-- Stage 2: the edge list's sources and targets with the self loops appended, to main_v17. -/
abbrev ch2 : List (HloOp τ sig (Elt F)) :=
  [ nullary main_v11 (iotaInDim S1216 32 0),
    unary main_arg1 main_v12 ((extractStridedSlice S1x38912 ![0, 0] · slices_S2x38912_S1x38912_0_0) : (⟨S2x38912, .i32⟩ : BufTy).Contents (Elt F) → (⟨S1x38912, .i32⟩ : BufTy).Contents (Elt F)),
    reshape main_v12 main_v13 rfl shapeCasts_S1x38912_S38912,
    binary main_v13 main_v11 main_v14 ((fun a b => concatenate S40128 0 [⟨S38912, a⟩, ⟨S1216, b⟩] concatenates_S38912_S1216_S40128_d0) : (⟨S38912, .i32⟩ : BufTy).Contents (Elt F) → (⟨S1216, .i32⟩ : BufTy).Contents (Elt F) → (⟨S40128, .i32⟩ : BufTy).Contents (Elt F)),
    unary main_arg1 main_v15 ((extractStridedSlice S1x38912 ![1, 0] · slices_S2x38912_S1x38912_1_0) : (⟨S2x38912, .i32⟩ : BufTy).Contents (Elt F) → (⟨S1x38912, .i32⟩ : BufTy).Contents (Elt F)),
    reshape main_v15 main_v16 rfl shapeCasts_S1x38912_S38912,
    binary main_v16 main_v11 main_v17 ((fun a b => concatenate S40128 0 [⟨S38912, a⟩, ⟨S1216, b⟩] concatenates_S38912_S1216_S40128_d0) : (⟨S38912, .i32⟩ : BufTy).Contents (Elt F) → (⟨S1216, .i32⟩ : BufTy).Contents (Elt F) → (⟨S40128, .i32⟩ : BufTy).Contents (Elt F)) ]

/-- Stage 3: the in-degrees and the normalising factors, to main_v27. -/
abbrev ch3 : List (HloOp τ sig (Elt F)) :=
  [ nullary main_cst (constant S_ .f32 0x3F800000#32),
    unary main_cst main_v18 (broadcastInDim S40128 ![] bcast_S_S40128 : (⟨S_, .f32⟩ : BufTy).Contents (Elt F) → (⟨S40128, .f32⟩ : BufTy).Contents (Elt F)),
    nullary main_cst_0 (constant S_ .f32 0x00000000#32),
    unary main_cst_0 main_v19 (broadcastInDim S1216 ![] bcast_S_S1216 : (⟨S_, .f32⟩ : BufTy).Contents (Elt F) → (⟨S1216, .f32⟩ : BufTy).Contents (Elt F)),
    unary main_v17 main_v20 (broadcastInDim S40128x1 ![0] bcast_S40128_S40128x1_0 : (⟨S40128, .i32⟩ : BufTy).Contents (Elt F) → (⟨S40128x1, .i32⟩ : BufTy).Contents (Elt F)),
    ternary main_v19 main_v20 main_v18 main_v21 ((fun x i u => Host.scatterAdd scatter_S1216_S40128x1_S40128_n_0_0_1 x i u) : (⟨S1216, .f32⟩ : BufTy).Contents (Elt F) → (⟨S40128x1, .i32⟩ : BufTy).Contents (Elt F) → (⟨S40128, .f32⟩ : BufTy).Contents (Elt F) → (⟨S1216, .f32⟩ : BufTy).Contents (Elt F)),
    nullary main_cst_1 (constant S_ .f32 0x00000000#32),
    unary main_cst_1 main_v22 (broadcastInDim S1216 ![] bcast_S_S1216 : (⟨S_, .f32⟩ : BufTy).Contents (Elt F) → (⟨S1216, .f32⟩ : BufTy).Contents (Elt F)),
    binary main_v21 main_v22 main_v23 (cmpf (F := F) .ogt : (⟨S1216, .f32⟩ : BufTy).Contents (Elt F) → (⟨S1216, .f32⟩ : BufTy).Contents (Elt F) → (⟨S1216, .i1⟩ : BufTy).Contents (Elt F)),
    nullary main_cst_2 (constant S_ .f32 0x2B8CBCCC#32),
    unary main_cst_2 main_v24 (broadcastInDim S1216 ![] bcast_S_S1216 : (⟨S_, .f32⟩ : BufTy).Contents (Elt F) → (⟨S1216, .f32⟩ : BufTy).Contents (Elt F)),
    binary main_v21 main_v24 main_v25 (maximumf : (⟨S1216, .f32⟩ : BufTy).Contents (Elt F) → (⟨S1216, .f32⟩ : BufTy).Contents (Elt F) → (⟨S1216, .f32⟩ : BufTy).Contents (Elt F)),
    unary main_v25 main_v26 (Host.rsqrt : (⟨S1216, .f32⟩ : BufTy).Contents (Elt F) → (⟨S1216, .f32⟩ : BufTy).Contents (Elt F)),
    nullary main_cst_3 (constant S_ .f32 0x00000000#32),
    TRef.unary (TRef.of (T := ⟨S_, .f32⟩) main_cst_3) (TRef.of (T := ⟨S_, .f32⟩) main_call1_v0) id,
    TRef.unary (TRef.of (T := ⟨S_, .f32⟩) main_call1_v0) (TRef.of (T := ⟨S1216, .f32⟩) main_call1_v1) (broadcastInDim S1216 ![] bcast_S_S1216),
    TRef.ternary (TRef.of (T := ⟨S1216, .i1⟩) main_v23) (TRef.of (T := ⟨S1216, .f32⟩) main_v26) (TRef.of (T := ⟨S1216, .f32⟩) main_call1_v1) (TRef.of (T := ⟨S1216, .f32⟩) main_v27) select ]

/-- Stage 4: the edge weights, to main_v42. -/
abbrev ch4 : List (HloOp τ sig (Elt F)) :=
  [ nullary main_c (constantI S_ 32 0#32),
    unary main_c main_v28 (broadcastInDim S40128 ![] bcast_S_S40128 : (⟨S_, .i32⟩ : BufTy).Contents (Elt F) → (⟨S40128, .i32⟩ : BufTy).Contents (Elt F)),
    binary main_v14 main_v28 main_v29 (cmpi .slt : (⟨S40128, .i32⟩ : BufTy).Contents (Elt F) → (⟨S40128, .i32⟩ : BufTy).Contents (Elt F) → (⟨S40128, .i1⟩ : BufTy).Contents (Elt F)),
    nullary main_c_4 (constantI S_ 32 1216#32),
    unary main_c_4 main_v30 (broadcastInDim S40128 ![] bcast_S_S40128 : (⟨S_, .i32⟩ : BufTy).Contents (Elt F) → (⟨S40128, .i32⟩ : BufTy).Contents (Elt F)),
    binary main_v14 main_v30 main_v31 (addi : (⟨S40128, .i32⟩ : BufTy).Contents (Elt F) → (⟨S40128, .i32⟩ : BufTy).Contents (Elt F) → (⟨S40128, .i32⟩ : BufTy).Contents (Elt F)),
    ternary main_v29 main_v31 main_v14 main_v32 (select : (⟨S40128, .i1⟩ : BufTy).Contents (Elt F) → (⟨S40128, .i32⟩ : BufTy).Contents (Elt F) → (⟨S40128, .i32⟩ : BufTy).Contents (Elt F) → (⟨S40128, .i32⟩ : BufTy).Contents (Elt F)),
    unary main_v32 main_v33 (broadcastInDim S40128x1 ![0] bcast_S40128_S40128x1_0 : (⟨S40128, .i32⟩ : BufTy).Contents (Elt F) → (⟨S40128x1, .i32⟩ : BufTy).Contents (Elt F)),
    binary main_v27 main_v33 main_v34 ((fun x i => Host.gather gather_S1216_S40128x1_S40128_n_0_n_n_0_1_1 x i) : (⟨S1216, .f32⟩ : BufTy).Contents (Elt F) → (⟨S40128x1, .i32⟩ : BufTy).Contents (Elt F) → (⟨S40128, .f32⟩ : BufTy).Contents (Elt F)),
    nullary main_c_5 (constantI S_ 32 0#32),
    unary main_c_5 main_v35 (broadcastInDim S40128 ![] bcast_S_S40128 : (⟨S_, .i32⟩ : BufTy).Contents (Elt F) → (⟨S40128, .i32⟩ : BufTy).Contents (Elt F)),
    binary main_v17 main_v35 main_v36 (cmpi .slt : (⟨S40128, .i32⟩ : BufTy).Contents (Elt F) → (⟨S40128, .i32⟩ : BufTy).Contents (Elt F) → (⟨S40128, .i1⟩ : BufTy).Contents (Elt F)),
    nullary main_c_6 (constantI S_ 32 1216#32),
    unary main_c_6 main_v37 (broadcastInDim S40128 ![] bcast_S_S40128 : (⟨S_, .i32⟩ : BufTy).Contents (Elt F) → (⟨S40128, .i32⟩ : BufTy).Contents (Elt F)),
    binary main_v17 main_v37 main_v38 (addi : (⟨S40128, .i32⟩ : BufTy).Contents (Elt F) → (⟨S40128, .i32⟩ : BufTy).Contents (Elt F) → (⟨S40128, .i32⟩ : BufTy).Contents (Elt F)),
    ternary main_v36 main_v38 main_v17 main_v39 (select : (⟨S40128, .i1⟩ : BufTy).Contents (Elt F) → (⟨S40128, .i32⟩ : BufTy).Contents (Elt F) → (⟨S40128, .i32⟩ : BufTy).Contents (Elt F) → (⟨S40128, .i32⟩ : BufTy).Contents (Elt F)),
    unary main_v39 main_v40 (broadcastInDim S40128x1 ![0] bcast_S40128_S40128x1_0 : (⟨S40128, .i32⟩ : BufTy).Contents (Elt F) → (⟨S40128x1, .i32⟩ : BufTy).Contents (Elt F)),
    binary main_v27 main_v40 main_v41 ((fun x i => Host.gather gather_S1216_S40128x1_S40128_n_0_n_n_0_1_1 x i) : (⟨S1216, .f32⟩ : BufTy).Contents (Elt F) → (⟨S40128x1, .i32⟩ : BufTy).Contents (Elt F) → (⟨S40128, .f32⟩ : BufTy).Contents (Elt F)),
    binary main_v34 main_v41 main_v42 (mulf : (⟨S40128, .f32⟩ : BufTy).Contents (Elt F) → (⟨S40128, .f32⟩ : BufTy).Contents (Elt F) → (⟨S40128, .f32⟩ : BufTy).Contents (Elt F)) ]

/-- Stage 5: the start scaled by the first mixing weight, and the first propagation step, to main_v61. -/
abbrev ch5 : List (HloOp τ sig (Elt F)) :=
  [ unary main_arg6 main_v43 ((extractStridedSlice S1 ![0] · slices_S4_S1_0) : (⟨S4, .f32⟩ : BufTy).Contents (Elt F) → (⟨S1, .f32⟩ : BufTy).Contents (Elt F)),
    reshape main_v43 main_v44 rfl shapeCasts_S1_S_,
    unary main_v44 main_v45 (broadcastInDim S4096x1216 ![] bcast_S_S4096x1216 : (⟨S_, .f32⟩ : BufTy).Contents (Elt F) → (⟨S4096x1216, .f32⟩ : BufTy).Contents (Elt F)),
    binary main_v10 main_v45 main_v46 (mulf : (⟨S4096x1216, .f32⟩ : BufTy).Contents (Elt F) → (⟨S4096x1216, .f32⟩ : BufTy).Contents (Elt F) → (⟨S4096x1216, .f32⟩ : BufTy).Contents (Elt F)),
    unary main_v46 main_v47 ((transpose S1216x4096 [1, 0] · transposes_S4096x1216_S1216x4096_1_0) : (⟨S4096x1216, .f32⟩ : BufTy).Contents (Elt F) → (⟨S1216x4096, .f32⟩ : BufTy).Contents (Elt F)),
    unary main_v10 main_v48 ((transpose S1216x4096 [1, 0] · transposes_S4096x1216_S1216x4096_1_0) : (⟨S4096x1216, .f32⟩ : BufTy).Contents (Elt F) → (⟨S1216x4096, .f32⟩ : BufTy).Contents (Elt F)),
    unary main_v42 main_v49 (broadcastInDim S40128x1 ![0] bcast_S40128_S40128x1_0 : (⟨S40128, .f32⟩ : BufTy).Contents (Elt F) → (⟨S40128x1, .f32⟩ : BufTy).Contents (Elt F)),
    nullary main_c_7 (constantI S_ 32 0#32),
    unary main_c_7 main_v50 (broadcastInDim S40128 ![] bcast_S_S40128 : (⟨S_, .i32⟩ : BufTy).Contents (Elt F) → (⟨S40128, .i32⟩ : BufTy).Contents (Elt F)),
    binary main_v14 main_v50 main_v51 (cmpi .slt : (⟨S40128, .i32⟩ : BufTy).Contents (Elt F) → (⟨S40128, .i32⟩ : BufTy).Contents (Elt F) → (⟨S40128, .i1⟩ : BufTy).Contents (Elt F)),
    nullary main_c_8 (constantI S_ 32 1216#32),
    unary main_c_8 main_v52 (broadcastInDim S40128 ![] bcast_S_S40128 : (⟨S_, .i32⟩ : BufTy).Contents (Elt F) → (⟨S40128, .i32⟩ : BufTy).Contents (Elt F)),
    binary main_v14 main_v52 main_v53 (addi : (⟨S40128, .i32⟩ : BufTy).Contents (Elt F) → (⟨S40128, .i32⟩ : BufTy).Contents (Elt F) → (⟨S40128, .i32⟩ : BufTy).Contents (Elt F)),
    ternary main_v51 main_v53 main_v14 main_v54 (select : (⟨S40128, .i1⟩ : BufTy).Contents (Elt F) → (⟨S40128, .i32⟩ : BufTy).Contents (Elt F) → (⟨S40128, .i32⟩ : BufTy).Contents (Elt F) → (⟨S40128, .i32⟩ : BufTy).Contents (Elt F)),
    unary main_v54 main_v55 (broadcastInDim S40128x1 ![0] bcast_S40128_S40128x1_0 : (⟨S40128, .i32⟩ : BufTy).Contents (Elt F) → (⟨S40128x1, .i32⟩ : BufTy).Contents (Elt F)),
    binary main_v48 main_v55 main_v56 ((fun x i => Host.gather gather_S1216x4096_S40128x1_S40128x4096_1_0_n_n_0_1_14096 x i) : (⟨S1216x4096, .f32⟩ : BufTy).Contents (Elt F) → (⟨S40128x1, .i32⟩ : BufTy).Contents (Elt F) → (⟨S40128x4096, .f32⟩ : BufTy).Contents (Elt F)),
    unary main_v49 main_v57 (broadcastInDim S40128x4096 ![0, 1] bcast_S40128x1_S40128x4096_0_1 : (⟨S40128x1, .f32⟩ : BufTy).Contents (Elt F) → (⟨S40128x4096, .f32⟩ : BufTy).Contents (Elt F)),
    binary main_v57 main_v56 main_v58 (mulf : (⟨S40128x4096, .f32⟩ : BufTy).Contents (Elt F) → (⟨S40128x4096, .f32⟩ : BufTy).Contents (Elt F) → (⟨S40128x4096, .f32⟩ : BufTy).Contents (Elt F)),
    nullary main_cst_9 (constant S_ .f32 0x00000000#32),
    unary main_cst_9 main_v59 (broadcastInDim S1216x4096 ![] bcast_S_S1216x4096 : (⟨S_, .f32⟩ : BufTy).Contents (Elt F) → (⟨S1216x4096, .f32⟩ : BufTy).Contents (Elt F)),
    unary main_v17 main_v60 (broadcastInDim S40128x1 ![0] bcast_S40128_S40128x1_0 : (⟨S40128, .i32⟩ : BufTy).Contents (Elt F) → (⟨S40128x1, .i32⟩ : BufTy).Contents (Elt F)),
    ternary main_v59 main_v60 main_v58 main_v61 ((fun x i u => Host.scatterAdd scatter_S1216x4096_S40128x1_S40128x4096_1_0_0_1 x i u) : (⟨S1216x4096, .f32⟩ : BufTy).Contents (Elt F) → (⟨S40128x1, .i32⟩ : BufTy).Contents (Elt F) → (⟨S40128x4096, .f32⟩ : BufTy).Contents (Elt F) → (⟨S1216x4096, .f32⟩ : BufTy).Contents (Elt F)) ]

/-- Stage 6: the first step scaled by the second mixing weight and added, to main_v66. -/
abbrev ch6 : List (HloOp τ sig (Elt F)) :=
  [ unary main_arg6 main_v62 ((extractStridedSlice S1 ![1] · slices_S4_S1_1) : (⟨S4, .f32⟩ : BufTy).Contents (Elt F) → (⟨S1, .f32⟩ : BufTy).Contents (Elt F)),
    reshape main_v62 main_v63 rfl shapeCasts_S1_S_,
    unary main_v63 main_v64 (broadcastInDim S1216x4096 ![] bcast_S_S1216x4096 : (⟨S_, .f32⟩ : BufTy).Contents (Elt F) → (⟨S1216x4096, .f32⟩ : BufTy).Contents (Elt F)),
    binary main_v64 main_v61 main_v65 (mulf : (⟨S1216x4096, .f32⟩ : BufTy).Contents (Elt F) → (⟨S1216x4096, .f32⟩ : BufTy).Contents (Elt F) → (⟨S1216x4096, .f32⟩ : BufTy).Contents (Elt F)),
    binary main_v47 main_v65 main_v66 (addf : (⟨S1216x4096, .f32⟩ : BufTy).Contents (Elt F) → (⟨S1216x4096, .f32⟩ : BufTy).Contents (Elt F) → (⟨S1216x4096, .f32⟩ : BufTy).Contents (Elt F)) ]

set_option maxRecDepth 65536 in
/-- The line is its stages, in order. -/
theorem opsA_split : (opsA : List (HloOp τ sig (Elt F))) = ch1 ++ (ch2 ++ (ch3 ++ (ch4 ++ (ch5 ++ ch6)))) := rfl

/-! ## The contents after each stage -/

variable (m : (ℓ : Loc nD τ sig) → Buf (Elt F) ℓ) (c : Dev nD)

/-- The arguments' contents at launch. -/
abbrev A0 := m ((c.tc : Thread nD τ).loc main_arg0)
abbrev A1 := m ((c.tc : Thread nD τ).loc main_arg1)
abbrev A2 := m ((c.tc : Thread nD τ).loc main_arg2)
abbrev A3 := m ((c.tc : Thread nD τ).loc main_arg3)
abbrev A4 := m ((c.tc : Thread nD τ).loc main_arg4)
abbrev A5 := m ((c.tc : Thread nD τ).loc main_arg5)
abbrev A6 := m ((c.tc : Thread nD τ).loc main_arg6)

/-- The device's buffers after stage 1, …, after stage 6. -/
def W1 : Valuation τ sig (Elt F) := after ch1 (launchContents m c)
def W2 : Valuation τ sig (Elt F) := after ch2 (W1 m c)
def W3 : Valuation τ sig (Elt F) := after ch3 (W2 m c)
def W4 : Valuation τ sig (Elt F) := after ch4 (W3 m c)
def W5 : Valuation τ sig (Elt F) := after ch5 (W4 m c)
def W6 : Valuation τ sig (Elt F) := after ch6 (W5 m c)

/-- After the whole line the buffers are as after the last stage. -/
theorem after_opsA : after opsA (launchContents m c) = W6 m c := by
  rw [opsA_split, StableHlo.after_append, StableHlo.after_append, StableHlo.after_append, StableHlo.after_append,
    StableHlo.after_append]
  rfl

/-! ## Stage 1 -/

theorem s1_arg1 : W1 m c (Proc.devRef .tc main_arg1) = A1 m c := by
  show after ch1 (launchContents m c) (Proc.devRef .tc main_arg1) = _
  after_results

theorem s1_arg6 : W1 m c (Proc.devRef .tc main_arg6) = A6 m c := by
  show after ch1 (launchContents m c) (Proc.devRef .tc main_arg6) = _
  after_results

theorem s1_v10 : W1 m c (Proc.devRef .tc main_v10) = val_main_v10 (F := F) (A0 m c) (A2 m c) (A3 m c) (A4 m c) (A5 m c) := by
  show after ch1 (launchContents m c) (Proc.devRef .tc main_v10) = _
  after_results
  try simp only [TRef.ofBuf, TRef.toBuf, cast_eq]
  rfl

/-! ## Stage 2 -/

theorem s2_arg6 : W2 m c (Proc.devRef .tc main_arg6) = A6 m c := by
  show after ch2 (W1 m c) (Proc.devRef .tc main_arg6) = _
  after_results
  exact s1_arg6 m c

theorem s2_v10 : W2 m c (Proc.devRef .tc main_v10) = val_main_v10 (F := F) (A0 m c) (A2 m c) (A3 m c) (A4 m c) (A5 m c) := by
  show after ch2 (W1 m c) (Proc.devRef .tc main_v10) = _
  after_results
  exact s1_v10 m c

theorem s2_v14 : W2 m c (Proc.devRef .tc main_v14) = val_main_v14 (F := F) (A1 m c) := by
  show after ch2 (W1 m c) (Proc.devRef .tc main_v14) = _
  after_results
  rw [s1_arg1 m c]
  rfl

theorem s2_v17 : W2 m c (Proc.devRef .tc main_v17) = val_main_v17 (F := F) (A1 m c) := by
  show after ch2 (W1 m c) (Proc.devRef .tc main_v17) = _
  after_results
  rw [s1_arg1 m c]
  rfl

/-! ## Stage 3 -/

theorem s3_arg6 : W3 m c (Proc.devRef .tc main_arg6) = A6 m c := by
  show after ch3 (W2 m c) (Proc.devRef .tc main_arg6) = _
  after_results
  exact s2_arg6 m c

theorem s3_v10 : W3 m c (Proc.devRef .tc main_v10) = val_main_v10 (F := F) (A0 m c) (A2 m c) (A3 m c) (A4 m c) (A5 m c) := by
  show after ch3 (W2 m c) (Proc.devRef .tc main_v10) = _
  after_results
  exact s2_v10 m c

theorem s3_v14 : W3 m c (Proc.devRef .tc main_v14) = val_main_v14 (F := F) (A1 m c) := by
  show after ch3 (W2 m c) (Proc.devRef .tc main_v14) = _
  after_results
  exact s2_v14 m c

theorem s3_v17 : W3 m c (Proc.devRef .tc main_v17) = val_main_v17 (F := F) (A1 m c) := by
  show after ch3 (W2 m c) (Proc.devRef .tc main_v17) = _
  after_results
  exact s2_v17 m c

theorem s3_v27 : W3 m c (Proc.devRef .tc main_v27) = val_main_v27 (F := F) (A1 m c) := by
  show after ch3 (W2 m c) (Proc.devRef .tc main_v27) = _
  after_results_simp
  rw [s2_v17 m c]
  try simp only [TRef.ofBuf, TRef.toBuf, cast_eq]
  rfl

/-! ## Stage 4 -/

theorem s4_arg6 : W4 m c (Proc.devRef .tc main_arg6) = A6 m c := by
  show after ch4 (W3 m c) (Proc.devRef .tc main_arg6) = _
  after_results
  exact s3_arg6 m c

theorem s4_v10 : W4 m c (Proc.devRef .tc main_v10) = val_main_v10 (F := F) (A0 m c) (A2 m c) (A3 m c) (A4 m c) (A5 m c) := by
  show after ch4 (W3 m c) (Proc.devRef .tc main_v10) = _
  after_results
  exact s3_v10 m c

theorem s4_v14 : W4 m c (Proc.devRef .tc main_v14) = val_main_v14 (F := F) (A1 m c) := by
  show after ch4 (W3 m c) (Proc.devRef .tc main_v14) = _
  after_results
  exact s3_v14 m c

theorem s4_v17 : W4 m c (Proc.devRef .tc main_v17) = val_main_v17 (F := F) (A1 m c) := by
  show after ch4 (W3 m c) (Proc.devRef .tc main_v17) = _
  after_results
  exact s3_v17 m c

theorem s4_v42 : W4 m c (Proc.devRef .tc main_v42) = val_main_v42 (F := F) (A1 m c) := by
  show after ch4 (W3 m c) (Proc.devRef .tc main_v42) = _
  after_results_simp
  rw [s3_v14 m c, s3_v17 m c, s3_v27 m c]
  rfl

/-! ## Stage 5 -/

theorem s5_arg6 : W5 m c (Proc.devRef .tc main_arg6) = A6 m c := by
  show after ch5 (W4 m c) (Proc.devRef .tc main_arg6) = _
  after_results
  exact s4_arg6 m c

theorem s5_v14 : W5 m c (Proc.devRef .tc main_v14) = val_main_v14 (F := F) (A1 m c) := by
  show after ch5 (W4 m c) (Proc.devRef .tc main_v14) = _
  after_results
  exact s4_v14 m c

theorem s5_v17 : W5 m c (Proc.devRef .tc main_v17) = val_main_v17 (F := F) (A1 m c) := by
  show after ch5 (W4 m c) (Proc.devRef .tc main_v17) = _
  after_results
  exact s4_v17 m c

theorem s5_v42 : W5 m c (Proc.devRef .tc main_v42) = val_main_v42 (F := F) (A1 m c) := by
  show after ch5 (W4 m c) (Proc.devRef .tc main_v42) = _
  after_results
  exact s4_v42 m c

theorem s5_v47 : W5 m c (Proc.devRef .tc main_v47)
    = val_main_v47 (F := F) (A0 m c) (A2 m c) (A3 m c) (A4 m c) (A5 m c) (A6 m c) := by
  show after ch5 (W4 m c) (Proc.devRef .tc main_v47) = _
  after_results_simp
  rw [s4_v10 m c, s4_arg6 m c]
  rfl

theorem s5_v61 : W5 m c (Proc.devRef .tc main_v61)
    = val_main_v61 (F := F) (A0 m c) (A1 m c) (A2 m c) (A3 m c) (A4 m c) (A5 m c) := by
  show after ch5 (W4 m c) (Proc.devRef .tc main_v61) = _
  after_results_simp
  rw [s4_v10 m c, s4_v14 m c, s4_v17 m c, s4_v42 m c]
  rfl

/-! ## Stage 6 -/

theorem s6_arg6 : W6 m c (Proc.devRef .tc main_arg6) = A6 m c := by
  show after ch6 (W5 m c) (Proc.devRef .tc main_arg6) = _
  after_results
  exact s5_arg6 m c

theorem s6_v14 : W6 m c (Proc.devRef .tc main_v14) = val_main_v14 (F := F) (A1 m c) := by
  show after ch6 (W5 m c) (Proc.devRef .tc main_v14) = _
  after_results
  exact s5_v14 m c

theorem s6_v17 : W6 m c (Proc.devRef .tc main_v17) = val_main_v17 (F := F) (A1 m c) := by
  show after ch6 (W5 m c) (Proc.devRef .tc main_v17) = _
  after_results
  exact s5_v17 m c

theorem s6_v42 : W6 m c (Proc.devRef .tc main_v42) = val_main_v42 (F := F) (A1 m c) := by
  show after ch6 (W5 m c) (Proc.devRef .tc main_v42) = _
  after_results
  exact s5_v42 m c

theorem s6_v61 : W6 m c (Proc.devRef .tc main_v61)
    = val_main_v61 (F := F) (A0 m c) (A1 m c) (A2 m c) (A3 m c) (A4 m c) (A5 m c) := by
  show after ch6 (W5 m c) (Proc.devRef .tc main_v61) = _
  after_results
  exact s5_v61 m c

theorem s6_v66 : W6 m c (Proc.devRef .tc main_v66)
    = val_main_v66 (F := F) (A0 m c) (A1 m c) (A2 m c) (A3 m c) (A4 m c) (A5 m c) (A6 m c) := by
  show after ch6 (W5 m c) (Proc.devRef .tc main_v66) = _
  after_results
  rw [s5_v47 m c, s5_v61 m c, s5_arg6 m c]
  rfl

/-! ## The values the rest of the line reads -/

/-- After the 83 operations, the buffers the rest of the line reads hold their values of the arguments, and the mixing
    weights' buffer is unchanged. -/
theorem head_values (m : (ℓ : Loc nD τ sig) → Buf (Elt F) ℓ) (c : Dev nD) :
      after opsA (launchContents m c) (Proc.devRef .tc main_v14) = val_main_v14 (F := F) (m ((c.tc : Thread nD τ).loc main_arg1))
    ∧ after opsA (launchContents m c) (Proc.devRef .tc main_v17) = val_main_v17 (F := F) (m ((c.tc : Thread nD τ).loc main_arg1))
    ∧ after opsA (launchContents m c) (Proc.devRef .tc main_v42) = val_main_v42 (F := F) (m ((c.tc : Thread nD τ).loc main_arg1))
    ∧ after opsA (launchContents m c) (Proc.devRef .tc main_v61)
        = val_main_v61 (F := F) (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4)) (m ((c.tc : Thread nD τ).loc main_arg5))
    ∧ after opsA (launchContents m c) (Proc.devRef .tc main_v66)
        = val_main_v66 (F := F) (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4)) (m ((c.tc : Thread nD τ).loc main_arg5))
            (m ((c.tc : Thread nD τ).loc main_arg6))
    ∧ after opsA (launchContents m c) (Proc.devRef .tc main_arg6) = m ((c.tc : Thread nD τ).loc main_arg6) := by
  rw [after_opsA]
  exact ⟨s6_v14 m c, s6_v17 m c, s6_v42 m c, s6_v61 m c, s6_v66 m c, s6_arg6 m c⟩

end Cert.ReferenceIdeal.Hand

end
-- ==== Proof.RefRunTail.lean ====
/-
  The second half of the reference's run: from the second propagation step to the result.

  The reference's operations from the one that broadcasts the edge weights for the second propagation step on — the
  second and third steps (each: gather the previous iterate's rows at the edges' sources, scale by the edge weights,
  accumulate at the edges' targets), the two mixing updates of the running sum, the transpose and regrouping into
  19 groups of 64, and the log-softmax over each group — are run from buffer contents that hold, at the six values
  this half reads and does not write (the sources, the targets, the weights, the first iterate, the running sum and
  the mixing weights), the stages the first half computes.  The line is cut into five stretches; after each stretch
  every value still needed holds its stage, because the stage of a value is, by definition, its operation applied to
  the stages of its operands, and a stretch's operations write only their own results.
-/
import proofs.«411973_j34162169872617_3_alg».proof.Proof.RefOps
import proofs.«411973_j34162169872617_3_alg».proof.Proof.RefRead
import Idealize.ShloMosaic.Lib.StableHlo.Run
import Idealize.ShloMosaic.Lib.Pipeline.Frame

noncomputable section

namespace Cert.ReferenceIdeal.HandTail

open Cert.ReferenceIdeal Cert.ReferenceIdeal.Gen Cert.ReferenceIdeal.Value Cert.ReferenceIdeal.Read Idealize.ShloMosaic Idealize.ShloMosaic.TcCoe Idealize.SL.Sem Idealize.ShloMosaic.StableHlo

variable {F : FTy → Type} [FloatOps F]

/-- The second half of @main's operations: from the one writing `main_v67` to the last, which writes `main_v105`. -/
abbrev opsB : List (HloOp τ sig (Elt F)) :=
  [ unary main_v42 main_v67 (broadcastInDim S40128x1 ![0] bcast_S40128_S40128x1_0 : (⟨S40128, .f32⟩ : BufTy).Contents (Elt F) → (⟨S40128x1, .f32⟩ : BufTy).Contents (Elt F)),
    nullary main_c_10 (constantI S_ 32 0#32),
    unary main_c_10 main_v68 (broadcastInDim S40128 ![] bcast_S_S40128 : (⟨S_, .i32⟩ : BufTy).Contents (Elt F) → (⟨S40128, .i32⟩ : BufTy).Contents (Elt F)),
    binary main_v14 main_v68 main_v69 (cmpi .slt : (⟨S40128, .i32⟩ : BufTy).Contents (Elt F) → (⟨S40128, .i32⟩ : BufTy).Contents (Elt F) → (⟨S40128, .i1⟩ : BufTy).Contents (Elt F)),
    nullary main_c_11 (constantI S_ 32 1216#32),
    unary main_c_11 main_v70 (broadcastInDim S40128 ![] bcast_S_S40128 : (⟨S_, .i32⟩ : BufTy).Contents (Elt F) → (⟨S40128, .i32⟩ : BufTy).Contents (Elt F)),
    binary main_v14 main_v70 main_v71 (addi : (⟨S40128, .i32⟩ : BufTy).Contents (Elt F) → (⟨S40128, .i32⟩ : BufTy).Contents (Elt F) → (⟨S40128, .i32⟩ : BufTy).Contents (Elt F)),
    ternary main_v69 main_v71 main_v14 main_v72 (select : (⟨S40128, .i1⟩ : BufTy).Contents (Elt F) → (⟨S40128, .i32⟩ : BufTy).Contents (Elt F) → (⟨S40128, .i32⟩ : BufTy).Contents (Elt F) → (⟨S40128, .i32⟩ : BufTy).Contents (Elt F)),
    unary main_v72 main_v73 (broadcastInDim S40128x1 ![0] bcast_S40128_S40128x1_0 : (⟨S40128, .i32⟩ : BufTy).Contents (Elt F) → (⟨S40128x1, .i32⟩ : BufTy).Contents (Elt F)),
    binary main_v61 main_v73 main_v74 ((fun x i => Host.gather gather_S1216x4096_S40128x1_S40128x4096_1_0_n_n_0_1_14096 x i) : (⟨S1216x4096, .f32⟩ : BufTy).Contents (Elt F) → (⟨S40128x1, .i32⟩ : BufTy).Contents (Elt F) → (⟨S40128x4096, .f32⟩ : BufTy).Contents (Elt F)),
    unary main_v67 main_v75 (broadcastInDim S40128x4096 ![0, 1] bcast_S40128x1_S40128x4096_0_1 : (⟨S40128x1, .f32⟩ : BufTy).Contents (Elt F) → (⟨S40128x4096, .f32⟩ : BufTy).Contents (Elt F)),
    binary main_v75 main_v74 main_v76 (mulf : (⟨S40128x4096, .f32⟩ : BufTy).Contents (Elt F) → (⟨S40128x4096, .f32⟩ : BufTy).Contents (Elt F) → (⟨S40128x4096, .f32⟩ : BufTy).Contents (Elt F)),
    nullary main_cst_12 (constant S_ .f32 0x00000000#32),
    unary main_cst_12 main_v77 (broadcastInDim S1216x4096 ![] bcast_S_S1216x4096 : (⟨S_, .f32⟩ : BufTy).Contents (Elt F) → (⟨S1216x4096, .f32⟩ : BufTy).Contents (Elt F)),
    unary main_v17 main_v78 (broadcastInDim S40128x1 ![0] bcast_S40128_S40128x1_0 : (⟨S40128, .i32⟩ : BufTy).Contents (Elt F) → (⟨S40128x1, .i32⟩ : BufTy).Contents (Elt F)),
    ternary main_v77 main_v78 main_v76 main_v79 ((fun x i u => Host.scatterAdd scatter_S1216x4096_S40128x1_S40128x4096_1_0_0_1 x i u) : (⟨S1216x4096, .f32⟩ : BufTy).Contents (Elt F) → (⟨S40128x1, .i32⟩ : BufTy).Contents (Elt F) → (⟨S40128x4096, .f32⟩ : BufTy).Contents (Elt F) → (⟨S1216x4096, .f32⟩ : BufTy).Contents (Elt F)),
    unary main_arg6 main_v80 ((extractStridedSlice S1 ![2] · slices_S4_S1_2) : (⟨S4, .f32⟩ : BufTy).Contents (Elt F) → (⟨S1, .f32⟩ : BufTy).Contents (Elt F)),
    reshape main_v80 main_v81 rfl shapeCasts_S1_S_,
    unary main_v81 main_v82 (broadcastInDim S1216x4096 ![] bcast_S_S1216x4096 : (⟨S_, .f32⟩ : BufTy).Contents (Elt F) → (⟨S1216x4096, .f32⟩ : BufTy).Contents (Elt F)),
    binary main_v82 main_v79 main_v83 (mulf : (⟨S1216x4096, .f32⟩ : BufTy).Contents (Elt F) → (⟨S1216x4096, .f32⟩ : BufTy).Contents (Elt F) → (⟨S1216x4096, .f32⟩ : BufTy).Contents (Elt F)),
    binary main_v66 main_v83 main_v84 (addf : (⟨S1216x4096, .f32⟩ : BufTy).Contents (Elt F) → (⟨S1216x4096, .f32⟩ : BufTy).Contents (Elt F) → (⟨S1216x4096, .f32⟩ : BufTy).Contents (Elt F)),
    unary main_v42 main_v85 (broadcastInDim S40128x1 ![0] bcast_S40128_S40128x1_0 : (⟨S40128, .f32⟩ : BufTy).Contents (Elt F) → (⟨S40128x1, .f32⟩ : BufTy).Contents (Elt F)),
    nullary main_c_13 (constantI S_ 32 0#32),
    unary main_c_13 main_v86 (broadcastInDim S40128 ![] bcast_S_S40128 : (⟨S_, .i32⟩ : BufTy).Contents (Elt F) → (⟨S40128, .i32⟩ : BufTy).Contents (Elt F)),
    binary main_v14 main_v86 main_v87 (cmpi .slt : (⟨S40128, .i32⟩ : BufTy).Contents (Elt F) → (⟨S40128, .i32⟩ : BufTy).Contents (Elt F) → (⟨S40128, .i1⟩ : BufTy).Contents (Elt F)),
    nullary main_c_14 (constantI S_ 32 1216#32),
    unary main_c_14 main_v88 (broadcastInDim S40128 ![] bcast_S_S40128 : (⟨S_, .i32⟩ : BufTy).Contents (Elt F) → (⟨S40128, .i32⟩ : BufTy).Contents (Elt F)),
    binary main_v14 main_v88 main_v89 (addi : (⟨S40128, .i32⟩ : BufTy).Contents (Elt F) → (⟨S40128, .i32⟩ : BufTy).Contents (Elt F) → (⟨S40128, .i32⟩ : BufTy).Contents (Elt F)),
    ternary main_v87 main_v89 main_v14 main_v90 (select : (⟨S40128, .i1⟩ : BufTy).Contents (Elt F) → (⟨S40128, .i32⟩ : BufTy).Contents (Elt F) → (⟨S40128, .i32⟩ : BufTy).Contents (Elt F) → (⟨S40128, .i32⟩ : BufTy).Contents (Elt F)),
    unary main_v90 main_v91 (broadcastInDim S40128x1 ![0] bcast_S40128_S40128x1_0 : (⟨S40128, .i32⟩ : BufTy).Contents (Elt F) → (⟨S40128x1, .i32⟩ : BufTy).Contents (Elt F)),
    binary main_v79 main_v91 main_v92 ((fun x i => Host.gather gather_S1216x4096_S40128x1_S40128x4096_1_0_n_n_0_1_14096 x i) : (⟨S1216x4096, .f32⟩ : BufTy).Contents (Elt F) → (⟨S40128x1, .i32⟩ : BufTy).Contents (Elt F) → (⟨S40128x4096, .f32⟩ : BufTy).Contents (Elt F)),
    unary main_v85 main_v93 (broadcastInDim S40128x4096 ![0, 1] bcast_S40128x1_S40128x4096_0_1 : (⟨S40128x1, .f32⟩ : BufTy).Contents (Elt F) → (⟨S40128x4096, .f32⟩ : BufTy).Contents (Elt F)),
    binary main_v93 main_v92 main_v94 (mulf : (⟨S40128x4096, .f32⟩ : BufTy).Contents (Elt F) → (⟨S40128x4096, .f32⟩ : BufTy).Contents (Elt F) → (⟨S40128x4096, .f32⟩ : BufTy).Contents (Elt F)),
    nullary main_cst_15 (constant S_ .f32 0x00000000#32),
    unary main_cst_15 main_v95 (broadcastInDim S1216x4096 ![] bcast_S_S1216x4096 : (⟨S_, .f32⟩ : BufTy).Contents (Elt F) → (⟨S1216x4096, .f32⟩ : BufTy).Contents (Elt F)),
    unary main_v17 main_v96 (broadcastInDim S40128x1 ![0] bcast_S40128_S40128x1_0 : (⟨S40128, .i32⟩ : BufTy).Contents (Elt F) → (⟨S40128x1, .i32⟩ : BufTy).Contents (Elt F)),
    ternary main_v95 main_v96 main_v94 main_v97 ((fun x i u => Host.scatterAdd scatter_S1216x4096_S40128x1_S40128x4096_1_0_0_1 x i u) : (⟨S1216x4096, .f32⟩ : BufTy).Contents (Elt F) → (⟨S40128x1, .i32⟩ : BufTy).Contents (Elt F) → (⟨S40128x4096, .f32⟩ : BufTy).Contents (Elt F) → (⟨S1216x4096, .f32⟩ : BufTy).Contents (Elt F)),
    unary main_arg6 main_v98 ((extractStridedSlice S1 ![3] · slices_S4_S1_3) : (⟨S4, .f32⟩ : BufTy).Contents (Elt F) → (⟨S1, .f32⟩ : BufTy).Contents (Elt F)),
    reshape main_v98 main_v99 rfl shapeCasts_S1_S_,
    unary main_v99 main_v100 (broadcastInDim S1216x4096 ![] bcast_S_S1216x4096 : (⟨S_, .f32⟩ : BufTy).Contents (Elt F) → (⟨S1216x4096, .f32⟩ : BufTy).Contents (Elt F)),
    binary main_v100 main_v97 main_v101 (mulf : (⟨S1216x4096, .f32⟩ : BufTy).Contents (Elt F) → (⟨S1216x4096, .f32⟩ : BufTy).Contents (Elt F) → (⟨S1216x4096, .f32⟩ : BufTy).Contents (Elt F)),
    binary main_v84 main_v101 main_v102 (addf : (⟨S1216x4096, .f32⟩ : BufTy).Contents (Elt F) → (⟨S1216x4096, .f32⟩ : BufTy).Contents (Elt F) → (⟨S1216x4096, .f32⟩ : BufTy).Contents (Elt F)),
    unary main_v102 main_v103 ((transpose S4096x1216 [1, 0] · transposes_S1216x4096_S4096x1216_1_0) : (⟨S1216x4096, .f32⟩ : BufTy).Contents (Elt F) → (⟨S4096x1216, .f32⟩ : BufTy).Contents (Elt F)),
    reshape main_v103 main_v104 rfl shapeCasts_S4096x1216_S4096x1x19x64,
    TRef.nullary (TRef.of (T := ⟨S_, .f32⟩) main_call2_cst) (constant S_ .f32 0xFF800000#32),
    TRef.binary (TRef.of (T := ⟨S4096x1x19x64, .f32⟩) main_v104) (TRef.of (T := ⟨S_, .f32⟩) main_call2_cst) (TRef.of (T := ⟨S4096x1x19, .f32⟩) main_call2_v0) (fun x v => Host.reduce FloatOps.maximumf x v reducesTo_S4096x1x19x64_S4096x1x19_d3 h_S_),
    TRef.nullary (TRef.of (T := ⟨S_, .f32⟩) main_call2_cst_0) (constant S_ .f32 0xFF800000#32),
    TRef.unary (TRef.of (T := ⟨S_, .f32⟩) main_call2_cst_0) (TRef.of (T := ⟨S4096x1x19, .f32⟩) main_call2_v1) (broadcastInDim S4096x1x19 ![] bcast_S_S4096x1x19),
    TRef.binary (TRef.of (T := ⟨S4096x1x19, .f32⟩) main_call2_v1) (TRef.of (T := ⟨S4096x1x19, .f32⟩) main_call2_v0) (TRef.of (T := ⟨S4096x1x19, .f32⟩) main_call2_v2) maximumf,
    TRef.unary (TRef.of (T := ⟨S4096x1x19, .f32⟩) main_call2_v2) (TRef.of (T := ⟨S4096x1x19x1, .f32⟩) main_call2_v3) (broadcastInDim S4096x1x19x1 ![0, 1, 2] bcast_S4096x1x19_S4096x1x19x1_0_1_2),
    TRef.unary (TRef.of (T := ⟨S4096x1x19x1, .f32⟩) main_call2_v3) (TRef.of (T := ⟨S4096x1x19x64, .f32⟩) main_call2_v4) (broadcastInDim S4096x1x19x64 ![0, 1, 2, 3] bcast_S4096x1x19x1_S4096x1x19x64_0_1_2_3),
    TRef.binary (TRef.of (T := ⟨S4096x1x19x64, .f32⟩) main_v104) (TRef.of (T := ⟨S4096x1x19x64, .f32⟩) main_call2_v4) (TRef.of (T := ⟨S4096x1x19x64, .f32⟩) main_call2_v5) subf,
    TRef.unary (TRef.of (T := ⟨S4096x1x19x64, .f32⟩) main_call2_v5) (TRef.of (T := ⟨S4096x1x19x64, .f32⟩) main_call2_v6) Host.exp,
    TRef.nullary (TRef.of (T := ⟨S_, .f32⟩) main_call2_cst_1) (constant S_ .f32 0x00000000#32),
    TRef.binary (TRef.of (T := ⟨S4096x1x19x64, .f32⟩) main_call2_v6) (TRef.of (T := ⟨S_, .f32⟩) main_call2_cst_1) (TRef.of (T := ⟨S4096x1x19, .f32⟩) main_call2_v7) (fun x v => Host.reduceAdd x v reducesTo_S4096x1x19x64_S4096x1x19_d3 h_S_),
    TRef.unary (TRef.of (T := ⟨S4096x1x19, .f32⟩) main_call2_v7) (TRef.of (T := ⟨S4096x1x19x1, .f32⟩) main_call2_v8) (broadcastInDim S4096x1x19x1 ![0, 1, 2] bcast_S4096x1x19_S4096x1x19x1_0_1_2),
    TRef.unary (TRef.of (T := ⟨S4096x1x19x1, .f32⟩) main_call2_v8) (TRef.of (T := ⟨S4096x1x19x1, .f32⟩) main_call2_v9) Host.log,
    TRef.unary (TRef.of (T := ⟨S4096x1x19x1, .f32⟩) main_call2_v9) (TRef.of (T := ⟨S4096x1x19x64, .f32⟩) main_call2_v10) (broadcastInDim S4096x1x19x64 ![0, 1, 2, 3] bcast_S4096x1x19x1_S4096x1x19x64_0_1_2_3),
    TRef.binary (TRef.of (T := ⟨S4096x1x19x64, .f32⟩) main_call2_v5) (TRef.of (T := ⟨S4096x1x19x64, .f32⟩) main_call2_v10) (TRef.of (T := ⟨S4096x1x19x64, .f32⟩) main_v105) subf ]

/-- The second propagation step: the weights as a column, the wrapped sources, the first iterate's rows gathered at
    them and scaled, and the accumulation at the targets into `main_v79`. -/
abbrev st1 : List (HloOp τ sig (Elt F)) :=
  [ unary main_v42 main_v67 (broadcastInDim S40128x1 ![0] bcast_S40128_S40128x1_0 : (⟨S40128, .f32⟩ : BufTy).Contents (Elt F) → (⟨S40128x1, .f32⟩ : BufTy).Contents (Elt F)),
    nullary main_c_10 (constantI S_ 32 0#32),
    unary main_c_10 main_v68 (broadcastInDim S40128 ![] bcast_S_S40128 : (⟨S_, .i32⟩ : BufTy).Contents (Elt F) → (⟨S40128, .i32⟩ : BufTy).Contents (Elt F)),
    binary main_v14 main_v68 main_v69 (cmpi .slt : (⟨S40128, .i32⟩ : BufTy).Contents (Elt F) → (⟨S40128, .i32⟩ : BufTy).Contents (Elt F) → (⟨S40128, .i1⟩ : BufTy).Contents (Elt F)),
    nullary main_c_11 (constantI S_ 32 1216#32),
    unary main_c_11 main_v70 (broadcastInDim S40128 ![] bcast_S_S40128 : (⟨S_, .i32⟩ : BufTy).Contents (Elt F) → (⟨S40128, .i32⟩ : BufTy).Contents (Elt F)),
    binary main_v14 main_v70 main_v71 (addi : (⟨S40128, .i32⟩ : BufTy).Contents (Elt F) → (⟨S40128, .i32⟩ : BufTy).Contents (Elt F) → (⟨S40128, .i32⟩ : BufTy).Contents (Elt F)),
    ternary main_v69 main_v71 main_v14 main_v72 (select : (⟨S40128, .i1⟩ : BufTy).Contents (Elt F) → (⟨S40128, .i32⟩ : BufTy).Contents (Elt F) → (⟨S40128, .i32⟩ : BufTy).Contents (Elt F) → (⟨S40128, .i32⟩ : BufTy).Contents (Elt F)),
    unary main_v72 main_v73 (broadcastInDim S40128x1 ![0] bcast_S40128_S40128x1_0 : (⟨S40128, .i32⟩ : BufTy).Contents (Elt F) → (⟨S40128x1, .i32⟩ : BufTy).Contents (Elt F)),
    binary main_v61 main_v73 main_v74 ((fun x i => Host.gather gather_S1216x4096_S40128x1_S40128x4096_1_0_n_n_0_1_14096 x i) : (⟨S1216x4096, .f32⟩ : BufTy).Contents (Elt F) → (⟨S40128x1, .i32⟩ : BufTy).Contents (Elt F) → (⟨S40128x4096, .f32⟩ : BufTy).Contents (Elt F)),
    unary main_v67 main_v75 (broadcastInDim S40128x4096 ![0, 1] bcast_S40128x1_S40128x4096_0_1 : (⟨S40128x1, .f32⟩ : BufTy).Contents (Elt F) → (⟨S40128x4096, .f32⟩ : BufTy).Contents (Elt F)),
    binary main_v75 main_v74 main_v76 (mulf : (⟨S40128x4096, .f32⟩ : BufTy).Contents (Elt F) → (⟨S40128x4096, .f32⟩ : BufTy).Contents (Elt F) → (⟨S40128x4096, .f32⟩ : BufTy).Contents (Elt F)),
    nullary main_cst_12 (constant S_ .f32 0x00000000#32),
    unary main_cst_12 main_v77 (broadcastInDim S1216x4096 ![] bcast_S_S1216x4096 : (⟨S_, .f32⟩ : BufTy).Contents (Elt F) → (⟨S1216x4096, .f32⟩ : BufTy).Contents (Elt F)),
    unary main_v17 main_v78 (broadcastInDim S40128x1 ![0] bcast_S40128_S40128x1_0 : (⟨S40128, .i32⟩ : BufTy).Contents (Elt F) → (⟨S40128x1, .i32⟩ : BufTy).Contents (Elt F)),
    ternary main_v77 main_v78 main_v76 main_v79 ((fun x i u => Host.scatterAdd scatter_S1216x4096_S40128x1_S40128x4096_1_0_0_1 x i u) : (⟨S1216x4096, .f32⟩ : BufTy).Contents (Elt F) → (⟨S40128x1, .i32⟩ : BufTy).Contents (Elt F) → (⟨S40128x4096, .f32⟩ : BufTy).Contents (Elt F) → (⟨S1216x4096, .f32⟩ : BufTy).Contents (Elt F)) ]

/-- The second iterate scaled by the third mixing weight and added to the running sum: `main_v84`. -/
abbrev st2 : List (HloOp τ sig (Elt F)) :=
  [ unary main_arg6 main_v80 ((extractStridedSlice S1 ![2] · slices_S4_S1_2) : (⟨S4, .f32⟩ : BufTy).Contents (Elt F) → (⟨S1, .f32⟩ : BufTy).Contents (Elt F)),
    reshape main_v80 main_v81 rfl shapeCasts_S1_S_,
    unary main_v81 main_v82 (broadcastInDim S1216x4096 ![] bcast_S_S1216x4096 : (⟨S_, .f32⟩ : BufTy).Contents (Elt F) → (⟨S1216x4096, .f32⟩ : BufTy).Contents (Elt F)),
    binary main_v82 main_v79 main_v83 (mulf : (⟨S1216x4096, .f32⟩ : BufTy).Contents (Elt F) → (⟨S1216x4096, .f32⟩ : BufTy).Contents (Elt F) → (⟨S1216x4096, .f32⟩ : BufTy).Contents (Elt F)),
    binary main_v66 main_v83 main_v84 (addf : (⟨S1216x4096, .f32⟩ : BufTy).Contents (Elt F) → (⟨S1216x4096, .f32⟩ : BufTy).Contents (Elt F) → (⟨S1216x4096, .f32⟩ : BufTy).Contents (Elt F)) ]

/-- The third propagation step, from the second iterate: `main_v97`. -/
abbrev st3 : List (HloOp τ sig (Elt F)) :=
  [ unary main_v42 main_v85 (broadcastInDim S40128x1 ![0] bcast_S40128_S40128x1_0 : (⟨S40128, .f32⟩ : BufTy).Contents (Elt F) → (⟨S40128x1, .f32⟩ : BufTy).Contents (Elt F)),
    nullary main_c_13 (constantI S_ 32 0#32),
    unary main_c_13 main_v86 (broadcastInDim S40128 ![] bcast_S_S40128 : (⟨S_, .i32⟩ : BufTy).Contents (Elt F) → (⟨S40128, .i32⟩ : BufTy).Contents (Elt F)),
    binary main_v14 main_v86 main_v87 (cmpi .slt : (⟨S40128, .i32⟩ : BufTy).Contents (Elt F) → (⟨S40128, .i32⟩ : BufTy).Contents (Elt F) → (⟨S40128, .i1⟩ : BufTy).Contents (Elt F)),
    nullary main_c_14 (constantI S_ 32 1216#32),
    unary main_c_14 main_v88 (broadcastInDim S40128 ![] bcast_S_S40128 : (⟨S_, .i32⟩ : BufTy).Contents (Elt F) → (⟨S40128, .i32⟩ : BufTy).Contents (Elt F)),
    binary main_v14 main_v88 main_v89 (addi : (⟨S40128, .i32⟩ : BufTy).Contents (Elt F) → (⟨S40128, .i32⟩ : BufTy).Contents (Elt F) → (⟨S40128, .i32⟩ : BufTy).Contents (Elt F)),
    ternary main_v87 main_v89 main_v14 main_v90 (select : (⟨S40128, .i1⟩ : BufTy).Contents (Elt F) → (⟨S40128, .i32⟩ : BufTy).Contents (Elt F) → (⟨S40128, .i32⟩ : BufTy).Contents (Elt F) → (⟨S40128, .i32⟩ : BufTy).Contents (Elt F)),
    unary main_v90 main_v91 (broadcastInDim S40128x1 ![0] bcast_S40128_S40128x1_0 : (⟨S40128, .i32⟩ : BufTy).Contents (Elt F) → (⟨S40128x1, .i32⟩ : BufTy).Contents (Elt F)),
    binary main_v79 main_v91 main_v92 ((fun x i => Host.gather gather_S1216x4096_S40128x1_S40128x4096_1_0_n_n_0_1_14096 x i) : (⟨S1216x4096, .f32⟩ : BufTy).Contents (Elt F) → (⟨S40128x1, .i32⟩ : BufTy).Contents (Elt F) → (⟨S40128x4096, .f32⟩ : BufTy).Contents (Elt F)),
    unary main_v85 main_v93 (broadcastInDim S40128x4096 ![0, 1] bcast_S40128x1_S40128x4096_0_1 : (⟨S40128x1, .f32⟩ : BufTy).Contents (Elt F) → (⟨S40128x4096, .f32⟩ : BufTy).Contents (Elt F)),
    binary main_v93 main_v92 main_v94 (mulf : (⟨S40128x4096, .f32⟩ : BufTy).Contents (Elt F) → (⟨S40128x4096, .f32⟩ : BufTy).Contents (Elt F) → (⟨S40128x4096, .f32⟩ : BufTy).Contents (Elt F)),
    nullary main_cst_15 (constant S_ .f32 0x00000000#32),
    unary main_cst_15 main_v95 (broadcastInDim S1216x4096 ![] bcast_S_S1216x4096 : (⟨S_, .f32⟩ : BufTy).Contents (Elt F) → (⟨S1216x4096, .f32⟩ : BufTy).Contents (Elt F)),
    unary main_v17 main_v96 (broadcastInDim S40128x1 ![0] bcast_S40128_S40128x1_0 : (⟨S40128, .i32⟩ : BufTy).Contents (Elt F) → (⟨S40128x1, .i32⟩ : BufTy).Contents (Elt F)),
    ternary main_v95 main_v96 main_v94 main_v97 ((fun x i u => Host.scatterAdd scatter_S1216x4096_S40128x1_S40128x4096_1_0_0_1 x i u) : (⟨S1216x4096, .f32⟩ : BufTy).Contents (Elt F) → (⟨S40128x1, .i32⟩ : BufTy).Contents (Elt F) → (⟨S40128x4096, .f32⟩ : BufTy).Contents (Elt F) → (⟨S1216x4096, .f32⟩ : BufTy).Contents (Elt F)) ]

/-- The third iterate scaled by the fourth mixing weight and added; the sum transposed and regrouped: `main_v104`. -/
abbrev st4 : List (HloOp τ sig (Elt F)) :=
  [ unary main_arg6 main_v98 ((extractStridedSlice S1 ![3] · slices_S4_S1_3) : (⟨S4, .f32⟩ : BufTy).Contents (Elt F) → (⟨S1, .f32⟩ : BufTy).Contents (Elt F)),
    reshape main_v98 main_v99 rfl shapeCasts_S1_S_,
    unary main_v99 main_v100 (broadcastInDim S1216x4096 ![] bcast_S_S1216x4096 : (⟨S_, .f32⟩ : BufTy).Contents (Elt F) → (⟨S1216x4096, .f32⟩ : BufTy).Contents (Elt F)),
    binary main_v100 main_v97 main_v101 (mulf : (⟨S1216x4096, .f32⟩ : BufTy).Contents (Elt F) → (⟨S1216x4096, .f32⟩ : BufTy).Contents (Elt F) → (⟨S1216x4096, .f32⟩ : BufTy).Contents (Elt F)),
    binary main_v84 main_v101 main_v102 (addf : (⟨S1216x4096, .f32⟩ : BufTy).Contents (Elt F) → (⟨S1216x4096, .f32⟩ : BufTy).Contents (Elt F) → (⟨S1216x4096, .f32⟩ : BufTy).Contents (Elt F)),
    unary main_v102 main_v103 ((transpose S4096x1216 [1, 0] · transposes_S1216x4096_S4096x1216_1_0) : (⟨S1216x4096, .f32⟩ : BufTy).Contents (Elt F) → (⟨S4096x1216, .f32⟩ : BufTy).Contents (Elt F)),
    reshape main_v103 main_v104 rfl shapeCasts_S4096x1216_S4096x1x19x64 ]

/-- The log-softmax, first part: each group's maximum (`main_call2_v2`). -/
abbrev st5 : List (HloOp τ sig (Elt F)) :=
  [ TRef.nullary (TRef.of (T := ⟨S_, .f32⟩) main_call2_cst) (constant S_ .f32 0xFF800000#32),
    TRef.binary (TRef.of (T := ⟨S4096x1x19x64, .f32⟩) main_v104) (TRef.of (T := ⟨S_, .f32⟩) main_call2_cst) (TRef.of (T := ⟨S4096x1x19, .f32⟩) main_call2_v0) (fun x v => Host.reduce FloatOps.maximumf x v reducesTo_S4096x1x19x64_S4096x1x19_d3 h_S_),
    TRef.nullary (TRef.of (T := ⟨S_, .f32⟩) main_call2_cst_0) (constant S_ .f32 0xFF800000#32),
    TRef.unary (TRef.of (T := ⟨S_, .f32⟩) main_call2_cst_0) (TRef.of (T := ⟨S4096x1x19, .f32⟩) main_call2_v1) (broadcastInDim S4096x1x19 ![] bcast_S_S4096x1x19),
    TRef.binary (TRef.of (T := ⟨S4096x1x19, .f32⟩) main_call2_v1) (TRef.of (T := ⟨S4096x1x19, .f32⟩) main_call2_v0) (TRef.of (T := ⟨S4096x1x19, .f32⟩) main_call2_v2) maximumf ]

/-- The log-softmax, second part: the entries less their group's maximum (`main_call2_v5`). -/
abbrev st6 : List (HloOp τ sig (Elt F)) :=
  [ TRef.unary (TRef.of (T := ⟨S4096x1x19, .f32⟩) main_call2_v2) (TRef.of (T := ⟨S4096x1x19x1, .f32⟩) main_call2_v3) (broadcastInDim S4096x1x19x1 ![0, 1, 2] bcast_S4096x1x19_S4096x1x19x1_0_1_2),
    TRef.unary (TRef.of (T := ⟨S4096x1x19x1, .f32⟩) main_call2_v3) (TRef.of (T := ⟨S4096x1x19x64, .f32⟩) main_call2_v4) (broadcastInDim S4096x1x19x64 ![0, 1, 2, 3] bcast_S4096x1x19x1_S4096x1x19x64_0_1_2_3),
    TRef.binary (TRef.of (T := ⟨S4096x1x19x64, .f32⟩) main_v104) (TRef.of (T := ⟨S4096x1x19x64, .f32⟩) main_call2_v4) (TRef.of (T := ⟨S4096x1x19x64, .f32⟩) main_call2_v5) subf ]

/-- The log-softmax, third part: the sum over each group of the exponentials of the shifted entries (`main_call2_v8`). -/
abbrev st7 : List (HloOp τ sig (Elt F)) :=
  [ TRef.unary (TRef.of (T := ⟨S4096x1x19x64, .f32⟩) main_call2_v5) (TRef.of (T := ⟨S4096x1x19x64, .f32⟩) main_call2_v6) Host.exp,
    TRef.nullary (TRef.of (T := ⟨S_, .f32⟩) main_call2_cst_1) (constant S_ .f32 0x00000000#32),
    TRef.binary (TRef.of (T := ⟨S4096x1x19x64, .f32⟩) main_call2_v6) (TRef.of (T := ⟨S_, .f32⟩) main_call2_cst_1) (TRef.of (T := ⟨S4096x1x19, .f32⟩) main_call2_v7) (fun x v => Host.reduceAdd x v reducesTo_S4096x1x19x64_S4096x1x19_d3 h_S_),
    TRef.unary (TRef.of (T := ⟨S4096x1x19, .f32⟩) main_call2_v7) (TRef.of (T := ⟨S4096x1x19x1, .f32⟩) main_call2_v8) (broadcastInDim S4096x1x19x1 ![0, 1, 2] bcast_S4096x1x19_S4096x1x19x1_0_1_2) ]

/-- The log-softmax, last part: the shifted entries less the logarithm of their group's sum (`main_v105`). -/
abbrev st8 : List (HloOp τ sig (Elt F)) :=
  [ TRef.unary (TRef.of (T := ⟨S4096x1x19x1, .f32⟩) main_call2_v8) (TRef.of (T := ⟨S4096x1x19x1, .f32⟩) main_call2_v9) Host.log,
    TRef.unary (TRef.of (T := ⟨S4096x1x19x1, .f32⟩) main_call2_v9) (TRef.of (T := ⟨S4096x1x19x64, .f32⟩) main_call2_v10) (broadcastInDim S4096x1x19x64 ![0, 1, 2, 3] bcast_S4096x1x19x1_S4096x1x19x64_0_1_2_3),
    TRef.binary (TRef.of (T := ⟨S4096x1x19x64, .f32⟩) main_call2_v5) (TRef.of (T := ⟨S4096x1x19x64, .f32⟩) main_call2_v10) (TRef.of (T := ⟨S4096x1x19x64, .f32⟩) main_v105) subf ]

/-- The second half is the eight stretches in a row. -/
theorem opsB_eq : (opsB : List (HloOp τ sig (Elt F))) = st1 ++ (st2 ++ (st3 ++ (st4 ++ (st5 ++ (st6 ++ (st7 ++ st8)))))) := rfl

/-! ## Typed references

A called function's operations are stated over references that carry the type of the value they hold; contents move
between that type and the buffer's own along the equation of the two.  Moving there and back changes nothing. -/

/-- Contents taken to a typed reference's buffer type and back are the contents. -/
theorem ofBuf_toBuf {T : BufTy} {Val : EltTy → Type} (x : TRef sig T) (v : T.Contents Val) : x.ofBuf (x.toBuf v) = v := by
  obtain ⟨r, rfl, _, _⟩ := x
  rfl

/-! ## The buffers after each stretch -/

/-- The buffers after the first stretch run from contents `V`; after the second run from those; and so on. -/
def W1 (V : Valuation τ sig (Elt F)) : Valuation τ sig (Elt F) := after st1 V
@[inherit_doc W1] def W2 (V : Valuation τ sig (Elt F)) : Valuation τ sig (Elt F) := after st2 (W1 V)
@[inherit_doc W1] def W3 (V : Valuation τ sig (Elt F)) : Valuation τ sig (Elt F) := after st3 (W2 V)
@[inherit_doc W1] def W4 (V : Valuation τ sig (Elt F)) : Valuation τ sig (Elt F) := after st4 (W3 V)
@[inherit_doc W1] def W5 (V : Valuation τ sig (Elt F)) : Valuation τ sig (Elt F) := after st5 (W4 V)
@[inherit_doc W1] def W6 (V : Valuation τ sig (Elt F)) : Valuation τ sig (Elt F) := after st6 (W5 V)
@[inherit_doc W1] def W7 (V : Valuation τ sig (Elt F)) : Valuation τ sig (Elt F) := after st7 (W6 V)
@[inherit_doc W1] def W8 (V : Valuation τ sig (Elt F)) : Valuation τ sig (Elt F) := after st8 (W7 V)

/-- The second half run from `V` leaves the buffers as the eight stretches run one after the other do. -/
theorem after_opsB (V : Valuation τ sig (Elt F)) : after opsB V = W8 V := by
  rw [opsB_eq, after_append, after_append, after_append, after_append, after_append, after_append, after_append]
  rfl

section Stretches

variable (V : Valuation τ sig (Elt F))
variable (x0 : (⟨S4096x1216, .f32⟩ : BufTy).Contents (Elt F)) (x1 : (⟨S2x38912, .i32⟩ : BufTy).Contents (Elt F)) (x2 : (⟨S1x1216, .f32⟩ : BufTy).Contents (Elt F)) (x3 : (⟨S1, .f32⟩ : BufTy).Contents (Elt F)) (x4 : (⟨S1216x1, .f32⟩ : BufTy).Contents (Elt F)) (x5 : (⟨S1216, .f32⟩ : BufTy).Contents (Elt F)) (x6 : (⟨S4, .f32⟩ : BufTy).Contents (Elt F))

/-! ### After the second propagation step

The stretch writes `main_v67` … `main_v79` and the constants it makes; the sources, the targets, the weights, the running
sum and the mixing weights are not among them, so they hold what they held. -/

theorem W1_v14 : W1 V (Proc.devRef .tc main_v14) = V (Proc.devRef .tc main_v14) := by
  show after st1 V (Proc.devRef .tc main_v14) = _
  after_results
theorem W1_v17 : W1 V (Proc.devRef .tc main_v17) = V (Proc.devRef .tc main_v17) := by
  show after st1 V (Proc.devRef .tc main_v17) = _
  after_results
theorem W1_v42 : W1 V (Proc.devRef .tc main_v42) = V (Proc.devRef .tc main_v42) := by
  show after st1 V (Proc.devRef .tc main_v42) = _
  after_results
theorem W1_v66 : W1 V (Proc.devRef .tc main_v66) = V (Proc.devRef .tc main_v66) := by
  show after st1 V (Proc.devRef .tc main_v66) = _
  after_results
theorem W1_arg6 : W1 V (Proc.devRef .tc main_arg6) = V (Proc.devRef .tc main_arg6) := by
  show after st1 V (Proc.devRef .tc main_arg6) = _
  after_results

/-- The second iterate: the stretch's operations, composed, applied to the sources, targets, weights and first iterate
    are the stage of `main_v79` once those four hold their stages. -/
theorem W1_v79
    (h14 : V (Proc.devRef .tc main_v14) = val_main_v14 (F := F) x1) (h17 : V (Proc.devRef .tc main_v17) = val_main_v17 (F := F) x1)
    (h42 : V (Proc.devRef .tc main_v42) = val_main_v42 (F := F) x1)
    (h61 : V (Proc.devRef .tc main_v61) = val_main_v61 (F := F) x0 x1 x2 x3 x4 x5) :
    W1 V (Proc.devRef .tc main_v79) = val_main_v79 (F := F) x0 x1 x2 x3 x4 x5 := by
  show after st1 V (Proc.devRef .tc main_v79) = _
  after_results_simp
  rw [h14, h17, h42, h61]
  rfl

/-! ### After the second mixing update

The stretch writes `main_v80` … `main_v84`: the third mixing weight cut out of the mixing weights, made a scalar and
broadcast, its product with the second iterate, and that product added to the running sum. -/

theorem W2_v14 : W2 V (Proc.devRef .tc main_v14) = V (Proc.devRef .tc main_v14) := by
  show after st2 (W1 V) (Proc.devRef .tc main_v14) = _
  after_results_simp
  exact W1_v14 V
theorem W2_v17 : W2 V (Proc.devRef .tc main_v17) = V (Proc.devRef .tc main_v17) := by
  show after st2 (W1 V) (Proc.devRef .tc main_v17) = _
  after_results_simp
  exact W1_v17 V
theorem W2_v42 : W2 V (Proc.devRef .tc main_v42) = V (Proc.devRef .tc main_v42) := by
  show after st2 (W1 V) (Proc.devRef .tc main_v42) = _
  after_results_simp
  exact W1_v42 V
theorem W2_arg6 : W2 V (Proc.devRef .tc main_arg6) = V (Proc.devRef .tc main_arg6) := by
  show after st2 (W1 V) (Proc.devRef .tc main_arg6) = _
  after_results_simp
  exact W1_arg6 V

/-- The second iterate is not written again. -/
theorem W2_v79 (h14 : V (Proc.devRef .tc main_v14) = val_main_v14 (F := F) x1) (h17 : V (Proc.devRef .tc main_v17) = val_main_v17 (F := F) x1)
    (h42 : V (Proc.devRef .tc main_v42) = val_main_v42 (F := F) x1)
    (h61 : V (Proc.devRef .tc main_v61) = val_main_v61 (F := F) x0 x1 x2 x3 x4 x5) :
    W2 V (Proc.devRef .tc main_v79) = val_main_v79 (F := F) x0 x1 x2 x3 x4 x5 := by
  show after st2 (W1 V) (Proc.devRef .tc main_v79) = _
  after_results_simp
  exact W1_v79 V x0 x1 x2 x3 x4 x5 h14 h17 h42 h61

/-- The running sum after the second mixing update: the old sum plus the third mixing weight times the second iterate,
    each at its stage. -/
theorem W2_v84 (h14 : V (Proc.devRef .tc main_v14) = val_main_v14 (F := F) x1) (h17 : V (Proc.devRef .tc main_v17) = val_main_v17 (F := F) x1)
    (h42 : V (Proc.devRef .tc main_v42) = val_main_v42 (F := F) x1)
    (h61 : V (Proc.devRef .tc main_v61) = val_main_v61 (F := F) x0 x1 x2 x3 x4 x5)
    (h66 : V (Proc.devRef .tc main_v66) = val_main_v66 (F := F) x0 x1 x2 x3 x4 x5 x6)
    (h6 : V (Proc.devRef .tc main_arg6) = x6) :
    W2 V (Proc.devRef .tc main_v84) = val_main_v84 (F := F) x0 x1 x2 x3 x4 x5 x6 := by
  show after st2 (W1 V) (Proc.devRef .tc main_v84) = _
  after_results_simp
  rw [W1_v66, W1_arg6, W1_v79 V x0 x1 x2 x3 x4 x5 h14 h17 h42 h61, h66, h6]
  rfl

/-! ### After the third propagation step

The stretch writes `main_v85` … `main_v97` and its constants: the second propagation step's operations again, reading the
second iterate where those read the first. -/

theorem W3_arg6 : W3 V (Proc.devRef .tc main_arg6) = V (Proc.devRef .tc main_arg6) := by
  show after st3 (W2 V) (Proc.devRef .tc main_arg6) = _
  after_results_simp
  exact W2_arg6 V

/-- The running sum is not written by the third propagation step. -/
theorem W3_v84 (h14 : V (Proc.devRef .tc main_v14) = val_main_v14 (F := F) x1) (h17 : V (Proc.devRef .tc main_v17) = val_main_v17 (F := F) x1)
    (h42 : V (Proc.devRef .tc main_v42) = val_main_v42 (F := F) x1)
    (h61 : V (Proc.devRef .tc main_v61) = val_main_v61 (F := F) x0 x1 x2 x3 x4 x5)
    (h66 : V (Proc.devRef .tc main_v66) = val_main_v66 (F := F) x0 x1 x2 x3 x4 x5 x6)
    (h6 : V (Proc.devRef .tc main_arg6) = x6) :
    W3 V (Proc.devRef .tc main_v84) = val_main_v84 (F := F) x0 x1 x2 x3 x4 x5 x6 := by
  show after st3 (W2 V) (Proc.devRef .tc main_v84) = _
  after_results_simp
  exact W2_v84 V x0 x1 x2 x3 x4 x5 x6 h14 h17 h42 h61 h66 h6

/-- The third iterate: the stretch's operations, composed, applied to the sources, targets, weights and second iterate. -/
theorem W3_v97 (h14 : V (Proc.devRef .tc main_v14) = val_main_v14 (F := F) x1) (h17 : V (Proc.devRef .tc main_v17) = val_main_v17 (F := F) x1)
    (h42 : V (Proc.devRef .tc main_v42) = val_main_v42 (F := F) x1)
    (h61 : V (Proc.devRef .tc main_v61) = val_main_v61 (F := F) x0 x1 x2 x3 x4 x5) :
    W3 V (Proc.devRef .tc main_v97) = val_main_v97 (F := F) x0 x1 x2 x3 x4 x5 := by
  show after st3 (W2 V) (Proc.devRef .tc main_v97) = _
  after_results_simp
  rw [W2_v14, W2_v17, W2_v42, W2_v79 V x0 x1 x2 x3 x4 x5 h14 h17 h42 h61, h14, h17, h42]
  rfl

/-! ### After the third mixing update, the transpose and the regrouping

The stretch writes `main_v98` … `main_v104`: the fourth mixing weight broadcast, its product with the third iterate added
to the running sum, the sum transposed to rows of 1216 and each row cut into 19 groups of 64. -/

theorem W4_v104 (h14 : V (Proc.devRef .tc main_v14) = val_main_v14 (F := F) x1) (h17 : V (Proc.devRef .tc main_v17) = val_main_v17 (F := F) x1)
    (h42 : V (Proc.devRef .tc main_v42) = val_main_v42 (F := F) x1)
    (h61 : V (Proc.devRef .tc main_v61) = val_main_v61 (F := F) x0 x1 x2 x3 x4 x5)
    (h66 : V (Proc.devRef .tc main_v66) = val_main_v66 (F := F) x0 x1 x2 x3 x4 x5 x6)
    (h6 : V (Proc.devRef .tc main_arg6) = x6) :
    W4 V (Proc.devRef .tc main_v104) = val_main_v104 (F := F) x0 x1 x2 x3 x4 x5 x6 := by
  show after st4 (W3 V) (Proc.devRef .tc main_v104) = _
  after_results_simp
  rw [W3_v84 V x0 x1 x2 x3 x4 x5 x6 h14 h17 h42 h61 h66 h6, W3_v97 V x0 x1 x2 x3 x4 x5 h14 h17 h42 h61, W3_arg6, h6]
  rfl

/-! ### The log-softmax

Its operations run in the caller's buffers, in four stretches: each group's maximum; the entries less it; the sum over
the group of their exponentials; the entries less that sum's logarithm. -/

/-- The regrouped sum is not written by the first part. -/
theorem W5_v104 (h14 : V (Proc.devRef .tc main_v14) = val_main_v14 (F := F) x1) (h17 : V (Proc.devRef .tc main_v17) = val_main_v17 (F := F) x1)
    (h42 : V (Proc.devRef .tc main_v42) = val_main_v42 (F := F) x1)
    (h61 : V (Proc.devRef .tc main_v61) = val_main_v61 (F := F) x0 x1 x2 x3 x4 x5)
    (h66 : V (Proc.devRef .tc main_v66) = val_main_v66 (F := F) x0 x1 x2 x3 x4 x5 x6)
    (h6 : V (Proc.devRef .tc main_arg6) = x6) :
    W5 V (Proc.devRef .tc main_v104) = val_main_v104 (F := F) x0 x1 x2 x3 x4 x5 x6 := by
  show after st5 (W4 V) (Proc.devRef .tc main_v104) = _
  after_results_simp
  exact W4_v104 V x0 x1 x2 x3 x4 x5 x6 h14 h17 h42 h61 h66 h6

/-- Each group's maximum: folded from −∞, then joined with −∞ once more. -/
theorem W5_c2 (h14 : V (Proc.devRef .tc main_v14) = val_main_v14 (F := F) x1) (h17 : V (Proc.devRef .tc main_v17) = val_main_v17 (F := F) x1)
    (h42 : V (Proc.devRef .tc main_v42) = val_main_v42 (F := F) x1)
    (h61 : V (Proc.devRef .tc main_v61) = val_main_v61 (F := F) x0 x1 x2 x3 x4 x5)
    (h66 : V (Proc.devRef .tc main_v66) = val_main_v66 (F := F) x0 x1 x2 x3 x4 x5 x6)
    (h6 : V (Proc.devRef .tc main_arg6) = x6) :
    W5 V (Proc.devRef .tc main_call2_v2) = val_main_call2_v2 (F := F) x0 x1 x2 x3 x4 x5 x6 := by
  show after st5 (W4 V) (Proc.devRef .tc main_call2_v2) = _
  after_results_simp
  rw [W4_v104 V x0 x1 x2 x3 x4 x5 x6 h14 h17 h42 h61 h66 h6]
  repeat rw [ofBuf_toBuf]
  rfl

/-- The entries less their group's maximum (the maximum broadcast back over the group). -/
theorem W6_c5 (h14 : V (Proc.devRef .tc main_v14) = val_main_v14 (F := F) x1) (h17 : V (Proc.devRef .tc main_v17) = val_main_v17 (F := F) x1)
    (h42 : V (Proc.devRef .tc main_v42) = val_main_v42 (F := F) x1)
    (h61 : V (Proc.devRef .tc main_v61) = val_main_v61 (F := F) x0 x1 x2 x3 x4 x5)
    (h66 : V (Proc.devRef .tc main_v66) = val_main_v66 (F := F) x0 x1 x2 x3 x4 x5 x6)
    (h6 : V (Proc.devRef .tc main_arg6) = x6) :
    W6 V (Proc.devRef .tc main_call2_v5) = val_main_call2_v5 (F := F) x0 x1 x2 x3 x4 x5 x6 := by
  show after st6 (W5 V) (Proc.devRef .tc main_call2_v5) = _
  after_results_simp
  rw [W5_v104 V x0 x1 x2 x3 x4 x5 x6 h14 h17 h42 h61 h66 h6, W5_c2 V x0 x1 x2 x3 x4 x5 x6 h14 h17 h42 h61 h66 h6]
  repeat rw [ofBuf_toBuf]
  rfl

/-- The shifted entries are not written by the third part. -/
theorem W7_c5 (h14 : V (Proc.devRef .tc main_v14) = val_main_v14 (F := F) x1) (h17 : V (Proc.devRef .tc main_v17) = val_main_v17 (F := F) x1)
    (h42 : V (Proc.devRef .tc main_v42) = val_main_v42 (F := F) x1)
    (h61 : V (Proc.devRef .tc main_v61) = val_main_v61 (F := F) x0 x1 x2 x3 x4 x5)
    (h66 : V (Proc.devRef .tc main_v66) = val_main_v66 (F := F) x0 x1 x2 x3 x4 x5 x6)
    (h6 : V (Proc.devRef .tc main_arg6) = x6) :
    W7 V (Proc.devRef .tc main_call2_v5) = val_main_call2_v5 (F := F) x0 x1 x2 x3 x4 x5 x6 := by
  show after st7 (W6 V) (Proc.devRef .tc main_call2_v5) = _
  after_results_simp
  exact W6_c5 V x0 x1 x2 x3 x4 x5 x6 h14 h17 h42 h61 h66 h6

/-- The sum over each group of the exponentials of the shifted entries, with a unit axis put back. -/
theorem W7_c8 (h14 : V (Proc.devRef .tc main_v14) = val_main_v14 (F := F) x1) (h17 : V (Proc.devRef .tc main_v17) = val_main_v17 (F := F) x1)
    (h42 : V (Proc.devRef .tc main_v42) = val_main_v42 (F := F) x1)
    (h61 : V (Proc.devRef .tc main_v61) = val_main_v61 (F := F) x0 x1 x2 x3 x4 x5)
    (h66 : V (Proc.devRef .tc main_v66) = val_main_v66 (F := F) x0 x1 x2 x3 x4 x5 x6)
    (h6 : V (Proc.devRef .tc main_arg6) = x6) :
    W7 V (Proc.devRef .tc main_call2_v8) = val_main_call2_v8 (F := F) x0 x1 x2 x3 x4 x5 x6 := by
  show after st7 (W6 V) (Proc.devRef .tc main_call2_v8) = _
  after_results_simp
  rw [W6_c5 V x0 x1 x2 x3 x4 x5 x6 h14 h17 h42 h61 h66 h6]
  repeat rw [ofBuf_toBuf]
  rfl

/-- The result: the shifted entries less the logarithm of their group's sum. -/
theorem W8_v105 (h14 : V (Proc.devRef .tc main_v14) = val_main_v14 (F := F) x1) (h17 : V (Proc.devRef .tc main_v17) = val_main_v17 (F := F) x1)
    (h42 : V (Proc.devRef .tc main_v42) = val_main_v42 (F := F) x1)
    (h61 : V (Proc.devRef .tc main_v61) = val_main_v61 (F := F) x0 x1 x2 x3 x4 x5)
    (h66 : V (Proc.devRef .tc main_v66) = val_main_v66 (F := F) x0 x1 x2 x3 x4 x5 x6)
    (h6 : V (Proc.devRef .tc main_arg6) = x6) :
    W8 V (Proc.devRef .tc main_v105) = val_main_v105 (F := F) x0 x1 x2 x3 x4 x5 x6 := by
  show after st8 (W7 V) (Proc.devRef .tc main_v105) = _
  after_results_simp
  rw [W7_c5 V x0 x1 x2 x3 x4 x5 x6 h14 h17 h42 h61 h66 h6, W7_c8 V x0 x1 x2 x3 x4 x5 x6 h14 h17 h42 h61 h66 h6]
  repeat rw [ofBuf_toBuf]
  rfl

end Stretches

/-- The second half of the run: from buffer contents holding, at the six values this half reads and does not write, the
    stages the first half computes, the result buffer ends at the result's stage. -/
theorem tail_value (V : Valuation τ sig (Elt F))
    (x0 : (⟨S4096x1216, .f32⟩ : BufTy).Contents (Elt F)) (x1 : (⟨S2x38912, .i32⟩ : BufTy).Contents (Elt F)) (x2 : (⟨S1x1216, .f32⟩ : BufTy).Contents (Elt F)) (x3 : (⟨S1, .f32⟩ : BufTy).Contents (Elt F)) (x4 : (⟨S1216x1, .f32⟩ : BufTy).Contents (Elt F)) (x5 : (⟨S1216, .f32⟩ : BufTy).Contents (Elt F)) (x6 : (⟨S4, .f32⟩ : BufTy).Contents (Elt F))
    (h14 : V (Proc.devRef .tc main_v14) = val_main_v14 (F := F) x1) (h17 : V (Proc.devRef .tc main_v17) = val_main_v17 (F := F) x1)
    (h42 : V (Proc.devRef .tc main_v42) = val_main_v42 (F := F) x1)
    (h61 : V (Proc.devRef .tc main_v61) = val_main_v61 (F := F) x0 x1 x2 x3 x4 x5)
    (h66 : V (Proc.devRef .tc main_v66) = val_main_v66 (F := F) x0 x1 x2 x3 x4 x5 x6)
    (h6 : V (Proc.devRef .tc main_arg6) = x6) :
    after opsB V (Proc.devRef .tc main_v105) = val_main_v105 (F := F) x0 x1 x2 x3 x4 x5 x6 := by
  rw [after_opsB]
  exact W8_v105 V x0 x1 x2 x3 x4 x5 x6 h14 h17 h42 h61 h66 h6

end Cert.ReferenceIdeal.HandTail

end
-- ==== Proof.RefRunJoin.lean ====
/-
  The reference's run, read: every weakly fair execution of its @main (a straight line of 142 host operations) terminates,
  the result buffer holding the last stage of the program read one operation at a time, the argument arrays as launched.

  What a buffer holds after the line is the fold of the operations' results over the launch contents.  The operations
  write each buffer once and read only earlier ones, so a buffer's final contents are its own operation applied to its
  operands' final contents — its stage.  The fold is evaluated in two halves (the line cut after the first propagation step's
  sum), each half stretch by stretch, carrying only the values still to be read.
-/
import proofs.«411973_j34162169872617_3_alg».proof.Proof.RefOps
import proofs.«411973_j34162169872617_3_alg».proof.Proof.RefRead
import proofs.«411973_j34162169872617_3_alg».proof.Proof.RefRunHand
import proofs.«411973_j34162169872617_3_alg».proof.Proof.RefRunTail
import Idealize.ShloMosaic.Lib.Pipeline.Frame

noncomputable section

namespace Cert.ReferenceIdeal.Hand

open Cert.ReferenceIdeal Cert.ReferenceIdeal.Gen Cert.ReferenceIdeal.Value Cert.ReferenceIdeal.Read Cert.ReferenceIdeal.HandTail Idealize.ShloMosaic Idealize.ShloMosaic.TcCoe Idealize.SL.Sem Idealize.ShloMosaic.StableHlo

variable {F : FTy → Type} [FloatOps F]

set_option maxRecDepth 65536 in
/-- The line is its first 83 operations followed by the rest. -/
theorem ops_split : (ops : List (HloOp τ sig (Elt F))) = opsA ++ opsB := rfl

/-- The result buffer after the whole line holds the program's last stage: the second half run from what the first half
    leaves, which holds the six values the second half still reads at their stages. -/
theorem value (m : (ℓ : Loc nD τ sig) → Buf (Elt F) ℓ) (c : Dev nD) :
    after ops (launchContents m c) (Proc.devRef .tc main_v105)
      = val_main_v105 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := by
  rw [ops_split, StableHlo.after_append]
  obtain ⟨h14, h17, h42, h61, h66, h6⟩ := head_values m c
  exact tail_value _ _ _ _ _ _ _ _ h14 h17 h42 h61 h66 h6
set_option maxRecDepth 65536 in
set_option maxHeartbeats 56800000 in
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v105) = val_main_v105 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => ⟨(h c main_v105).trans (value m c),
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl),
      (h c main_arg5).trans (by after_results_simp <;> rfl),
      (h c main_arg6).trans (by after_results_simp <;> rfl)⟩)
    (run_seq scopedRefs_eq scopedSems_eq defs main (fun _ => ops) main_eq (fun _ => ops_sub) m ρ)

end Cert.ReferenceIdeal.Hand

end
-- ==== Proof.LibReal.lean ====
import Idealize.ShloMosaic.PureOps.Ideal
import Mathlib.Data.EReal.Basic
import Mathlib.Data.EReal.Operations
import Mathlib.Data.EReal.Inv
import Mathlib.Algebra.BigOperators.Group.Finset.Basic
import Mathlib.Algebra.BigOperators.Ring.Finset
import Mathlib.Analysis.SpecialFunctions.Pow.Real

/-!
  Extended reals that are real numbers.

  At the ideal instance a float value is an extended real.  The arithmetic of `EReal` is
  not a ring (`⊤ + ⊥`, `0 * ⊤` have conventional values), but on the image of `ℝ` every
  operation is the real one.  This file names that image (`IsReal`), shows it closed under
  the operations used, and proves the expansion of a squared distance
  `Σ (e - c)² = Σ e² - 2 Σ e c + Σ c²` for real entries, all operations being `EReal`'s.
-/

open scoped BigOperators

namespace Cert.LibReal

open Idealize.ShloMosaic

/-- An extended real that is a real number. -/
def IsReal (x : EReal) : Prop := ∃ r : ℝ, x = (r : EReal)

theorem IsReal.coe (r : ℝ) : IsReal (r : EReal) := ⟨r, rfl⟩

theorem IsReal.zero : IsReal (0 : EReal) := ⟨0, rfl⟩

theorem IsReal.one : IsReal (1 : EReal) := ⟨1, rfl⟩

theorem IsReal.add {x y : EReal} : IsReal x → IsReal y → IsReal (x + y) := by
  rintro ⟨a, rfl⟩ ⟨b, rfl⟩
  exact ⟨a + b, (EReal.coe_add a b).symm⟩

theorem IsReal.sub {x y : EReal} : IsReal x → IsReal y → IsReal (x - y) := by
  rintro ⟨a, rfl⟩ ⟨b, rfl⟩
  exact ⟨a - b, (EReal.coe_sub a b).symm⟩

theorem IsReal.mul {x y : EReal} : IsReal x → IsReal y → IsReal (x * y) := by
  rintro ⟨a, rfl⟩ ⟨b, rfl⟩
  exact ⟨a * b, (EReal.coe_mul a b).symm⟩

theorem IsReal.neg {x : EReal} : IsReal x → IsReal (-x) := by
  rintro ⟨a, rfl⟩
  exact ⟨-a, (EReal.coe_neg a).symm⟩

theorem IsReal.max {x y : EReal} : IsReal x → IsReal y → IsReal (max x y) := by
  intro hx hy
  rcases le_total x y with h | h
  · rw [max_eq_right h]; exact hy
  · rw [max_eq_left h]; exact hx

theorem IsReal.sum {ι : Type} (s : Finset ι) (f : ι → EReal) :
    (∀ i ∈ s, IsReal (f i)) → IsReal (∑ i ∈ s, f i) := by
  classical
  refine Finset.induction_on s ?_ ?_
  · intro _; rw [Finset.sum_empty]; exact IsReal.zero
  · intro a t ha ih h
    rw [Finset.sum_insert ha]
    exact IsReal.add (h a (Finset.mem_insert_self a t))
      (ih fun i hi => h i (Finset.mem_insert_of_mem hi))

/-- The quotient of a real by a NONZERO real is real (by zero the total division returns an
    infinity). -/
theorem IsReal.div {x y : EReal} : IsReal x → IsReal y → y ≠ 0 → IsReal (Ideal.div x y) := by
  rintro ⟨a, rfl⟩ ⟨b, rfl⟩ hb
  have hb' : b ≠ 0 := fun h => hb (by rw [h]; rfl)
  rw [Ideal.div_coe hb']
  exact IsReal.mul (IsReal.coe a) (IsReal.coe _)

theorem IsReal.exp {x : EReal} : IsReal x → IsReal (Ideal.exp x) := by
  rintro ⟨a, rfl⟩
  exact ⟨Real.exp a, Ideal.exp_coe a⟩

/-- The coercion `ℝ → EReal` commutes with finite sums. -/
theorem coe_sum {ι : Type} (s : Finset ι) (f : ι → ℝ) :
    ((∑ i ∈ s, f i : ℝ) : EReal) = ∑ i ∈ s, (f i : EReal) := by
  classical
  refine Finset.induction_on s ?_ ?_
  · rw [Finset.sum_empty, Finset.sum_empty]; rfl
  · intro a t ha ih
    rw [Finset.sum_insert ha, Finset.sum_insert ha, EReal.coe_add, ih]

/-- `Σ (e - c)² = Σ e² - 2 · Σ e c + Σ c²` on real entries, every operation `EReal`'s. -/
theorem sqdist_expand {n : ℕ} (e c : Fin n → EReal) (he : ∀ k, IsReal (e k)) (hc : ∀ k, IsReal (c k)) :
    ∑ k, (e k - c k) * (e k - c k)
      = (∑ k, e k * e k) - ((2 : ℝ) : EReal) * (∑ k, e k * c k) + ∑ k, c k * c k := by
  choose a ha using he
  choose b hb using hc
  have hE : e = fun k => (a k : EReal) := funext ha
  have hC : c = fun k => (b k : EReal) := funext hb
  subst hE hC
  simp only [← EReal.coe_sub, ← EReal.coe_mul, ← coe_sum, ← EReal.coe_add]
  congr 1
  rw [Finset.mul_sum, ← Finset.sum_sub_distrib, ← Finset.sum_add_distrib]
  exact Finset.sum_congr rfl fun k _ => by ring

/-- Division by one is the identity on a real. -/
theorem div_one_of_isReal {x : EReal} : IsReal x → Ideal.div x 1 = x := by
  rintro ⟨a, rfl⟩
  rw [← EReal.coe_one, Ideal.div_coe one_ne_zero, ← EReal.coe_mul]
  congr 1
  rw [div_one, mul_one]

/-- The power one is the identity on a real. -/
theorem pow_one_of_isReal {x : EReal} : IsReal x → Ideal.pow x 1 = x := by
  rintro ⟨a, rfl⟩
  rw [← EReal.coe_one, Ideal.pow_coe_coe]
  congr 1
  exact Real.rpow_one a

/-- The power one is the identity on every extended real: `⊥` stays `⊥`, `⊤` stays `⊤` since
    `0 < 1`, and a real is `Real.rpow_one`. -/
theorem pow_one (x : EReal) : Ideal.pow x 1 = x := by
  induction x using EReal.rec with
  | bot => exact Ideal.pow_bot 1
  | coe r =>
    rw [← EReal.coe_one, Ideal.pow_coe_coe]
    congr 1
    exact Real.rpow_one r
  | top => rw [Ideal.pow_top, if_pos (by exact_mod_cast (zero_lt_one : (0 : ℝ) < 1))]

end Cert.LibReal
-- ==== Proof.Spec.lean ====
/-
  The mathematics both programs compute, stated once over the argument arrays.

  The graph has 1216 nodes and 40128 weighted edges: the 38912 input edges (edge_index[0, e] → edge_index[1, e])
  followed by one self loop per node.  An edge's weight is dinv(source) · dinv(target) with
  dinv(n) = rsqrt(max(deg n, ε)) where deg n > 0 (else 0) and deg n the number of edges INTO n.

  One propagation step sends a node-indexed family X to  (hop X) n = Σ over edges e into n of weight(e) · X(source e).
  The reference propagates the whole hidden row X₀ n = h · w₂ n + b₂ n three times and mixes the four
  iterates with the weights tp; the kernel propagates the two vectors w₂ and b₂ through the adjacency matrix
  A n j = Σ over edges e from j into n of weight(e) and forms h · V n + C n afterwards.  On real data the two agree,
  because a propagation step is linear: hop (h·v + c) = h · (A v) + A c.

  The result is the log-softmax of the hidden row over each of its 19 groups of 64 consecutive nodes.
-/
import Idealize.ShloMosaic.PureOps.Ideal
import Idealize.ShloMosaic.Lib.ValueIdx
import proofs.«411973_j34162169872617_3_alg».proof.Proof.LibReal

noncomputable section

namespace Cert.Spec

open Idealize.ShloMosaic Idealize.ShloMosaic.ValueIdx Cert.LibReal
open scoped BigOperators

/-- The edge list's shape, [2, 38912] (row 0 the sources, row 1 the targets). -/
abbrev SEdge : Shape := ⟨2, ![2, 38912]⟩

/-- Entry `r` of input edge `e` read as a node: signed, clamped into the node range (so that it is a node for
    every word; on words already in range it is the word). -/
def nodeAt (ei : IVec SEdge 32) (r : Fin 2) (e : Fin 38912) : Fin 1216 :=
  ⟨min (ei (ix2 r e)).toInt.toNat 1215, by omega⟩

/-- The source of edge `e`: the input edge's source, or node `e − 38912` for a self loop. -/
def rowOf (ei : IVec SEdge 32) (e : Fin 40128) : Fin 1216 :=
  if h : e.val < 38912 then nodeAt ei 0 ⟨e.val, h⟩ else ⟨e.val - 38912, by omega⟩

/-- The target of edge `e`. -/
def colOf (ei : IVec SEdge 32) (e : Fin 40128) : Fin 1216 :=
  if h : e.val < 38912 then nodeAt ei 1 ⟨e.val, h⟩ else ⟨e.val - 38912, by omega⟩

/-- The in-degree of node `n`, self loop included, as an extended real: a sum of ones. -/
def degOf (ei : IVec SEdge 32) (n : Fin 1216) : EReal :=
  ∑ _e ∈ Finset.univ.filter (fun e : Fin 40128 => colOf ei e = n), Ideal.ofBits .f32 0x3F800000#32

/-- The normalising factor of a node of degree `d`: rsqrt(max(d, ε)) where d > 0, else 0 (ε the f32 word of 1e-12). -/
def dinvOf (d : EReal) : EReal :=
  Scalar.select (Ideal.cmp .ogt d (Ideal.ofBits .f32 0x00000000#32))
    (Ideal.rsqrt (max d (Ideal.ofBits .f32 0x2B8CBCCC#32))) (Ideal.ofBits .f32 0x00000000#32)

/-- The weight of edge `e`. -/
def nrmOf (ei : IVec SEdge 32) (e : Fin 40128) : EReal :=
  dinvOf (degOf ei (rowOf ei e)) * dinvOf (degOf ei (colOf ei e))

/-- One propagation step on a node-indexed family. -/
def hop (ei : IVec SEdge 32) (X : Fin 1216 → EReal) (n : Fin 1216) : EReal :=
  ∑ e ∈ Finset.univ.filter (fun e : Fin 40128 => colOf ei e = n), nrmOf ei e * X (rowOf ei e)

/-- The reference's hidden row for a batch row whose first layer gives `h`: the start X₀ n = h · w₂ n + b₂ n and its three
    iterates mixed with the weights `tp`, associated as the reference adds them. -/
def hidR (ei : IVec SEdge 32) (tp : Fin 4 → EReal) (w2 b2 : Fin 1216 → EReal) (h : EReal) (n : Fin 1216) : EReal :=
  ((((h * w2 n + b2 n) * tp 0 + tp 1 * hop ei (fun k => h * w2 k + b2 k) n)
      + tp 2 * hop ei (hop ei (fun k => h * w2 k + b2 k)) n)
    + tp 3 * hop ei (hop ei (hop ei (fun k => h * w2 k + b2 k))) n)

/-- The adjacency matrix: the total weight of the edges from `j` into `i`. -/
def adj (ei : IVec SEdge 32) (i j : Fin 1216) : EReal :=
  ∑ e ∈ Finset.univ.filter (fun e : Fin 40128 => colOf ei e = i ∧ rowOf ei e = j), nrmOf ei e

/-- A node vector times the transposed adjacency matrix. -/
def prop (ei : IVec SEdge 32) (v : Fin 1216 → EReal) (n : Fin 1216) : EReal :=
  ∑ j : Fin 1216, v j * adj ei n j

/-- A vector and its three propagated images mixed with `tp`, associated as the kernel's host code adds them. -/
def mix (ei : IVec SEdge 32) (tp : Fin 4 → EReal) (v : Fin 1216 → EReal) (n : Fin 1216) : EReal :=
  (((tp 0 * v n + tp 1 * prop ei v n) + tp 2 * prop ei (prop ei v) n) + tp 3 * prop ei (prop ei (prop ei v)) n)

/-- The kernel's hidden row: h · V + C with V, C the mixes of w₂ and b₂. -/
def hidK (ei : IVec SEdge 32) (tp : Fin 4 → EReal) (w2 b2 : Fin 1216 → EReal) (h : EReal) (n : Fin 1216) : EReal :=
  h * mix ei tp w2 n + mix ei tp b2 n

/-- Node `64 g + l`: lane `l` of group `g`. -/
def lane (g : Fin 19) (l : Fin 64) : Fin 1216 := ⟨64 * g.val + l.val, by omega⟩

/-- The maximum of a hidden row over group `g`, folded from −∞. -/
def gmax (H : Fin 1216 → EReal) (g : Fin 19) : EReal :=
  (Finset.univ : Finset (Fin 64)).fold max (Ideal.ofBits .f32 0xFF800000#32) (fun l => H (lane g l))

/-- The log-softmax of a hidden row over group `g`, at lane `l`. -/
def lsm (H : Fin 1216 → EReal) (g : Fin 19) (l : Fin 64) : EReal :=
  (H (lane g l) - gmax H g) - Ideal.log (∑ l' : Fin 64, Ideal.exp (H (lane g l') - gmax H g))

/-- The first layer at a batch row: relu(x · w₁ + b₁). -/
def h1Of (xrow w1 : Fin 1216 → EReal) (b1 : EReal) : EReal :=
  max ((∑ j : Fin 1216, xrow j * w1 j) + b1) (Ideal.ofBits .f32 0x00000000#32)

end Cert.Spec

end
-- ==== Proof.LibIdx.lean ====
/-
  Host gathers and accumulating scatters read at an index, for the shapes jnp's `table[idx]`, `rows[idx]`,
  `segment_sum` and `.at[i, j].add` lower to, when the index words are known to name positions of the table.

  A `stablehlo.gather` that takes entries (or whole rows) of a table reads, at result position `p`, the entry (row)
  the `p`-th start index names.  A float `stablehlo.scatter` with an `add` body is, at the ideal values, the operand's
  element plus the exact sum of the updates landing on it: over the update positions `e` whose index names that element.
  Also here: a vector built by joining two vectors end to end read at a position, two index columns joined side by side,
  and jnp's wrap of a negative index, which changes nothing on non-negative words.
-/
import Idealize.ShloMosaic.PureOps.Ideal
import Idealize.ShloMosaic.PureOps.ShapeOps
import Idealize.ShloMosaic.Lib.ValueIdx
import Idealize.ShloMosaic.Lib.StableHlo.Predicate
import Idealize.ShloMosaic.Lib.Pipeline.Value

noncomputable section

namespace Cert.LibIdx

open Idealize.ShloMosaic Idealize.ShloMosaic.ValueIdx
open scoped BigOperators

/-- Entries of a table `[N]` taken at the positions a column `[n, 1]` of index words names (`r e` the position word `e`
    holds): result position `p` is the table at `r p`. -/
theorem gather_take_of {α : Type} {N n w : Nat} (d : GatherDims ⟨1, ![N]⟩ ⟨2, ![n, 1]⟩ ⟨1, ![n]⟩)
    (hcoll : d.collapsedSliceDims = [0]) (hob : d.operandBatchingDims = [])
    (hsim : d.startIndexMap = [0]) (hivd : d.indexVectorDim = 1)
    (x : (⟨1, ![N]⟩ : Shape).Idx → α) (idx : IVec ⟨2, ![n, 1]⟩ w) (r : Fin n → Fin N)
    (hr : ∀ e, (idx (ix2 e (0 : Fin 1))).toInt = ((r e).val : ℤ)) (p : Fin n) :
    Host.gather d x idx (ix1 p) = x (ix1 (r p)) := by
  unfold Host.gather
  congr 1
  funext a
  have ha0 : a = 0 := Subsingleton.elim _ _
  subst ha0
  apply Fin.ext
  have hb : (0 : Fin 1) ∉ d.operandBatchingDims := by rw [hob]; exact List.not_mem_nil
  have hk : (0 : Fin 1) ∉ d.sKept := by rw [GatherDims.mem_sKept, hcoll]; simp
  have hm : (0 : Fin 1) ∈ d.startIndexMap := by rw [hsim]; exact List.mem_singleton.mpr rfl
  have hsl : d.sliceSizes 0 = 1 := d.slice_collapsed 0 (by rw [hcoll]; exact List.mem_singleton.mpr rfl)
  have hsi : d.siIdx (ix1 p) ⟨d.startIndexMap.idxOf (0 : Fin 1), List.idxOf_lt_length_iff.2 hm⟩ = ix2 p (0 : Fin 1) := by
    funext b
    match b with
    | ⟨0, _⟩ =>
      unfold GatherDims.siIdx
      rw [dif_neg (by rw [hivd]; simp)]
      unfold GatherDims.siCoord
      apply Fin.ext
      simp only [Fin.val_cast]
      have e : ∀ X : Fin 1, ((ix1 p : (⟨1, ![n]⟩ : Shape).Idx) X).val = p.val := fun X => by
        have hX : X = 0 := Subsingleton.elim _ _
        subst hX; rfl
      exact e _
    | ⟨1, _⟩ =>
      unfold GatherDims.siIdx
      rw [dif_pos (by rw [hivd])]
      apply Fin.ext
      show List.idxOf (0 : Fin 1) d.startIndexMap = 0
      rw [hsim]; simp
  simp only [GatherDims.operandIdx, GatherDims.batchCoord_eq_zero _ _ _ hb, GatherDims.offCoord_eq_zero _ _ _ hk,
    Nat.add_zero, GatherDims.start, dif_pos hm]
  rw [hsi, hr p, hsl]
  show min ((r p).val : ℤ).toNat (N - 1) = (r p).val
  have := (r p).isLt
  simp only [Int.toNat_natCast]
  omega

/-- Whole rows of a table `[N, B]` taken at the positions a column `[n, 1]` of index words names: result `(p, q)` is the
    table at `(r p, q)`. -/
theorem gather_rows_of {α : Type} {N B n w : Nat} (d : GatherDims ⟨2, ![N, B]⟩ ⟨2, ![n, 1]⟩ ⟨2, ![n, B]⟩)
    (hoff : d.offsetDims = [1]) (hcoll : d.collapsedSliceDims = [0]) (hob : d.operandBatchingDims = [])
    (hsim : d.startIndexMap = [0]) (hivd : d.indexVectorDim = 1)
    (x : (⟨2, ![N, B]⟩ : Shape).Idx → α) (idx : IVec ⟨2, ![n, 1]⟩ w) (r : Fin n → Fin N)
    (hr : ∀ e, (idx (ix2 e (0 : Fin 1))).toInt = ((r e).val : ℤ)) (p : Fin n) (q : Fin B) :
    Host.gather d x idx (ix2 p q) = x (ix2 (r p) q) := by
  obtain ⟨od, cd, ob, sb, sm, iv, ss, wf⟩ := d
  simp only at hoff hcoll hob hsim hivd
  subst hoff hcoll hob hsim hivd
  generalize hd : (GatherDims.mk (s := ⟨2, ![N, B]⟩) (si := ⟨2, ![n, 1]⟩) (t := ⟨2, ![n, B]⟩) [1] [0] [] sb [0] 1 ss wf) = d
  have hm : (0 : Fin 2) ∈ d.startIndexMap := by rw [← hd]; exact List.mem_singleton.mpr rfl
  have hm1 : (1 : Fin 2) ∉ d.startIndexMap := by rw [← hd]; simp
  have hc0 : (0 : Fin 2) ∈ d.collapsedSliceDims := by rw [← hd]; exact List.mem_singleton.mpr rfl
  have hob : ∀ a, a ∉ d.operandBatchingDims := by rw [← hd]; exact fun a => List.not_mem_nil
  have hsl : d.sliceSizes 0 = 1 := d.slice_collapsed 0 hc0
  have hk1 : (1 : Fin 2) ∈ d.sKept := by rw [GatherDims.mem_sKept]; refine ⟨?_, hob 1⟩; rw [← hd]; simp
  have hsi : ∀ c, c.val = 0 → d.siIdx (ix2 p q) c = ix2 p (0 : Fin 1) := by
    intro c hc
    funext b
    apply Fin.ext
    match b with
    | ⟨0, _⟩ => subst hd; rfl
    | ⟨1, _⟩ => subst hd; exact hc
  have h0 : (d.operandIdx (ix2 p q) idx 0).val = (r p).val := by
    show d.start (ix2 p q) idx 0 + d.batchCoord (ix2 p q) 0 + d.offCoord (ix2 p q) 0 = _
    rw [GatherDims.batchCoord_eq_zero _ _ _ (hob 0),
      GatherDims.offCoord_eq_zero _ _ _ (fun h => ((GatherDims.mem_sKept _ _).mp h).1 hc0)]
    simp only [Nat.add_zero]
    unfold GatherDims.start
    rw [dif_pos hm, hsi _ (by subst hd; simp), hr p, hsl]
    show min ((r p).val : ℤ).toNat (N - 1) = (r p).val
    have := (r p).isLt
    simp only [Int.toNat_natCast]
    omega
  have h1 : (d.operandIdx (ix2 p q) idx 1).val = q.val := by
    show d.start (ix2 p q) idx 1 + d.batchCoord (ix2 p q) 1 + d.offCoord (ix2 p q) 1 = _
    rw [GatherDims.batchCoord_eq_zero _ _ _ (hob 1)]
    unfold GatherDims.start GatherDims.offCoord
    rw [dif_neg hm1, dif_pos hk1]
    simp only [Nat.add_zero, Nat.zero_add]
    subst hd
    rfl
  unfold Host.gather
  congr 1
  funext a
  apply Fin.ext
  match a with
  | ⟨0, _⟩ => exact h0
  | ⟨1, _⟩ => exact h1

/-- A rank-1 index set is its one coordinate's range. -/
private def idxEquiv1 {n : Nat} : (⟨1, ![n]⟩ : Shape).Idx ≃ Fin n where
  toFun j := j 0
  invFun e := ix1 e
  left_inv j := (eq_ix1 j).symm
  right_inv _ := rfl

/-- Rank-1 indices are equal only when their coordinates are. -/
private theorem ix1_inj {n : Nat} {a b : Fin n} (h : ix1 a = ix1 b) : a = b := congrFun h 0

/-- Rank-2 indices are equal only when both coordinates are. -/
private theorem ix2_inj {n0 n1 : Nat} {a a' : Fin n0} {b b' : Fin n1} (h : ix2 a b = ix2 a' b') : a = a' ∧ b = b' :=
  ⟨congrFun h 0, congrFun h 1⟩

/-- Where update `e` of a segment sum of scalars lands: at the position its index word names (the start is the word read
    signed, the one operand axis is inserted so the window coordinate is zero, and the position is inside the table). -/
private theorem resultIdx_take {N n w : Nat} (d : ScatterDims ⟨1, ![N]⟩ ⟨2, ![n, 1]⟩ ⟨1, ![n]⟩)
    (huw : d.updateWindowDims = []) (hiw : d.insertedWindowDims = [0])
    (hsd : d.scatterDimsToOperandDims = [0]) (hivd : d.indexVectorDim = 1)
    (idx : IVec ⟨2, ![n, 1]⟩ w)
    (r : Fin n → Fin N) (hr : ∀ e, (idx (ix2 e (0 : Fin 1))).toInt = ((r e).val : ℤ)) (e : Fin n) :
    d.resultIdx? (ix1 e) idx = some (ix1 (r e)) := by
  obtain ⟨uw, iw, sd, iv, wf⟩ := d
  simp only at huw hiw hsd hivd
  subst huw hiw hsd hivd
  generalize hd : (ScatterDims.mk (s := ⟨1, ![N]⟩) (si := ⟨2, ![n, 1]⟩) (u := ⟨1, ![n]⟩) [] [0] [0] 1 wf) = d
  have hm : (0 : Fin 1) ∈ d.scatterDimsToOperandDims := by rw [← hd]; exact List.mem_singleton.mpr rfl
  have hk : (0 : Fin 1) ∉ d.sKept := by rw [← hd]; simp [ScatterDims.sKept, Shape.kept]
  have hsi : ∀ c, c.val = 0 → d.siIdx (ix1 e) c = ix2 e (0 : Fin 1) := by
    intro c hc
    funext b
    apply Fin.ext
    match b with
    | ⟨0, _⟩ => subst hd; rfl
    | ⟨1, _⟩ => subst hd; exact hc
  have hst : d.start (ix1 e) idx 0 = ((r e).val : ℤ) := by
    unfold ScatterDims.start
    rw [dif_pos hm, hsi _ (by subst hd; simp), hr e]
  have hwin : d.window (ix1 e) 0 = 0 := by
    unfold ScatterDims.window
    rw [dif_neg hk]
  have hlt := (r e).isLt
  have hall : ∀ a, 0 ≤ d.start (ix1 e) idx a + (d.window (ix1 e) a : ℤ)
      ∧ d.start (ix1 e) idx a + (d.window (ix1 e) a : ℤ) < ((⟨1, ![N]⟩ : Shape).size a : ℤ) := by
    intro a
    obtain rfl : a = 0 := Subsingleton.elim _ _
    rw [hst, hwin]
    show _ ∧ _ < (N : ℤ)
    constructor <;> omega
  unfold ScatterDims.resultIdx?
  rw [dif_pos hall]
  congr 1
  funext a
  obtain rfl : a = 0 := Subsingleton.elim _ _
  apply Fin.ext
  show (d.start (ix1 e) idx 0 + (d.window (ix1 e) 0 : ℤ)).toNat = (r e).val
  rw [hst, hwin]
  simp

/-- Scalars accumulated into a table `[N]` at the positions a column of index words names (a segment sum): element `k`
    is the operand's plus the sum of the updates `e` with `r e = k`. -/
theorem scatterAdd_take_of {N n w : Nat} (d : ScatterDims ⟨1, ![N]⟩ ⟨2, ![n, 1]⟩ ⟨1, ![n]⟩)
    (huw : d.updateWindowDims = []) (hiw : d.insertedWindowDims = [0])
    (hsd : d.scatterDimsToOperandDims = [0]) (hivd : d.indexVectorDim = 1)
    (x : (⟨1, ![N]⟩ : Shape).Idx → EReal) (idx : IVec ⟨2, ![n, 1]⟩ w) (upd : (⟨1, ![n]⟩ : Shape).Idx → EReal)
    (r : Fin n → Fin N) (hr : ∀ e, (idx (ix2 e (0 : Fin 1))).toInt = ((r e).val : ℤ)) (k : Fin N) :
    Ideal.hostScatterAdd d x idx upd (ix1 k)
      = x (ix1 k) + ∑ e ∈ Finset.univ.filter (fun e : Fin n => r e = k), upd (ix1 e) := by
  unfold Ideal.hostScatterAdd
  congr 1
  refine (Finset.sum_equiv (idxEquiv1 (n := n)).symm ?_ ?_).symm
  · intro e
    simp only [Finset.mem_filter, Finset.mem_univ, true_and]
    show r e = k ↔ d.resultIdx? (ix1 e) idx = some (ix1 k)
    rw [resultIdx_take d huw hiw hsd hivd idx r hr e]
    constructor
    · intro h; rw [h]
    · intro h; exact ix1_inj (Option.some.inj h)
  · intro e _
    rfl

/-- Where entry `(e, q)` of a segment sum of rows lands: the row the index word names (axis 0 is inserted and scattered),
    column `q` (axis 1 is the window axis, its start zero). -/
private theorem resultIdx_rows {N B n w : Nat} (d : ScatterDims ⟨2, ![N, B]⟩ ⟨2, ![n, 1]⟩ ⟨2, ![n, B]⟩)
    (huw : d.updateWindowDims = [1]) (hiw : d.insertedWindowDims = [0])
    (hsd : d.scatterDimsToOperandDims = [0]) (hivd : d.indexVectorDim = 1)
    (idx : IVec ⟨2, ![n, 1]⟩ w)
    (r : Fin n → Fin N) (hr : ∀ e, (idx (ix2 e (0 : Fin 1))).toInt = ((r e).val : ℤ)) (e : Fin n) (q : Fin B) :
    d.resultIdx? (ix2 e q) idx = some (ix2 (r e) q) := by
  obtain ⟨uw, iw, sd, iv, wf⟩ := d
  simp only at huw hiw hsd hivd
  subst huw hiw hsd hivd
  generalize hd : (ScatterDims.mk (s := ⟨2, ![N, B]⟩) (si := ⟨2, ![n, 1]⟩) (u := ⟨2, ![n, B]⟩) [1] [0] [0] 1 wf) = d
  have hm : (0 : Fin 2) ∈ d.scatterDimsToOperandDims := by rw [← hd]; exact List.mem_singleton.mpr rfl
  have hm1 : (1 : Fin 2) ∉ d.scatterDimsToOperandDims := by rw [← hd]; simp
  have hk : (0 : Fin 2) ∉ d.sKept := by rw [← hd]; simp [ScatterDims.sKept, Shape.kept]
  have hk1 : (1 : Fin 2) ∈ d.sKept := by rw [← hd]; simp [ScatterDims.sKept, Shape.kept]
  have hsi : ∀ c, c.val = 0 → d.siIdx (ix2 e q) c = ix2 e (0 : Fin 1) := by
    intro c hc
    funext b
    apply Fin.ext
    match b with
    | ⟨0, _⟩ => subst hd; rfl
    | ⟨1, _⟩ => subst hd; exact hc
  have hst0 : d.start (ix2 e q) idx 0 = ((r e).val : ℤ) := by
    unfold ScatterDims.start
    rw [dif_pos hm, hsi _ (by subst hd; simp), hr e]
  have hst1 : d.start (ix2 e q) idx 1 = 0 := by
    unfold ScatterDims.start
    rw [dif_neg hm1]
  have hwin0 : d.window (ix2 e q) 0 = 0 := by
    unfold ScatterDims.window
    rw [dif_neg hk]
  have hwin1 : d.window (ix2 e q) 1 = q.val := by
    unfold ScatterDims.window
    rw [dif_pos hk1]
    subst hd
    rfl
  have hlt := (r e).isLt
  have hlq := q.isLt
  have hall : ∀ a, 0 ≤ d.start (ix2 e q) idx a + (d.window (ix2 e q) a : ℤ)
      ∧ d.start (ix2 e q) idx a + (d.window (ix2 e q) a : ℤ) < ((⟨2, ![N, B]⟩ : Shape).size a : ℤ) := by
    intro a
    match a with
    | ⟨0, _⟩ =>
      show 0 ≤ d.start (ix2 e q) idx 0 + (d.window (ix2 e q) 0 : ℤ) ∧ d.start (ix2 e q) idx 0 + (d.window (ix2 e q) 0 : ℤ) < (N : ℤ)
      rw [hst0, hwin0]
      constructor <;> omega
    | ⟨1, _⟩ =>
      show 0 ≤ d.start (ix2 e q) idx 1 + (d.window (ix2 e q) 1 : ℤ) ∧ d.start (ix2 e q) idx 1 + (d.window (ix2 e q) 1 : ℤ) < (B : ℤ)
      rw [hst1, hwin1]
      constructor <;> omega
  unfold ScatterDims.resultIdx?
  rw [dif_pos hall]
  congr 1
  funext a
  apply Fin.ext
  match a with
  | ⟨0, _⟩ =>
    show (d.start (ix2 e q) idx 0 + (d.window (ix2 e q) 0 : ℤ)).toNat = (r e).val
    rw [hst0, hwin0]
    simp
  | ⟨1, _⟩ =>
    show (d.start (ix2 e q) idx 1 + (d.window (ix2 e q) 1 : ℤ)).toNat = q.val
    rw [hst1, hwin1]
    simp

/-- Rows accumulated into a table `[N, B]` at the positions a column of index words names (a segment sum of rows):
    element `(k, q)` is the operand's plus the sum over the updates `e` with `r e = k` of their entry `q`. -/
theorem scatterAdd_rows_of {N B n w : Nat} (d : ScatterDims ⟨2, ![N, B]⟩ ⟨2, ![n, 1]⟩ ⟨2, ![n, B]⟩)
    (huw : d.updateWindowDims = [1]) (hiw : d.insertedWindowDims = [0])
    (hsd : d.scatterDimsToOperandDims = [0]) (hivd : d.indexVectorDim = 1)
    (x : (⟨2, ![N, B]⟩ : Shape).Idx → EReal) (idx : IVec ⟨2, ![n, 1]⟩ w) (upd : (⟨2, ![n, B]⟩ : Shape).Idx → EReal)
    (r : Fin n → Fin N) (hr : ∀ e, (idx (ix2 e (0 : Fin 1))).toInt = ((r e).val : ℤ)) (k : Fin N) (q : Fin B) :
    Ideal.hostScatterAdd d x idx upd (ix2 k q)
      = x (ix2 k q) + ∑ e ∈ Finset.univ.filter (fun e : Fin n => r e = k), upd (ix2 e q) := by
  unfold Ideal.hostScatterAdd
  congr 1
  have hmem : ∀ J : (⟨2, ![n, B]⟩ : Shape).Idx, d.resultIdx? J idx = some (ix2 k q) →
      r (J 0) = k ∧ J = ix2 (J 0 : Fin n) q := by
    intro J hJ
    obtain ⟨a, b, rfl⟩ : ∃ (a : Fin n) (b : Fin B), J = ix2 a b := ⟨J 0, J 1, eq_ix2 J⟩
    rw [resultIdx_rows d huw hiw hsd hivd idx r hr] at hJ
    obtain ⟨h1, h2⟩ := ix2_inj (Option.some.inj hJ)
    subst h2
    exact ⟨h1, rfl⟩
  refine (Finset.sum_nbij' (fun e : Fin n => ix2 e q) (fun J : (⟨2, ![n, B]⟩ : Shape).Idx => (J 0 : Fin n)) ?_ ?_ ?_ ?_ ?_).symm
  · intro e he
    have he' : r e = k := (Finset.mem_filter.1 he).2
    refine Finset.mem_filter.2 ⟨Finset.mem_univ _, ?_⟩
    rw [resultIdx_rows d huw hiw hsd hivd idx r hr, he']
  · intro J hJ
    exact Finset.mem_filter.2 ⟨Finset.mem_univ _, (hmem J (Finset.mem_filter.1 hJ).2).1⟩
  · intro e _
    rfl
  · intro J hJ
    exact (hmem J (Finset.mem_filter.1 hJ).2).2.symm
  · intro e _
    rfl

/-- Where update `e` of a scatter at index pairs lands: at the pair of positions its two index words name (both operand
    axes inserted and scattered, no window). -/
private theorem resultIdx_pairs {N M n w : Nat} (d : ScatterDims ⟨2, ![N, M]⟩ ⟨2, ![n, 2]⟩ ⟨1, ![n]⟩)
    (huw : d.updateWindowDims = []) (hiw : d.insertedWindowDims = [0, 1])
    (hsd : d.scatterDimsToOperandDims = [0, 1]) (hivd : d.indexVectorDim = 1)
    (idx : IVec ⟨2, ![n, 2]⟩ w)
    (r : Fin n → Fin N) (s : Fin n → Fin M)
    (hr : ∀ e, (idx (ix2 e (0 : Fin 2))).toInt = ((r e).val : ℤ))
    (hs : ∀ e, (idx (ix2 e (1 : Fin 2))).toInt = ((s e).val : ℤ)) (e : Fin n) :
    d.resultIdx? (ix1 e) idx = some (ix2 (r e) (s e)) := by
  obtain ⟨uw, iw, sd, iv, wf⟩ := d
  simp only at huw hiw hsd hivd
  subst huw hiw hsd hivd
  generalize hd : (ScatterDims.mk (s := ⟨2, ![N, M]⟩) (si := ⟨2, ![n, 2]⟩) (u := ⟨1, ![n]⟩) [] [0, 1] [0, 1] 1 wf) = d
  have hm0 : (0 : Fin 2) ∈ d.scatterDimsToOperandDims := by rw [← hd]; simp
  have hm1 : (1 : Fin 2) ∈ d.scatterDimsToOperandDims := by rw [← hd]; simp
  have hk : ∀ a, a ∉ d.sKept := by
    rw [← hd]; intro a
    match a with
    | ⟨0, _⟩ => simp [ScatterDims.sKept, Shape.kept]
    | ⟨1, _⟩ => simp [ScatterDims.sKept, Shape.kept]
  have hsi : ∀ c (v : Fin 2), c.val = v.val → d.siIdx (ix1 e) c = ix2 e v := by
    intro c v hc
    funext b
    apply Fin.ext
    match b with
    | ⟨0, _⟩ => subst hd; rfl
    | ⟨1, _⟩ => subst hd; exact hc
  have hst0 : d.start (ix1 e) idx 0 = ((r e).val : ℤ) := by
    unfold ScatterDims.start
    rw [dif_pos hm0, hsi _ 0 (by subst hd; simp), hr e]
  have hst1 : d.start (ix1 e) idx 1 = ((s e).val : ℤ) := by
    unfold ScatterDims.start
    rw [dif_pos hm1, hsi _ 1 (by subst hd; simp), hs e]
  have hwin : ∀ a, d.window (ix1 e) a = 0 := by
    intro a
    unfold ScatterDims.window
    rw [dif_neg (hk a)]
  have hlt := (r e).isLt
  have hlq := (s e).isLt
  have hall : ∀ a, 0 ≤ d.start (ix1 e) idx a + (d.window (ix1 e) a : ℤ)
      ∧ d.start (ix1 e) idx a + (d.window (ix1 e) a : ℤ) < ((⟨2, ![N, M]⟩ : Shape).size a : ℤ) := by
    intro a
    match a with
    | ⟨0, _⟩ =>
      show 0 ≤ d.start (ix1 e) idx 0 + (d.window (ix1 e) 0 : ℤ) ∧ d.start (ix1 e) idx 0 + (d.window (ix1 e) 0 : ℤ) < (N : ℤ)
      rw [hst0, hwin]
      constructor <;> omega
    | ⟨1, _⟩ =>
      show 0 ≤ d.start (ix1 e) idx 1 + (d.window (ix1 e) 1 : ℤ) ∧ d.start (ix1 e) idx 1 + (d.window (ix1 e) 1 : ℤ) < (M : ℤ)
      rw [hst1, hwin]
      constructor <;> omega
  unfold ScatterDims.resultIdx?
  rw [dif_pos hall]
  congr 1
  funext a
  apply Fin.ext
  match a with
  | ⟨0, _⟩ =>
    show (d.start (ix1 e) idx 0 + (d.window (ix1 e) 0 : ℤ)).toNat = (r e).val
    rw [hst0, hwin]
    simp
  | ⟨1, _⟩ =>
    show (d.start (ix1 e) idx 1 + (d.window (ix1 e) 1 : ℤ)).toNat = (s e).val
    rw [hst1, hwin]
    simp

/-- Scalars accumulated into a matrix `[N, M]` at the positions PAIRS of index words name (`.at[i, j].add`): element
    `(k, l)` is the operand's plus the sum of the updates `e` with `(r e, s e) = (k, l)`. -/
theorem scatterAdd_pairs_of {N M n w : Nat} (d : ScatterDims ⟨2, ![N, M]⟩ ⟨2, ![n, 2]⟩ ⟨1, ![n]⟩)
    (huw : d.updateWindowDims = []) (hiw : d.insertedWindowDims = [0, 1])
    (hsd : d.scatterDimsToOperandDims = [0, 1]) (hivd : d.indexVectorDim = 1)
    (x : (⟨2, ![N, M]⟩ : Shape).Idx → EReal) (idx : IVec ⟨2, ![n, 2]⟩ w) (upd : (⟨1, ![n]⟩ : Shape).Idx → EReal)
    (r : Fin n → Fin N) (s : Fin n → Fin M)
    (hr : ∀ e, (idx (ix2 e (0 : Fin 2))).toInt = ((r e).val : ℤ))
    (hs : ∀ e, (idx (ix2 e (1 : Fin 2))).toInt = ((s e).val : ℤ)) (k : Fin N) (l : Fin M) :
    Ideal.hostScatterAdd d x idx upd (ix2 k l)
      = x (ix2 k l) + ∑ e ∈ Finset.univ.filter (fun e : Fin n => r e = k ∧ s e = l), upd (ix1 e) := by
  unfold Ideal.hostScatterAdd
  congr 1
  refine (Finset.sum_equiv (idxEquiv1 (n := n)).symm ?_ ?_).symm
  · intro e
    simp only [Finset.mem_filter, Finset.mem_univ, true_and]
    show r e = k ∧ s e = l ↔ d.resultIdx? (ix1 e) idx = some (ix2 k l)
    rw [resultIdx_pairs d huw hiw hsd hivd idx r s hr hs e]
    constructor
    · rintro ⟨h1, h2⟩; rw [h1, h2]
    · intro h; exact ix2_inj (Option.some.inj h)
  · intro e _
    rfl

/-- Two vectors joined end to end, read at position `e`: the first where `e < a`, else the second at `e − a`. -/
theorem concat2_apply {α : Type} {a b c : Nat} (hc : a + b = c)
    (h : Shape.Concatenates [(⟨1, ![a]⟩ : Shape), ⟨1, ![b]⟩] ⟨1, ![c]⟩ 0)
    (u : (⟨1, ![a]⟩ : Shape).Idx → α) (v : (⟨1, ![b]⟩ : Shape).Idx → α) (e : Fin c) :
    concatenate (⟨1, ![c]⟩ : Shape) 0 [⟨⟨1, ![a]⟩, u⟩, ⟨⟨1, ![b]⟩, v⟩] h (ix1 e)
      = if he : e.val < a then u (ix1 ⟨e.val, he⟩) else v (ix1 ⟨e.val - a, by omega⟩) := by
  split
  · next he =>
    refine concatenate_pair_apply_left (t := ⟨1, ![c]⟩) (s₁ := ⟨1, ![a]⟩) (s₂ := ⟨1, ![b]⟩) 0 u v h (ix1 e) rfl
      (ix1 ⟨e.val, he⟩) ?_
    intro x
    obtain rfl : x = 0 := Subsingleton.elim _ _
    rfl
  · next he =>
    refine concatenate_pair_apply_right (t := ⟨1, ![c]⟩) (s₁ := ⟨1, ![a]⟩) (s₂ := ⟨1, ![b]⟩) 0 u v h (ix1 e) rfl rfl
      (ix1 ⟨e.val - a, by omega⟩) ?_ ?_
    · intro x hx
      exact absurd (Subsingleton.elim _ _) hx
    · show e.val - a + a = e.val
      omega

/-- Two index columns `[n, 1]` joined side by side into `[n, 2]`: column 0 is the first, column 1 the second. -/
theorem concatCols_apply {α : Type} {n : Nat}
    (h : Shape.Concatenates [(⟨2, ![n, 1]⟩ : Shape), ⟨2, ![n, 1]⟩] ⟨2, ![n, 2]⟩ 1)
    (u v : (⟨2, ![n, 1]⟩ : Shape).Idx → α) (e : Fin n) :
    concatenate (⟨2, ![n, 2]⟩ : Shape) 1 [⟨⟨2, ![n, 1]⟩, u⟩, ⟨⟨2, ![n, 1]⟩, v⟩] h (ix2 e (0 : Fin 2)) = u (ix2 e (0 : Fin 1))
    ∧ concatenate (⟨2, ![n, 2]⟩ : Shape) 1 [⟨⟨2, ![n, 1]⟩, u⟩, ⟨⟨2, ![n, 1]⟩, v⟩] h (ix2 e (1 : Fin 2)) = v (ix2 e (0 : Fin 1)) := by
  constructor
  · refine concatenate_pair_apply_left (t := ⟨2, ![n, 2]⟩) (s₁ := ⟨2, ![n, 1]⟩) (s₂ := ⟨2, ![n, 1]⟩) 1 u v h
      (ix2 e (0 : Fin 2)) rfl (ix2 e (0 : Fin 1)) ?_
    intro x
    match x with
    | ⟨0, _⟩ => rfl
    | ⟨1, _⟩ => rfl
  · refine concatenate_pair_apply_right (t := ⟨2, ![n, 2]⟩) (s₁ := ⟨2, ![n, 1]⟩) (s₂ := ⟨2, ![n, 1]⟩) 1 u v h
      (ix2 e (1 : Fin 2)) rfl rfl (ix2 e (0 : Fin 1)) ?_ ?_
    · intro x hx
      match x with
      | ⟨0, _⟩ => rfl
      | ⟨1, _⟩ => exact absurd rfl hx
    · rfl

/-- jnp's wrap of a negative index — `select (raw < 0) (raw + N) raw`, the comparison signed — is the identity on an
    index vector whose words are all non-negative. -/
theorem wrap_of_nonneg {s : Shape} (raw zeros shift : IVec s 32) (hz : ∀ i, zeros i = 0#32)
    (h : ∀ i, 0 ≤ (raw i).toInt) :
    select (cmpi .slt raw zeros) (addi raw shift) raw = raw := by
  funext i
  show Scalar.select (IntOp.cmpi .slt (raw i) (zeros i)) (addi raw shift i) (raw i) = raw i
  have hslt : (raw i).slt (zeros i) = false := by
    rw [hz i, BitVec.slt_eq_decide]
    have := h i
    simp only [BitVec.toInt_zero, decide_eq_false_iff_not, not_lt]
    exact this
  have hc : IntOp.cmpi .slt (raw i) (zeros i) = 0#1 := by
    show BitVec.ofBool ((raw i).slt (zeros i)) = 0#1
    rw [hslt]
    rfl
  rw [hc]
  exact select_zero _ _

end Cert.LibIdx

end
-- ==== Proof.KerIdx.lean ====
/-
  The kernel's edge sources, targets and weights as the host code before its region computes them, on an edge list whose
  words are node numbers: the clamp of the words into the node range and jnp's wrap of negative indices change nothing, so
  the index pairs the adjacency matrix is accumulated at are (target, source) of each edge, and the accumulated values
  the edges' weights.
-/
import proofs.«411973_j34162169872617_3_alg».proof.Proof.Gen.KernelIdeal.Frame
import proofs.«411973_j34162169872617_3_alg».proof.Proof.Spec
import proofs.«411973_j34162169872617_3_alg».proof.Proof.LibIdx
import Idealize.ShloMosaic.Lib.Pipeline.Value
import Idealize.ShloMosaic.Lib.ValueIdx
import Idealize.ShloMosaic.Lib.ValueLayout
import Idealize.ShloMosaic.Lib.StableHlo.Run
import Idealize.ShloMosaic.Lib.StableHlo.Predicate
import Idealize.ShloMosaic.PureOps.Ideal.Laws

noncomputable section

namespace Cert.KerIdx

open Idealize.ShloMosaic Idealize.ShloMosaic.TcCoe Idealize.ShloMosaic.ValueIdx Idealize.SL.Sem Cert.KernelIdeal Cert.KernelIdeal.Gen Cert.Spec

variable (m : (ℓ : Loc nD τ sig) → Buf (Elt Ideal) ℓ) (c : Dev nD)

/-- The edge list as launched. -/
abbrev eiOf : IVec S2x38912 32 := m ((c : Thread nD τ).loc main_arg1)

/-- The edge list with every word clamped into the node range. -/
def clipK (ei : IVec S2x38912 32) : IVec S2x38912 32 :=
  minsi (broadcastInDim S2x38912 ![] bcast_S_S2x38912 (constantI S_ 32 1215#32))
    (maxsi (broadcastInDim S2x38912 ![] bcast_S_S2x38912 (constantI S_ 32 0#32)) ei)

/-- The edges' sources: row 0 of the clamped edge list, then one self loop per node. -/
def srcK (ei : IVec S2x38912 32) : IVec S40128 32 :=
  concatenate S40128 0
    [⟨S38912, fun i => shapeCast S38912 (extractStridedSlice S1x38912 ![0, 0] (clipK ei) slices_S2x38912_S1x38912_0_0)
        shapeCasts_S1x38912_S38912 i⟩,
      ⟨S1216, iotaInDim S1216 32 0⟩]
    concatenates_S38912_S1216_S40128_d0

/-- The edges' targets: row 1 of the clamped edge list, then one self loop per node. -/
def dstK (ei : IVec S2x38912 32) : IVec S40128 32 :=
  concatenate S40128 0
    [⟨S38912, fun i => shapeCast S38912 (extractStridedSlice S1x38912 ![1, 0] (clipK ei) slices_S2x38912_S1x38912_1_0)
        shapeCasts_S1x38912_S38912 i⟩,
      ⟨S1216, iotaInDim S1216 32 0⟩]
    concatenates_S38912_S1216_S40128_d0

/-- jnp's wrap of a negative index by the node count. -/
def wrapK (raw : IVec S40128 32) : IVec S40128 32 :=
  select (cmpi .slt raw (broadcastInDim S40128 ![] bcast_S_S40128 (constantI S_ 32 0#32)))
    (addi raw (broadcastInDim S40128 ![] bcast_S_S40128 (constantI S_ 32 1216#32))) raw

/-- The in-degrees: ones accumulated at the edges' targets. -/
def degK (ei : IVec S2x38912 32) : FVec Ideal S1216 .f32 :=
  Host.scatterAdd scatter_S1216_S40128x1_S40128_n_0_0_1
    (broadcastInDim S1216 ![] bcast_S_S1216 (constant (F := Ideal) S_ .f32 0x00000000#32))
    (broadcastInDim S40128x1 ![0] bcast_S40128_S40128x1_0 (dstK ei))
    (broadcastInDim S40128 ![] bcast_S_S40128 (constant (F := Ideal) S_ .f32 0x3F800000#32))

/-- The normalising factors: the reciprocal square root of the degree where it is positive, else zero. -/
def dinvK (ei : IVec S2x38912 32) : FVec Ideal S1216 .f32 :=
  select (cmpf .ogt (degK ei) (broadcastInDim S1216 ![] bcast_S_S1216 (constant (F := Ideal) S_ .f32 0x00000000#32)))
    (Host.rsqrt (maximumf (degK ei) (broadcastInDim S1216 ![] bcast_S_S1216 (constant (F := Ideal) S_ .f32 0x2B8CBCCC#32))))
    (broadcastInDim S1216 ![] bcast_S_S1216 (constant (F := Ideal) S_ .f32 0x00000000#32))

/-- The edges' weights: the factor at the source times the factor at the target. -/
def weightsK (ei : IVec S2x38912 32) : FVec Ideal S40128 .f32 :=
  mulf
    (Host.gather gather_S1216_S40128x1_S40128_n_0_n_n_0_1_1 (dinvK ei)
      (broadcastInDim S40128x1 ![0] bcast_S40128_S40128x1_0 (wrapK (srcK ei))))
    (Host.gather gather_S1216_S40128x1_S40128_n_0_n_n_0_1_1 (dinvK ei)
      (broadcastInDim S40128x1 ![0] bcast_S40128_S40128x1_0 (wrapK (dstK ei))))

/-- The index pairs the adjacency matrix is accumulated at: column 0 the targets, column 1 the sources. -/
def pairsK (ei : IVec S2x38912 32) : IVec S40128x2 32 :=
  concatenate S40128x2 1
    [⟨S40128x1, broadcastInDim S40128x1 ![0] bcast_S40128_S40128x1_0 (wrapK (dstK ei))⟩,
      ⟨S40128x1, broadcastInDim S40128x1 ![0] bcast_S40128_S40128x1_0 (wrapK (srcK ei))⟩]
    concatenates_S40128x1_S40128x1_S40128x2_d1

section AtIndex

variable (ei : IVec S2x38912 32)

/-- A column made of a vector reads, at row `p`, the vector at `p`. -/
theorem col_apply {α : Type} {n : Nat} (h : (⟨1, ![n]⟩ : Shape).BroadcastsInDim ⟨2, ![n, 1]⟩ ![0])
    (v : (⟨1, ![n]⟩ : Shape).Idx → α) (p : Fin n) :
    broadcastInDim ⟨2, ![n, 1]⟩ ![0] h v (ix2 p (0 : Fin 1)) = v (ix1 p) := by
  simp only [broadcastInDim]
  congr 1
  funext a
  obtain rfl : a = 0 := Subsingleton.elim _ _
  apply Fin.ext
  have hp := p.isLt
  split
  · next h1 => change n = 1 at h1; show (0 : Nat) = p.val; omega
  · rfl

/-- A broadcast float constant reads the extended real its word encodes. -/
theorem bcast0_apply {s : Shape} (dims : Fin S_.rank → Fin s.rank) (h : S_.BroadcastsInDim s dims) (b : BitVec 32) (i : s.Idx) :
    broadcastInDim s dims h (constant (F := Ideal) S_ .f32 b) i = Ideal.ofBits .f32 b := rfl

/-- On an edge list of node numbers the clamp into the node range changes nothing. -/
theorem clipK_eq (hR : ∀ i, 0 ≤ (ei i).toInt ∧ (ei i).toInt < 1216) : clipK ei = ei := by
  funext i
  obtain ⟨h0, h1⟩ := hR i
  show IntOp.minsi (1215#32) (IntOp.maxsi (0#32) (ei i)) = ei i
  have hmax : IntOp.maxsi (0#32) (ei i) = ei i := by
    unfold IntOp.maxsi
    rw [if_neg]
    rw [BitVec.slt_eq_decide]
    simp only [BitVec.toInt_zero, decide_eq_true_eq, not_lt]
    exact h0
  rw [hmax]
  unfold IntOp.minsi
  rw [if_neg]
  rw [BitVec.slt_eq_decide]
  have h15 : (1215#32 : BitVec 32).toInt = 1215 := by decide
  simp only [h15, decide_eq_true_eq, not_lt]
  omega

/-- A word of the edge list read as a node is the word. -/
theorem nodeAt_val (hR : ∀ i, 0 ≤ (ei i).toInt ∧ (ei i).toInt < 1216) (r : Fin 2) (e : Fin 38912) :
    ((nodeAt ei r e).val : ℤ) = (ei (ix2 r e)).toInt := by
  obtain ⟨h0, h1⟩ := hR (ix2 r e)
  show ((min (ei (ix2 r e)).toInt.toNat 1215 : ℕ) : ℤ) = _
  omega

/-- The sources as words: edge `e`'s is its source node. -/
theorem srcK_toInt (hR : ∀ i, 0 ≤ (ei i).toInt ∧ (ei i).toInt < 1216) (e : Fin 40128) :
    (srcK ei (ix1 e)).toInt = ((rowOf ei e).val : ℤ) := by
  unfold srcK
  rw [Cert.LibIdx.concat2_apply (a := 38912) (b := 1216) (c := 40128) rfl, clipK_eq ei hR]
  unfold rowOf
  split
  · next he =>
    rw [shapeCast_1a_a_apply, slice2_axis0_apply 0 ei _ (0 : Fin 1) ⟨e.val, he⟩ (0 : Fin 2) rfl, nodeAt_val ei hR]
  · next he =>
    show (BitVec.ofNat 32 (e.val - 38912)).toInt = ((e.val - 38912 : ℕ) : ℤ)
    have := e.isLt
    rw [StableHlo.Predicate.toInt_ofNat_small _ (by omega)]

/-- The targets as words: edge `e`'s is its target node. -/
theorem dstK_toInt (hR : ∀ i, 0 ≤ (ei i).toInt ∧ (ei i).toInt < 1216) (e : Fin 40128) :
    (dstK ei (ix1 e)).toInt = ((colOf ei e).val : ℤ) := by
  unfold dstK
  rw [Cert.LibIdx.concat2_apply (a := 38912) (b := 1216) (c := 40128) rfl, clipK_eq ei hR]
  unfold colOf
  split
  · next he =>
    rw [shapeCast_1a_a_apply, slice2_axis0_apply 1 ei _ (0 : Fin 1) ⟨e.val, he⟩ (1 : Fin 2) rfl, nodeAt_val ei hR]
  · next he =>
    show (BitVec.ofNat 32 (e.val - 38912)).toInt = ((e.val - 38912 : ℕ) : ℤ)
    have := e.isLt
    rw [StableHlo.Predicate.toInt_ofNat_small _ (by omega)]

/-- The wrap of negative indices changes nothing on a vector of node numbers. -/
theorem wrapK_eq (raw : IVec S40128 32) (h : ∀ i, 0 ≤ (raw i).toInt) : wrapK raw = raw :=
  Cert.LibIdx.wrap_of_nonneg raw _ _ (fun _ => rfl) h

/-- The wrap changes nothing on the sources. -/
theorem wrapK_srcK (hR : ∀ i, 0 ≤ (ei i).toInt ∧ (ei i).toInt < 1216) : wrapK (srcK ei) = srcK ei :=
  wrapK_eq _ fun i => by
    obtain ⟨p, rfl⟩ : ∃ p : Fin 40128, i = ix1 p := ⟨i 0, eq_ix1 i⟩
    rw [srcK_toInt ei hR]; exact Int.natCast_nonneg _

/-- The wrap changes nothing on the targets. -/
theorem wrapK_dstK (hR : ∀ i, 0 ≤ (ei i).toInt ∧ (ei i).toInt < 1216) : wrapK (dstK ei) = dstK ei :=
  wrapK_eq _ fun i => by
    obtain ⟨p, rfl⟩ : ∃ p : Fin 40128, i = ix1 p := ⟨i 0, eq_ix1 i⟩
    rw [dstK_toInt ei hR]; exact Int.natCast_nonneg _

/-- The accumulated ones at node `n` are its in-degree. -/
theorem degK_apply (hR : ∀ i, 0 ≤ (ei i).toInt ∧ (ei i).toInt < 1216) (n : Fin 1216) :
    degK ei (ix1 n) = degOf ei n := by
  unfold degK Host.scatterAdd
  rw [Ideal.hostScatterAdd_def,
    Cert.LibIdx.scatterAdd_take_of scatter_S1216_S40128x1_S40128_n_0_0_1 rfl rfl rfl rfl _ _ _ (colOf ei)
      (fun e => by rw [col_apply, dstK_toInt ei hR]) n]
  simp only [bcast0_apply]
  rw [Ideal.ofBits_zero_f32, zero_add]
  rfl

/-- The factor at node `n` is the normalising factor of its degree. -/
theorem dinvK_apply (hR : ∀ i, 0 ≤ (ei i).toInt ∧ (ei i).toInt < 1216) (n : Fin 1216) :
    dinvK ei (ix1 n) = dinvOf (degOf ei n) := by
  have hrs : ∀ (x : FVec Ideal S1216 .f32) i, Host.rsqrt x i = Ideal.rsqrt (x i) := fun _ _ => rfl
  unfold dinvK
  rw [select_apply, cmpf_apply, Ideal.cmpf_def, hrs, maximumf_apply, bcast0_apply, bcast0_apply, degK_apply ei hR]
  rfl

/-- The product of the gathered factors at edge `e` is the edge's weight. -/
theorem weightsK_apply (hR : ∀ i, 0 ≤ (ei i).toInt ∧ (ei i).toInt < 1216) (e : Fin 40128) :
    weightsK ei (ix1 e) = nrmOf ei e := by
  unfold weightsK
  rw [mulf_apply, wrapK_srcK ei hR, wrapK_dstK ei hR,
    Cert.LibIdx.gather_take_of gather_S1216_S40128x1_S40128_n_0_n_n_0_1_1 rfl rfl rfl rfl _ _ (rowOf ei)
      (fun e => by rw [col_apply, srcK_toInt ei hR]) e,
    Cert.LibIdx.gather_take_of gather_S1216_S40128x1_S40128_n_0_n_n_0_1_1 rfl rfl rfl rfl _ _ (colOf ei)
      (fun e => by rw [col_apply, dstK_toInt ei hR]) e,
    dinvK_apply ei hR, dinvK_apply ei hR]
  rfl

/-- Column 0 of the index pairs holds the targets, column 1 the sources. -/
theorem pairsK_apply (hR : ∀ i, 0 ≤ (ei i).toInt ∧ (ei i).toInt < 1216) (e : Fin 40128) :
    (pairsK ei (ix2 e (0 : Fin 2))).toInt = ((colOf ei e).val : ℤ)
    ∧ (pairsK ei (ix2 e (1 : Fin 2))).toInt = ((rowOf ei e).val : ℤ) := by
  unfold pairsK
  obtain ⟨h0, h1⟩ := Cert.LibIdx.concatCols_apply (n := 40128) concatenates_S40128x1_S40128x1_S40128x2_d1
    (broadcastInDim S40128x1 ![0] bcast_S40128_S40128x1_0 (wrapK (dstK ei)))
    (broadcastInDim S40128x1 ![0] bcast_S40128_S40128x1_0 (wrapK (srcK ei))) e
  rw [h0, h1, col_apply, col_apply, wrapK_srcK ei hR, wrapK_dstK ei hR, srcK_toInt ei hR, dstK_toInt ei hR]
  exact ⟨rfl, rfl⟩

end AtIndex

section Run

/-- Running two stretches of host operations one after the other is running their concatenation. -/
theorem after_append {τ' : Topo} {sig' : RefSig} {Val : EltTy → Type} (l₁ l₂ : List (HloOp τ' sig' Val))
    (W : Valuation τ' sig' Val) :
    StableHlo.after (l₁ ++ l₂) W = StableHlo.after l₂ (StableHlo.after l₁ W) := by
  induction l₁ generalizing W with
  | nil => rfl
  | cons op l ih => exact ih _

/-- The buffers' contents once the clamp, the source and target vectors and the normalising factors are computed: before the
    last stretch of host operations. -/
def W3 : Valuation τ sig (Elt Ideal) :=
  StableHlo.after hostOps0_3 (StableHlo.after hostOps0_2 (StableHlo.after hostOps0_1 (StableHlo.after hostOps0 (fun b => m (c, b)))))

/-- The contents when the region is entered are the last stretch run from there. -/
theorem V0_split : V0 (F := Ideal) m c = StableHlo.after hostOps0_4 (W3 m c) := by
  unfold W3
  dsimp only [Gen.V0]
  simp only [List.flatten_cons, List.flatten_nil, List.append_nil, after_append]

set_option maxHeartbeats 4000000 in
open StableHlo in
/-- There the sources' buffer holds the sources. -/
theorem W3_v4 : (W3 m c (Proc.devRef .tc main_v4) : IVec S40128 32) = srcK (eiOf m c) := by
  unfold W3
  simp only [Gen.hostOps0, Gen.hostOps0_1, Gen.hostOps0_2, Gen.hostOps0_3]
  after_results
  try simp only [TRef.ofBuf, TRef.toBuf, cast_eq, id_eq]
  rfl

set_option maxHeartbeats 4000000 in
open StableHlo in
/-- There the targets' buffer holds the targets. -/
theorem W3_v7 : (W3 m c (Proc.devRef .tc main_v7) : IVec S40128 32) = dstK (eiOf m c) := by
  unfold W3
  simp only [Gen.hostOps0, Gen.hostOps0_1, Gen.hostOps0_2, Gen.hostOps0_3]
  after_results
  try simp only [TRef.ofBuf, TRef.toBuf, cast_eq, id_eq]
  rfl

set_option maxHeartbeats 4000000 in
open StableHlo in
/-- There the factors' buffer holds the normalising factors. -/
theorem W3_v17 : (W3 m c (Proc.devRef .tc main_v17) : FVec Ideal S1216 .f32) = dinvK (eiOf m c) := by
  unfold W3
  simp only [Gen.hostOps0, Gen.hostOps0_1, Gen.hostOps0_2, Gen.hostOps0_3]
  after_results
  try simp only [TRef.ofBuf, TRef.toBuf, cast_eq, id_eq]
  rfl

set_option maxHeartbeats 4000000 in
open StableHlo in
/-- The last stretch leaves in the weights' buffer the product of the factors gathered at the wrapped sources and targets. -/
theorem Q_v32 (W : Valuation τ sig (Elt Ideal)) :
    (StableHlo.after hostOps0_4 W (Proc.devRef .tc main_v32) : FVec Ideal S40128 .f32)
      = mulf (F := Ideal) (φ := .f32)
          (Host.gather gather_S1216_S40128x1_S40128_n_0_n_n_0_1_1 (W (Proc.devRef .tc main_v17) : FVec Ideal S1216 .f32)
            (broadcastInDim S40128x1 ![0] bcast_S40128_S40128x1_0 (wrapK (W (Proc.devRef .tc main_v4)))))
          (Host.gather gather_S1216_S40128x1_S40128_n_0_n_n_0_1_1 (W (Proc.devRef .tc main_v17) : FVec Ideal S1216 .f32)
            (broadcastInDim S40128x1 ![0] bcast_S40128_S40128x1_0 (wrapK (W (Proc.devRef .tc main_v7))))) := by
  simp only [Gen.hostOps0_4]
  after_results_simp
  try simp only [TRef.ofBuf, TRef.toBuf, cast_eq, id_eq]
  rfl

set_option maxHeartbeats 4000000 in
open StableHlo in
/-- The last stretch leaves in the pairs' buffer the wrapped targets and sources side by side. -/
theorem Q_v46 (W : Valuation τ sig (Elt Ideal)) :
    (StableHlo.after hostOps0_4 W (Proc.devRef .tc main_v46) : IVec S40128x2 32)
      = concatenate S40128x2 1
          [⟨S40128x1, broadcastInDim S40128x1 ![0] bcast_S40128_S40128x1_0 (wrapK (W (Proc.devRef .tc main_v7)))⟩,
            ⟨S40128x1, broadcastInDim S40128x1 ![0] bcast_S40128_S40128x1_0 (wrapK (W (Proc.devRef .tc main_v4)))⟩]
          concatenates_S40128x1_S40128x1_S40128x2_d1 := by
  simp only [Gen.hostOps0_4]
  after_results
  try simp only [TRef.ofBuf, TRef.toBuf, cast_eq, id_eq]
  rfl

/-- The weights' buffer, when the region is entered, holds the weights. -/
theorem v32_eq : (V (F := Ideal) m c main_v32 : FVec Ideal S40128 .f32) = weightsK (eiOf m c) := by
  dsimp only [Gen.V]
  rw [V0_split, Q_v32, W3_v17, W3_v4, W3_v7]
  rfl

/-- The index pairs' buffer, when the region is entered, holds the index pairs. -/
theorem v46_eq : (V (F := Ideal) m c main_v46 : IVec S40128x2 32) = pairsK (eiOf m c) := by
  dsimp only [Gen.V]
  rw [V0_split, Q_v46, W3_v4, W3_v7]
  rfl

end Run

/-- Column 0 of the index pairs is each edge's target. -/
theorem pairs_col (hR : ∀ i, 0 ≤ (eiOf m c i).toInt ∧ (eiOf m c i).toInt < 1216) (e : Fin 40128) :
    ((V (F := Ideal) m c main_v46 : IVec S40128x2 32) (ix2 e (0 : Fin 2))).toInt = ((colOf (eiOf m c) e).val : ℤ) := by
  rw [v46_eq m c]
  exact (pairsK_apply (eiOf m c) hR e).1

/-- Column 1 of the index pairs is each edge's source. -/
theorem pairs_row (hR : ∀ i, 0 ≤ (eiOf m c i).toInt ∧ (eiOf m c i).toInt < 1216) (e : Fin 40128) :
    ((V (F := Ideal) m c main_v46 : IVec S40128x2 32) (ix2 e (1 : Fin 2))).toInt = ((rowOf (eiOf m c) e).val : ℤ) := by
  rw [v46_eq m c]
  exact (pairsK_apply (eiOf m c) hR e).2

/-- The accumulated values are the edges' weights. -/
theorem weights (hR : ∀ i, 0 ≤ (eiOf m c i).toInt ∧ (eiOf m c i).toInt < 1216) (e : Fin 40128) :
    (V (F := Ideal) m c main_v32 : FVec Ideal S40128 .f32) (ix1 e) = nrmOf (eiOf m c) e := by
  rw [v32_eq m c]
  exact weightsK_apply (eiOf m c) hR e

end Cert.KerIdx

end
-- ==== Proof.KerHost.lean ====
/-
  The arrays the kernel's region is launched on, as functions of the arguments.

  Before the region the host code builds the adjacency matrix A (each edge's weight accumulated at (target, source)), its
  transpose, and from w₂ and b₂ the two mixed vectors  V = tp₀ w₂ + tp₁ w₂Aᵀ + tp₂ w₂AᵀAᵀ + tp₃ w₂AᵀAᵀAᵀ  and C likewise
  from b₂, each laid out as one row of 1216; the bias b₁ is laid out as a 1 × 1 array.  On an edge list whose words are
  node numbers the clamp of the words, and the wrap of negative indices, change nothing.

  The host operations are read in two stretches.  Everything up to the index pairs and the weights is left as the arrays
  it produces; from the accumulation of the matrix on, each array is a term over those: the matrix is the accumulation of
  the weights at the pairs, a product with the transposed matrix read at a column is the sum over the contracted index,
  and the mixed row is the sum of the four scaled rows in the order the program adds them.
-/
import proofs.«411973_j34162169872617_3_alg».proof.Proof.Gen.KernelIdeal.Frame
import proofs.«411973_j34162169872617_3_alg».proof.Proof.Spec
import proofs.«411973_j34162169872617_3_alg».proof.Proof.LibIdx
import proofs.«411973_j34162169872617_3_alg».proof.Proof.KerIdx
import Idealize.ShloMosaic.Lib.Pipeline.Value
import Idealize.ShloMosaic.Lib.ValueIdx
import Idealize.ShloMosaic.Lib.ValueLayout
import Idealize.ShloMosaic.Lib.StableHlo.Run
import Idealize.ShloMosaic.Lib.StableHlo.Predicate
import Idealize.ShloMosaic.PureOps.Ideal.Laws

noncomputable section

namespace Cert.KerHost

open Idealize.ShloMosaic Idealize.ShloMosaic.TcCoe Idealize.ShloMosaic.ValueIdx Idealize.SL.Sem Cert.KernelIdeal Cert.KernelIdeal.Gen Cert.Spec
open scoped BigOperators

variable (m : (ℓ : Loc nD τ sig) → Buf (Elt Ideal) ℓ) (c : Dev nD)

/-- The edge list as launched. -/
abbrev eiOf : IVec S2x38912 32 := m ((c : Thread nD τ).loc main_arg1)
/-- The mixing weights. -/
abbrev tpOf : Fin 4 → EReal := fun k => (m ((c : Thread nD τ).loc main_arg6) : FVec Ideal S4 .f32) (ix1 k)
/-- The second layer's weights as a node vector. -/
abbrev w2Of : Fin 1216 → EReal := fun n => (m ((c : Thread nD τ).loc main_arg4) : FVec Ideal S1216x1 .f32) (ix2 n (0 : Fin 1))
/-- The second layer's bias. -/
abbrev b2Of : Fin 1216 → EReal := fun n => (m ((c : Thread nD τ).loc main_arg5) : FVec Ideal S1216 .f32) (ix1 n)

/-! ## The stages, as functions of the arrays they read -/

/-- The accumulated matrix: the zero matrix with each weight added at its pair of positions. -/
def stA (z : FVec Ideal S1216x1216 .f32) (p : IVec S40128x2 32) (w : FVec Ideal S40128 .f32) : FVec Ideal S1216x1216 .f32 :=
  Host.scatterAdd (F := Ideal) scatter_S1216x1216_S40128x2_S40128_n_01_01_1 z p w
/-- Its transpose. -/
def stT (A : FVec Ideal S1216x1216 .f32) : FVec Ideal S1216x1216 .f32 :=
  transpose S1216x1216 [1, 0] A transposes_S1216x1216_S1216x1216_1_0
/-- A row vector times a matrix. -/
def stP (x : FVec Ideal S1x1216 .f32) (T : FVec Ideal S1216x1216 .f32) : FVec Ideal S1x1216 .f32 :=
  Host.dotGeneral (F := Ideal) dot_S1x1216_S1216x1216_S1x1216_1_0_0_1_n_n none x T
/-- Mixing weight 0 … 3 laid along a row. -/
def stTp0 (tp : FVec Ideal S4 .f32) : FVec Ideal S1x1216 .f32 :=
  broadcastInDim S1x1216 ![] bcast_S_S1x1216 (shapeCast S_ (extractStridedSlice S1 ![0] tp slices_S4_S1_0) shapeCasts_S1_S_)
def stTp1 (tp : FVec Ideal S4 .f32) : FVec Ideal S1x1216 .f32 :=
  broadcastInDim S1x1216 ![] bcast_S_S1x1216 (shapeCast S_ (extractStridedSlice S1 ![1] tp slices_S4_S1_1) shapeCasts_S1_S_)
def stTp2 (tp : FVec Ideal S4 .f32) : FVec Ideal S1x1216 .f32 :=
  broadcastInDim S1x1216 ![] bcast_S_S1x1216 (shapeCast S_ (extractStridedSlice S1 ![2] tp slices_S4_S1_2) shapeCasts_S1_S_)
def stTp3 (tp : FVec Ideal S4 .f32) : FVec Ideal S1x1216 .f32 :=
  broadcastInDim S1x1216 ![] bcast_S_S1x1216 (shapeCast S_ (extractStridedSlice S1 ![3] tp slices_S4_S1_3) shapeCasts_S1_S_)
/-- A row vector and its three images under the matrix, mixed. -/
def stMix (tp : FVec Ideal S4 .f32) (x : FVec Ideal S1x1216 .f32) (T : FVec Ideal S1216x1216 .f32) : FVec Ideal S1x1216 .f32 :=
  addf (addf (addf (mulf (stTp0 tp) x) (mulf (stTp1 tp) (stP x T))) (mulf (stTp2 tp) (stP (stP x T) T))) (mulf (stTp3 tp) (stP (stP (stP x T) T) T))
/-- The second layer's weights as a row. -/
def stW (w2 : FVec Ideal S1216x1 .f32) : FVec Ideal S1x1216 .f32 := transpose S1x1216 [1, 0] w2 transposes_S1216x1_S1x1216_1_0
/-- The second layer's bias as a row. -/
def stC (b2 : FVec Ideal S1216 .f32) : FVec Ideal S1x1216 .f32 := shapeCast S1x1216 b2 shapeCasts_S1216_S1x1216

/-! ## The stages read at an index -/

/-- The transpose at (j, n) is the matrix at (n, j). -/
theorem stT_apply (A : FVec Ideal S1216x1216 .f32) (j n : Fin 1216) : stT A (ix2 j n) = A (ix2 n j) := by
  unfold stT
  refine transpose_apply [1, 0] A _ (ix2 j n) (ix2 n j) (fun b => ?_)
  match b with
  | ⟨0, _⟩ => rfl
  | ⟨1, _⟩ => rfl

/-- The column of w₂ laid as a row. -/
theorem stW_apply (w2 : FVec Ideal S1216x1 .f32) (n : Fin 1216) : stW w2 (ix2 (0 : Fin 1) n) = w2 (ix2 n (0 : Fin 1)) := by
  unfold stW
  refine transpose_apply [1, 0] w2 _ (ix2 (0 : Fin 1) n) (ix2 n (0 : Fin 1)) (fun b => ?_)
  match b with
  | ⟨0, _⟩ => rfl
  | ⟨1, _⟩ => rfl

/-- The vector b₂ laid as a row. -/
theorem stC_apply (b2 : FVec Ideal S1216 .f32) (n : Fin 1216) : stC b2 (ix2 (0 : Fin 1) n) = b2 (ix1 n) := by
  unfold stC
  refine shapeCast_apply b2 _ (ix2 (0 : Fin 1) n) (ix1 n) ?_
  rw [Shape.rowMajor_val_one, Shape.rowMajor_val_two]
  show n.val = 0 * 1216 + n.val
  omega

/-- One of the four mixing weights picked out, made a scalar and laid along a row, read at a column: that weight. -/
theorem tpRead (k : Fin 4) (off : Fin S4.rank → Nat) (hoff : off 0 = k.val) (hs : S4.Slices off S1) (tp : FVec Ideal S4 .f32) (n : Fin 1216) :
    broadcastInDim S1x1216 ![] bcast_S_S1x1216 (shapeCast S_ (extractStridedSlice S1 off tp hs) shapeCasts_S1_S_) (ix2 (0 : Fin 1) n) = tp (ix1 k) := by
  rw [StableHlo.Predicate.bcast_scalar bcast_S_S1x1216 (by decide)]
  rw [shapeCast_apply (extractStridedSlice S1 off tp hs) shapeCasts_S1_S_ _ (ix1 (0 : Fin 1)) (by
    rw [Shape.rowMajor_val_one]; exact (Shape.rowMajorPi_zero _ _).symm)]
  refine extractStridedSlice_apply off tp hs (ix1 (0 : Fin 1)) (ix1 k) (fun a => ?_)
  match a with
  | ⟨0, _⟩ => show k.val = off 0 + 0; omega

theorem stTp0_apply (tp : FVec Ideal S4 .f32) (n : Fin 1216) : stTp0 tp (ix2 (0 : Fin 1) n) = tp (ix1 (0 : Fin 4)) := by
  unfold stTp0; exact tpRead 0 ![0] rfl slices_S4_S1_0 tp n
theorem stTp1_apply (tp : FVec Ideal S4 .f32) (n : Fin 1216) : stTp1 tp (ix2 (0 : Fin 1) n) = tp (ix1 (1 : Fin 4)) := by
  unfold stTp1; exact tpRead 1 ![1] rfl slices_S4_S1_1 tp n
theorem stTp2_apply (tp : FVec Ideal S4 .f32) (n : Fin 1216) : stTp2 tp (ix2 (0 : Fin 1) n) = tp (ix1 (2 : Fin 4)) := by
  unfold stTp2; exact tpRead 2 ![2] rfl slices_S4_S1_2 tp n
theorem stTp3_apply (tp : FVec Ideal S4 .f32) (n : Fin 1216) : stTp3 tp (ix2 (0 : Fin 1) n) = tp (ix1 (3 : Fin 4)) := by
  unfold stTp3; exact tpRead 3 ![3] rfl slices_S4_S1_3 tp n

/-- The dot's dimension numbers: a row vector [1, K] against a matrix [K, N], contracting K. -/
abbrev DD : DotDims S1x1216 S1216x1216 S1x1216 := dot_S1x1216_S1216x1216_S1x1216_1_0_0_1_n_n

/-- The operand indices of the product at a result index and a contraction position, axis by axis. -/
theorem DD_lhs0 (jj : S1x1216.Idx) (k : DD.contr.Idx) : (DD.lhsIdx jj k 0).val = 0 := by
  have h := (DD.lhsIdx jj k 0).isLt
  change _ < 1 at h
  omega
theorem DD_lhs1 (jj : S1x1216.Idx) (k : DD.contr.Idx) : (DD.lhsIdx jj k 1).val = (k ⟨0, Nat.one_pos⟩).val :=
  DD.lhsIdx_val_of_single (cl := 1) rfl jj k
theorem DD_rhs0 (jj : S1x1216.Idx) (k : DD.contr.Idx) : (DD.rhsIdx jj k 0).val = (k ⟨0, Nat.one_pos⟩).val :=
  DD.rhsIdx_val_of_single (cr := 0) rfl jj k
theorem DD_rhs1 (jj : S1x1216.Idx) (k : DD.contr.Idx) : (DD.rhsIdx jj k 1).val = (jj 1).val := by
  unfold DotDims.rhsIdx
  rw [dif_neg (show ¬ (1 : Fin S1216x1216.rank) ∈ DD.rhsBatch from List.not_mem_nil),
    dif_pos (show (1 : Fin S1216x1216.rank) ∈ DD.rhsNonContracting from List.mem_singleton.mpr rfl)]
  simp only [Fin.val_cast]
  have key : ∀ (p q : Nat) (hp : p < S1x1216.rank) (hq : q < S1x1216.rank), p = q → (jj ⟨p, hp⟩).val = (jj ⟨q, hq⟩).val :=
    fun p q hp hq h => by subst h; rfl
  exact key _ _ _ _ (by decide)

/-- A row vector times a matrix, at a column: the sum over the contracted index. -/
theorem stP_apply (x : FVec Ideal S1x1216 .f32) (T : FVec Ideal S1216x1216 .f32) (n : Fin 1216) :
    stP x T (ix2 (0 : Fin 1) n) = ∑ j : Fin 1216, x (ix2 (0 : Fin 1) j) * T (ix2 j n) := by
  unfold stP
  simp only [Host.dotGeneral]
  rw [Ideal.dotGeneral_apply, ← Equiv.sum_comp (contrEquiv1 DD 1216 rfl rfl).symm]
  refine Finset.sum_congr rfl fun j _ => ?_
  have hl : DD.lhsIdx (ix2 (0 : Fin 1) n) ((contrEquiv1 DD 1216 rfl rfl).symm j) = ix2 (0 : Fin 1) j := by
    funext a
    match a with
    | ⟨0, _⟩ => exact Fin.ext (DD_lhs0 _ _)
    | ⟨1, _⟩ => exact Fin.ext ((DD_lhs1 _ _).trans (contrEquiv1_symm_val DD 1216 rfl rfl j))
  have hr : DD.rhsIdx (ix2 (0 : Fin 1) n) ((contrEquiv1 DD 1216 rfl rfl).symm j) = ix2 j n := by
    funext a
    match a with
    | ⟨0, _⟩ => exact Fin.ext ((DD_rhs0 _ _).trans (contrEquiv1_symm_val DD 1216 rfl rfl j))
    | ⟨1, _⟩ => exact Fin.ext (DD_rhs1 _ _)
  rw [hl, hr]

/-- The accumulated matrix at (i, j): what was there plus the weights of the updates whose pair is (i, j). -/
theorem stA_apply (z : FVec Ideal S1216x1216 .f32) (p : IVec S40128x2 32) (w : FVec Ideal S40128 .f32)
    (r s : Fin 40128 → Fin 1216)
    (hr : ∀ e, (p (ix2 e (0 : Fin 2))).toInt = ((r e).val : ℤ)) (hs : ∀ e, (p (ix2 e (1 : Fin 2))).toInt = ((s e).val : ℤ))
    (i j : Fin 1216) :
    stA z p w (ix2 i j) = z (ix2 i j) + ∑ e ∈ Finset.univ.filter (fun e : Fin 40128 => r e = i ∧ s e = j), w (ix1 e) := by
  unfold stA
  simp only [Host.scatterAdd]
  rw [Ideal.hostScatterAdd_def]
  exact Cert.LibIdx.scatterAdd_pairs_of scatter_S1216x1216_S40128x2_S40128_n_01_01_1 rfl rfl rfl rfl z p w r s hr hs i j

/-- With the transposed matrix the adjacency matrix's transpose, the mixed row at a column is the mix of the row. -/
theorem stMix_apply (ei : IVec SEdge 32) (tp : FVec Ideal S4 .f32) (x : FVec Ideal S1x1216 .f32) (T : FVec Ideal S1216x1216 .f32)
    (hT : ∀ j n : Fin 1216, T (ix2 j n) = adj ei n j) (n : Fin 1216) :
    stMix tp x T (ix2 (0 : Fin 1) n) = mix ei (fun k => tp (ix1 k)) (fun j => x (ix2 (0 : Fin 1) j)) n := by
  have hP : ∀ (y : FVec Ideal S1x1216 .f32) (n : Fin 1216),
      stP y T (ix2 (0 : Fin 1) n) = prop ei (fun j => y (ix2 (0 : Fin 1) j)) n := by
    intro y n
    rw [stP_apply]
    unfold prop
    exact Finset.sum_congr rfl fun j _ => by rw [hT]
  have h1 : (fun j => stP x T (ix2 (0 : Fin 1) j)) = prop ei (fun j => x (ix2 (0 : Fin 1) j)) := funext (hP x)
  have h2 : (fun j => stP (stP x T) T (ix2 (0 : Fin 1) j)) = prop ei (prop ei (fun j => x (ix2 (0 : Fin 1) j))) := by
    funext j; rw [hP, h1]
  have e1 : stP x T (ix2 (0 : Fin 1) n) = prop ei (fun j => x (ix2 (0 : Fin 1) j)) n := hP x n
  have e2 : stP (stP x T) T (ix2 (0 : Fin 1) n) = prop ei (prop ei (fun j => x (ix2 (0 : Fin 1) j))) n := by rw [hP, h1]
  have e3 : stP (stP (stP x T) T) T (ix2 (0 : Fin 1) n) = prop ei (prop ei (prop ei (fun j => x (ix2 (0 : Fin 1) j)))) n := by
    rw [hP, h2]
  unfold stMix mix
  simp only [addf_apply, mulf_apply]
  rw [e3, e2, e1, stTp0_apply, stTp1_apply, stTp2_apply, stTp3_apply]

/-! ## The host operations in two stretches -/

/-- The host operations from the accumulation of the matrix on. -/
abbrev hB : List (HloOp τ sig (Elt Ideal)) := List.drop 38 (hostOps0_4 (F := Ideal))
/-- The host operations of the last stretch before it. -/
abbrev hA : List (HloOp τ sig (Elt Ideal)) := List.take 38 (hostOps0_4 (F := Ideal))

/-- The arrays when the accumulation of the matrix starts. -/
def XA : Valuation τ sig (Elt Ideal) :=
  StableHlo.after hA (StableHlo.after hostOps0_3 (StableHlo.after hostOps0_2 (StableHlo.after hostOps0_1
    (StableHlo.after hostOps0 (fun b => m (c, b))))))

/-- The arrays when the region is entered are those after the second stretch run from the first's. -/
theorem V_eq (r : Ref sig .tc) : V (F := Ideal) m c r = StableHlo.after hB (XA m c) (Proc.devRef .tc r) := by
  show StableHlo.after (List.flatten [hostOps0, hostOps0_1, hostOps0_2, hostOps0_3, hostOps0_4]) (fun b => m (c, b)) (Proc.devRef .tc r) = _
  rw [List.flatten_cons, List.flatten_cons, List.flatten_cons, List.flatten_cons, List.flatten_cons, List.flatten_nil, List.append_nil,
    StableHlo.after_append, StableHlo.after_append, StableHlo.after_append, StableHlo.after_append]
  unfold XA
  rw [← StableHlo.after_append hA hB, List.take_append_drop]

set_option maxHeartbeats 4000000 in
/-- The first stretch leaves the zero matrix where the accumulation starts from. -/
theorem hA_v33 (W : Valuation τ sig (Elt Ideal)) :
    (StableHlo.after hA W (Proc.devRef .tc main_v33) : FVec Ideal S1216x1216 .f32)
      = broadcastInDim S1216x1216 ![] bcast_S_S1216x1216 (constant (F := Ideal) S_ .f32 0x00000000#32) := by
  unfold hA hostOps0_4
  simp only [List.take_succ_cons, List.take_zero]
  after_results_simp

set_option maxHeartbeats 4000000 in
/-- The second stretch: the two mixed rows and the bias as terms over the arrays it starts from, which it leaves as they
    were. -/
theorem hB_results (X : Valuation τ sig (Elt Ideal)) :
    (StableHlo.after hB X (Proc.devRef .tc main_v90) : FVec Ideal S1x1216 .f32)
        = stMix (X (Proc.devRef .tc main_arg6)) (stW (X (Proc.devRef .tc main_arg4)))
            (stT (stA (X (Proc.devRef .tc main_v33)) (X (Proc.devRef .tc main_v46)) (X (Proc.devRef .tc main_v32))))
    ∧ (StableHlo.after hB X (Proc.devRef .tc main_v95) : FVec Ideal S1x1216 .f32)
        = stMix (X (Proc.devRef .tc main_arg6)) (stC (X (Proc.devRef .tc main_arg5)))
            (stT (stA (X (Proc.devRef .tc main_v33)) (X (Proc.devRef .tc main_v46)) (X (Proc.devRef .tc main_v32))))
    ∧ (StableHlo.after hB X (Proc.devRef .tc main_v49) : FVec Ideal S1x1 .f32)
        = shapeCast S1x1 (X (Proc.devRef .tc main_arg3) : FVec Ideal S1 .f32) shapeCasts_S1_S1x1
    ∧ StableHlo.after hB X (Proc.devRef .tc main_v33) = X (Proc.devRef .tc main_v33)
    ∧ StableHlo.after hB X (Proc.devRef .tc main_v46) = X (Proc.devRef .tc main_v46)
    ∧ StableHlo.after hB X (Proc.devRef .tc main_v32) = X (Proc.devRef .tc main_v32)
    ∧ StableHlo.after hB X (Proc.devRef .tc main_arg3) = X (Proc.devRef .tc main_arg3)
    ∧ StableHlo.after hB X (Proc.devRef .tc main_arg4) = X (Proc.devRef .tc main_arg4)
    ∧ StableHlo.after hB X (Proc.devRef .tc main_arg5) = X (Proc.devRef .tc main_arg5)
    ∧ StableHlo.after hB X (Proc.devRef .tc main_arg6) = X (Proc.devRef .tc main_arg6) := by
  unfold hB hostOps0_4
  simp only [List.drop_succ_cons, List.drop_zero]
  refine ⟨?_, ?_, ?_, ?_, ?_, ?_, ?_, ?_, ?_, ?_⟩
  · after_results_simp; rfl
  · after_results_simp; rfl
  · after_results_simp; rfl
  all_goals after_results_simp

/-- An array the second stretch leaves alone is, at the region's entry, what the first stretch left. -/
theorem XA_eq_V (r : Ref sig .tc)
    (h : StableHlo.after hB (XA m c) (Proc.devRef .tc r) = XA m c (Proc.devRef .tc r)) :
    XA m c (Proc.devRef .tc r) = V (F := Ideal) m c r := by
  rw [V_eq, h]

/-! ## The three arrays -/

/-- The matrix the accumulation starts from is zero. -/
theorem V33_apply (i j : Fin 1216) : (V (F := Ideal) m c main_v33 : FVec Ideal S1216x1216 .f32) (ix2 i j) = (0 : EReal) := by
  rw [← XA_eq_V m c main_v33 (hB_results (XA m c)).2.2.2.1]
  unfold XA
  rw [hA_v33, StableHlo.Predicate.bcast_scalar bcast_S_S1216x1216 (by decide)]
  exact Ideal.ofBits_zero_f32

/-- The matrix the host code accumulates is the adjacency matrix. -/
theorem A_apply (hR : ∀ i, 0 ≤ (eiOf m c i).toInt ∧ (eiOf m c i).toInt < 1216) (i j : Fin 1216) :
    stA (V (F := Ideal) m c main_v33) (V (F := Ideal) m c main_v46) (V (F := Ideal) m c main_v32) (ix2 i j)
      = adj (eiOf m c) i j := by
  rw [stA_apply _ _ _ (colOf (eiOf m c)) (rowOf (eiOf m c)) (Cert.KerIdx.pairs_col m c hR) (Cert.KerIdx.pairs_row m c hR) i j,
    V33_apply, zero_add]
  unfold adj
  exact Finset.sum_congr rfl fun e _ => Cert.KerIdx.weights m c hR e

/-- Window 3's array as a term: the mix of the row of w₂ through the transposed accumulated matrix. -/
theorem V90_term : (V (F := Ideal) m c main_v90 : FVec Ideal S1x1216 .f32)
    = stMix (m ((c : Thread nD τ).loc main_arg6)) (stW (m ((c : Thread nD τ).loc main_arg4)))
        (stT (stA (V (F := Ideal) m c main_v33) (V (F := Ideal) m c main_v46) (V (F := Ideal) m c main_v32))) := by
  obtain ⟨h90, _, _, c33, c46, c32, _, c4, _, c6⟩ := hB_results (XA m c)
  rw [V_eq m c main_v90, h90, XA_eq_V m c main_arg6 c6, XA_eq_V m c main_arg4 c4, XA_eq_V m c main_v33 c33,
    XA_eq_V m c main_v46 c46, XA_eq_V m c main_v32 c32, V_main_arg6, V_main_arg4]

/-- Window 4's array as a term: the same mix of the row of b₂. -/
theorem V95_term : (V (F := Ideal) m c main_v95 : FVec Ideal S1x1216 .f32)
    = stMix (m ((c : Thread nD τ).loc main_arg6)) (stC (m ((c : Thread nD τ).loc main_arg5)))
        (stT (stA (V (F := Ideal) m c main_v33) (V (F := Ideal) m c main_v46) (V (F := Ideal) m c main_v32))) := by
  obtain ⟨_, h95, _, c33, c46, c32, _, _, c5, c6⟩ := hB_results (XA m c)
  rw [V_eq m c main_v95, h95, XA_eq_V m c main_arg6 c6, XA_eq_V m c main_arg5 c5, XA_eq_V m c main_v33 c33,
    XA_eq_V m c main_v46 c46, XA_eq_V m c main_v32 c32, V_main_arg6, V_main_arg5]

/-- The transposed accumulated matrix is the adjacency matrix's transpose. -/
theorem AT_apply (hR : ∀ i, 0 ≤ (eiOf m c i).toInt ∧ (eiOf m c i).toInt < 1216) (j n : Fin 1216) :
    stT (stA (V (F := Ideal) m c main_v33) (V (F := Ideal) m c main_v46) (V (F := Ideal) m c main_v32)) (ix2 j n)
      = adj (eiOf m c) n j := by
  rw [stT_apply, A_apply m c hR]

/-- Window 3's array: the mix of w₂. -/
theorem V_arr (hR : ∀ i, 0 ≤ (eiOf m c i).toInt ∧ (eiOf m c i).toInt < 1216) (n : Fin 1216) :
    (V (F := Ideal) m c main_v90 : FVec Ideal S1x1216 .f32) (ix2 (0 : Fin 1) n) = mix (eiOf m c) (tpOf m c) (w2Of m c) n := by
  rw [V90_term, stMix_apply (eiOf m c) _ _ _ (AT_apply m c hR) n]
  congr 1
  funext j
  exact stW_apply _ j

/-- Window 4's array: the mix of b₂. -/
theorem C_arr (hR : ∀ i, 0 ≤ (eiOf m c i).toInt ∧ (eiOf m c i).toInt < 1216) (n : Fin 1216) :
    (V (F := Ideal) m c main_v95 : FVec Ideal S1x1216 .f32) (ix2 (0 : Fin 1) n) = mix (eiOf m c) (tpOf m c) (b2Of m c) n := by
  rw [V95_term, stMix_apply (eiOf m c) _ _ _ (AT_apply m c hR) n]
  congr 1
  funext j
  exact stC_apply _ j

/-- Window 2's array: the first layer's bias. -/
theorem B_arr :
    (V (F := Ideal) m c main_v49 : FVec Ideal S1x1 .f32) (ix2 (0 : Fin 1) (0 : Fin 1))
      = (m ((c : Thread nD τ).loc main_arg3) : FVec Ideal S1 .f32) (ix1 (0 : Fin 1)) := by
  obtain ⟨_, _, h49, _, _, _, c3, _, _, _⟩ := hB_results (XA m c)
  rw [V_eq m c main_v49, h49, XA_eq_V m c main_arg3 c3, V_main_arg3]
  refine shapeCast_apply _ _ (ix2 (0 : Fin 1) (0 : Fin 1)) (ix1 (0 : Fin 1)) ?_
  rw [Shape.rowMajor_val_one, Shape.rowMajor_val_two]
  rfl

end Cert.KerHost

end
-- ==== Proof.KerPiece.lean ====
/-
  One group's log-softmax, as the body computes it, read at an entry.

  From a hidden block H (1024 rows of 1216) the body takes the 64 columns from 64 g on, subtracts from each row its
  maximum over those columns (folded from −∞), exponentiates, sums each row, takes the logarithm and subtracts it again.
  Entry (p, l) of the result is the log-softmax of row p of H over group g at lane l.
-/
import proofs.«411973_j34162169872617_3_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KerPiece

open Idealize.ShloMosaic Idealize.ShloMosaic.ValueIdx Cert.Spec
open scoped BigOperators

/-- The hidden block's shape, a group's slice of it, a column of row values, and the vector of row values. -/
abbrev SH : Shape := ⟨2, ![1024, 1216]⟩
abbrev SG : Shape := ⟨2, ![1024, 64]⟩
abbrev SC : Shape := ⟨2, ![1024, 1]⟩
abbrev SV : Shape := ⟨1, ![1024]⟩

variable (hred : SG.Reduces [1] SV) (hsc : SV.ShapeCasts SC) (hb : SC.Broadcasts SG)

/-- The slice less its row maxima. -/
def shifted (o : Nat) (hs : SH.Slices ![0, o] SG) (H : FVec Ideal SH .f32) : FVec Ideal SG .f32 :=
  subf (extractStridedSlice SG ![0, o] H hs)
    (broadcastTo SG (shapeCast SC
      (multiReduction (F := Ideal) .maximumf [1] SV (extractStridedSlice SG ![0, o] H hs) 0xFF800000#32 hred (.inl rfl) rfl) hsc) hb)

/-- The logarithm of each row's sum of exponentials, kept as a column. -/
def lse (v : FVec Ideal SG .f32) : FVec Ideal SC .f32 :=
  log (shapeCast SC (multiReduction (F := Ideal) .add [1] SV (exp v) 0x00000000#32 hred (.inl rfl) rfl) hsc)

/-- The whole chain on the slice at column offset `o`. -/
def piece (o : Nat) (hs : SH.Slices ![0, o] SG) (H : FVec Ideal SH .f32) : FVec Ideal SG .f32 :=
  subf (shifted hred hsc hb o hs H) (broadcastTo SG (lse hred hsc (shifted hred hsc hb o hs H)) hb)

/-- A reduced index with a column put back is (row, column). -/
theorem lift_eq (p : Fin 1024) (k : Fin 64) : hred.lift (ix1 p) k = ix2 p k := by
  funext a
  match a with
  | ⟨0, _⟩ => exact Fin.ext rfl
  | ⟨1, _⟩ => exact Fin.ext rfl

/-- A vector of row values kept as a column reads, at (p, 0), the vector at p. -/
theorem col_apply {α : Type} (v : SV.Idx → α) (p : Fin 1024) : shapeCast SC v hsc (ix2 p (0 : Fin 1)) = v (ix1 p) :=
  shapeCast_apply v hsc _ _ (by
    rw [Shape.rowMajor_val_two, Shape.rowMajor_val_one]
    show p.val = p.val * 1 + 0
    omega)

/-- A column broadcast along the rows reads, at (p, l), the column at (p, 0). -/
theorem bcol_apply {α : Type} (w : SC.Idx → α) (p : Fin 1024) (l : Fin 64) :
    broadcastTo SG w hb (ix2 p l) = w (ix2 p (0 : Fin 1)) := by
  refine broadcastTo_apply w hb (ix2 p l) (ix2 p (0 : Fin 1)) fun ax => ?_
  match ax with
  | ⟨0, _⟩ => rfl
  | ⟨1, _⟩ => rfl

/-- A row's sum over the 64 columns. -/
theorem rowsum_apply (src : FVec Ideal SG .f32) (p : Fin 1024) :
    multiReduction (F := Ideal) .add [1] SV src 0x00000000#32 hred (.inl rfl) rfl (ix1 p) = ∑ k : Fin 64, src (ix2 p k) := by
  refine (Ideal.multiReduction_add_single src _ hred _ _ (ix1 p)).trans ?_
  exact Finset.sum_congr rfl fun k _ => congrArg src (lift_eq hred p k)

/-- A row's maximum over the 64 columns, folded from −∞. -/
theorem rowmax_apply (src : FVec Ideal SG .f32) (p : Fin 1024) :
    multiReduction (F := Ideal) .maximumf [1] SV src 0xFF800000#32 hred (.inl rfl) rfl (ix1 p)
      = (Finset.univ : Finset (Fin 64)).fold max (Ideal.ofBits .f32 0xFF800000#32) (fun k => src (ix2 p k)) := by
  refine (Ideal.multiReduction_maximumf_single src _ hred _ _ (ix1 p)).trans ?_
  have e : (src ∘ hred.lift (ix1 p)) = fun k : Fin 64 => src (ix2 p k) := funext fun k => congrArg src (lift_eq hred p k)
  rw [e]
  rfl

/-- The shifted slice of group g at (p, l): the hidden entry less the group's maximum. -/
theorem shifted_apply (g : Fin 19) (hs : SH.Slices ![0, 64 * g.val] SG) (H : FVec Ideal SH .f32) (p : Fin 1024) (l : Fin 64) :
    shifted hred hsc hb (64 * g.val) hs H (ix2 p l) = H (ix2 p (lane g l)) - gmax (fun k => H (ix2 p k)) g := by
  unfold shifted
  rw [subf_apply, bcol_apply, col_apply, rowmax_apply, slice2_axis1_apply (64 * g.val) H hs p l (lane g l) rfl]
  unfold gmax
  congr 2
  funext k
  exact slice2_axis1_apply (64 * g.val) H hs p k (lane g k) rfl

/-- The chain of group g at (p, l) is the log-softmax of row p over group g at lane l. -/
theorem piece_apply (g : Fin 19) (hs : SH.Slices ![0, 64 * g.val] SG) (H : FVec Ideal SH .f32) (p : Fin 1024) (l : Fin 64) :
    piece hred hsc hb (64 * g.val) hs H (ix2 p l) = lsm (fun k => H (ix2 p k)) g l := by
  unfold piece lse
  rw [subf_apply, bcol_apply]
  show shifted hred hsc hb (64 * g.val) hs H (ix2 p l)
      - Ideal.log (shapeCast SC (multiReduction (F := Ideal) .add [1] SV (exp (shifted hred hsc hb (64 * g.val) hs H)) 0x00000000#32 hred (.inl rfl) rfl) hsc (ix2 p (0 : Fin 1))) = _
  rw [col_apply, rowsum_apply, shifted_apply]
  unfold lsm
  congr 2
  refine Finset.sum_congr rfl fun k _ => ?_
  show Ideal.exp (shifted hred hsc hb (64 * g.val) hs H (ix2 p k)) = _
  rw [shifted_apply]

/-! ## The hidden block -/

/-- One row of 1216, and one entry. -/
abbrev SR : Shape := ⟨2, ![1, 1216]⟩
abbrev SU : Shape := ⟨2, ![1, 1]⟩

variable (hbr : SR.Broadcasts SH) (hredH : SH.Reduces [1] SV) (hsu : SU.ShapeCasts SU) (hbu : SU.Broadcasts SC)
  (hsr : SR.ShapeCasts SR) (hbc : SC.Broadcasts SH)

/-- relu(x · w₁ + b₁) · V + C on a block of rows: the first layer's scalar per row, kept as a column, times the row V,
    plus the row C. -/
def hidden (v0 : FVec Ideal SH .f32) (v1 : FVec Ideal SR .f32) (v6 : FVec Ideal SU .f32) (v12 v17 : FVec Ideal SR .f32) :
    FVec Ideal SH .f32 :=
  addf
    (mulf
      (broadcastTo SH
        (maximumf
          (addf (shapeCast SC (multiReduction (F := Ideal) .add [1] SV (mulf v0 (broadcastTo SH v1 hbr)) 0x00000000#32 hredH (.inl rfl) rfl) hsc)
            (broadcastTo SC (shapeCast SU v6 hsu) hbu))
          (broadcast SC (Scalar.ofBits (F := Ideal) .f32 0x00000000#32)))
        hbc)
      (broadcastTo SH (shapeCast SR v12 hsr) hbr))
    (broadcastTo SH (shapeCast SR v17 hsr) hbr)

/-- A reduced index of the hidden block with a column put back is (row, column). -/
theorem liftH_eq (p : Fin 1024) (k : Fin 1216) : hredH.lift (ix1 p) k = ix2 p k := by
  funext a
  match a with
  | ⟨0, _⟩ => exact Fin.ext rfl
  | ⟨1, _⟩ => exact Fin.ext rfl

/-- A row's sum over the 1216 columns. -/
theorem rowsumH_apply (src : FVec Ideal SH .f32) (p : Fin 1024) :
    multiReduction (F := Ideal) .add [1] SV src 0x00000000#32 hredH (.inl rfl) rfl (ix1 p) = ∑ k : Fin 1216, src (ix2 p k) := by
  refine (Ideal.multiReduction_add_single src _ hredH _ _ (ix1 p)).trans ?_
  exact Finset.sum_congr rfl fun k _ => congrArg src (liftH_eq hredH p k)

/-- A column broadcast along the 1216 columns reads, at (p, k), the column at (p, 0). -/
theorem bcolH_apply {α : Type} (w : SC.Idx → α) (p : Fin 1024) (k : Fin 1216) :
    broadcastTo SH w hbc (ix2 p k) = w (ix2 p (0 : Fin 1)) := by
  refine broadcastTo_apply w hbc (ix2 p k) (ix2 p (0 : Fin 1)) fun ax => ?_
  match ax with
  | ⟨0, _⟩ => rfl
  | ⟨1, _⟩ => rfl

/-- The hidden block at (p, k): the first layer's scalar of row p times V[k] plus C[k]. -/
theorem hidden_apply (v0 : FVec Ideal SH .f32) (v1 : FVec Ideal SR .f32) (v6 : FVec Ideal SU .f32) (v12 v17 : FVec Ideal SR .f32)
    (p : Fin 1024) (k : Fin 1216) :
    hidden hsc hbr hredH hsu hbu hsr hbc v0 v1 v6 v12 v17 (ix2 p k)
      = h1Of (fun j => v0 (ix2 p j)) (fun j => v1 (ix2 (0 : Fin 1) j)) (v6 (ix2 (0 : Fin 1) (0 : Fin 1))) * v12 (ix2 (0 : Fin 1) k)
          + v17 (ix2 (0 : Fin 1) k) := by
  unfold hidden
  rw [addf_apply, mulf_apply, bcolH_apply, maximumf_apply, addf_apply, col_apply, rowsumH_apply, broadcast_apply,
    broadcastTo_1b_ab_apply, broadcastTo_1b_ab_apply, broadcastTo_1b_ab_apply, shapeCast_self, shapeCast_self, shapeCast_self]
  unfold h1Of
  congr 4
  refine Finset.sum_congr rfl fun j _ => ?_
  rw [mulf_apply, broadcastTo_1b_ab_apply]

end Cert.KerPiece

end
-- ==== Proof.KerBody.lean ====
/-
  What the kernel's body leaves in its output block, entry by entry.

  From the block's rows x (1024 × 1216), the first layer's weights w₁ and bias b₁ and the two mixed vectors V, C (each one
  row of 1216) the body forms, for row p, the scalar h = relu(Σ_j x[p, j] · w₁[j] + b₁), the hidden row
  hidden[k] = h · V[k] + C[k], and stores, for each of the 19 groups of 64 consecutive entries, the log-softmax of the hidden
  row over that group.  Entry (p, 64 g + l) of the block is that log-softmax at group g, lane l.
-/
import proofs.«411973_j34162169872617_3_alg».proof.Proof.Gen.KernelIdeal.Frame
import proofs.«411973_j34162169872617_3_alg».proof.Proof.Spec
import proofs.«411973_j34162169872617_3_alg».proof.Proof.KerPiece
import Idealize.ShloMosaic.Lib.Pipeline.Value
import Idealize.ShloMosaic.Lib.ValueIdx
import Idealize.ShloMosaic.Lib.ValueLayout
import Idealize.ShloMosaic.PureOps.Ideal.Laws

noncomputable section

namespace Cert.KerBody

open Idealize.ShloMosaic Idealize.ShloMosaic.ValueIdx Cert.KernelIdeal Cert.Spec

/-- Group n's 64 columns lie inside the 1216. -/
theorem hsl (n : Fin 19) : S1024x1216.Slices ![0, 64 * n.val] S1024x64 := by
  refine ⟨rfl, fun a => ?_⟩
  match a with
  | ⟨0, _⟩ => show 0 + 1024 ≤ 1024; omega
  | ⟨1, _⟩ => show 64 * n.val + 64 ≤ 1216; have := n.isLt; omega

/-- Group n's chain on a hidden block. -/
def pieces (H : FVec Ideal S1024x1216 .f32) (n : Fin 19) : FVec Ideal S1024x64 .f32 :=
  Cert.KerPiece.piece Facts₀.reduces_S1024x64_S1024 Facts₀.shapeCasts_S1024_S1024x1 Facts₀.broadcasts_S1024x1_S1024x64
    (64 * n.val) (hsl n) H

/-- The 19 shapes of the pieces, as the list of a function. -/
theorem hcat (H : FVec Ideal S1024x1216 .f32) :
    Shape.Concatenates ((List.ofFn fun n : Fin 19 => (⟨S1024x64, pieces H n⟩ : (s : Shape) × (s.Idx → Ideal .f32))).map (·.1))
      S1024x1216 1 :=
  Facts₀.concatenates_S1024x64_S1024x64_S1024x64_S1024x64_S1024x64_S1024x64_S1024x64_S1024x64_S1024x64_S1024x64_S1024x64_S1024x64_S1024x64_S1024x64_S1024x64_S1024x64_S1024x64_S1024x64_S1024x64_S1024x1216_d1

/-- What the body stores is the concatenation of the 19 groups' chains on the hidden block. -/
theorem stored_eq (x0 : FVec Ideal S1024x1216 .f32) (x1 : FVec Ideal S1x1216 .f32) (x2 : FVec Ideal S1x1 .f32)
    (x3 x4 : FVec Ideal S1x1216 .f32) :
    Gen.k0_pay2 (F := Ideal) (Gen.k0_pay3 x0 x1 x2 x3 x4) (Gen.k0_pay4 x0 x1 x2 x3 x4) (Gen.k0_pay5 x0 x1 x2 x3 x4)
      (Gen.k0_pay6 (Gen.k0_pay3 x0 x1 x2 x3 x4)) (Gen.k0_pay7 (Gen.k0_pay3 x0 x1 x2 x3 x4))
      (Gen.k0_pay8 (Gen.k0_pay3 x0 x1 x2 x3 x4)) (Gen.k0_pay9 (Gen.k0_pay3 x0 x1 x2 x3 x4))
      (Gen.k0_pay12 (Gen.k0_pay10 (Gen.k0_pay3 x0 x1 x2 x3 x4)) (Gen.k0_pay11 (Gen.k0_pay3 x0 x1 x2 x3 x4)))
      (Gen.k0_pay13 (Gen.k0_pay3 x0 x1 x2 x3 x4)) (Gen.k0_pay14 (Gen.k0_pay3 x0 x1 x2 x3 x4))
      (Gen.k0_pay15 (Gen.k0_pay3 x0 x1 x2 x3 x4)) (Gen.k0_pay16 (Gen.k0_pay3 x0 x1 x2 x3 x4))
      (Gen.k0_pay19 (Gen.k0_pay17 (Gen.k0_pay3 x0 x1 x2 x3 x4)) (Gen.k0_pay18 (Gen.k0_pay3 x0 x1 x2 x3 x4)))
      (Gen.k0_pay20 (Gen.k0_pay3 x0 x1 x2 x3 x4)) (Gen.k0_pay21 (Gen.k0_pay3 x0 x1 x2 x3 x4))
      (Gen.k0_pay22 (Gen.k0_pay3 x0 x1 x2 x3 x4))
      (Gen.k0_pay1 (Gen.k0_pay23 (Gen.k0_pay3 x0 x1 x2 x3 x4)) (Gen.k0_pay24 (Gen.k0_pay3 x0 x1 x2 x3 x4)))
    = concatenate S1024x1216 1
        (List.ofFn fun n : Fin 19 => (⟨S1024x64, pieces (Gen.k0_pay3 x0 x1 x2 x3 x4) n⟩ : (s : Shape) × (s.Idx → Ideal .f32)))
        (hcat (Gen.k0_pay3 x0 x1 x2 x3 x4)) := rfl

/-- The hidden block is the generic one. -/
theorem hidden_eq (x0 : FVec Ideal S1024x1216 .f32) (x1 : FVec Ideal S1x1216 .f32) (x2 : FVec Ideal S1x1 .f32)
    (x3 x4 : FVec Ideal S1x1216 .f32) :
    Gen.k0_pay3 (F := Ideal) x0 x1 x2 x3 x4
      = Cert.KerPiece.hidden Facts₀.shapeCasts_S1024_S1024x1 Facts₀.broadcasts_S1x1216_S1024x1216 Facts₀.reduces_S1024x1216_S1024
          Facts₀.shapeCasts_S1x1_S1x1 Facts₀.broadcasts_S1x1_S1024x1 Facts₀.shapeCasts_S1x1216_S1x1216
          Facts₀.broadcasts_S1024x1_S1024x1216 x0 x1 x2 x3 x4 := rfl

/-- The output block at row `p`, group `g`, lane `l`. -/
theorem out_block (x0 : FVec Ideal S1024x1216 .f32) (x1 : FVec Ideal S1x1216 .f32) (x2 : FVec Ideal S1x1 .f32)
    (x3 x4 : FVec Ideal S1x1216 .f32) (p : Fin 1024) (g : Fin 19) (l : Fin 64) :
    Cert.KernelIdeal.Gen.out0_5 (F := Ideal) x0 x1 x2 x3 x4 (ix2 p (lane g l))
      = lsm (fun k => h1Of (fun j => x0 (ix2 p j)) (fun j => x1 (ix2 (0 : Fin 1) j)) (x2 (ix2 (0 : Fin 1) (0 : Fin 1)))
                        * x3 (ix2 (0 : Fin 1) k) + x4 (ix2 (0 : Fin 1) k)) g l := by
  have hz : (![0, 0] : Fin 2 → Nat) = fun _ => 0 := funext fun a => by fin_cases a <;> rfl
  unfold Cert.KernelIdeal.Gen.out0_5
  rw [View.canon_unit_zero hz]
  simp only [View.ld_unit_zero (S := S1024x1216) hz, View.ld_unit_zero (S := S1x1216) hz, View.ld_unit_zero (S := S1x1) hz]
  rw [stored_eq]
  -- column 64 g + l of the concatenation is column l of piece g
  have hr : S1024x64.rank = S1024x1216.rank := rfl
  refine (concatenate_ofFn_apply (1 : Fin S1024x1216.rank) (pieces (Gen.k0_pay3 x0 x1 x2 x3 x4)) (hcat _) hr 64 rfl
    (ix2 p (lane g l)) g ?_ (ix2 p l) ?_ ?_).trans ?_
  · show (64 * g.val + l.val) / 64 = g.val
    have := l.isLt; omega
  · show l.val = (64 * g.val + l.val) % 64
    have := l.isLt; omega
  · intro b hb
    match b with
    | ⟨0, _⟩ => rfl
    | ⟨1, _⟩ => exact absurd rfl hb
  · unfold pieces
    rw [Cert.KerPiece.piece_apply]
    have e : (fun k => Gen.k0_pay3 (F := Ideal) x0 x1 x2 x3 x4 (ix2 p k))
        = fun k => h1Of (fun j => x0 (ix2 p j)) (fun j => x1 (ix2 (0 : Fin 1) j)) (x2 (ix2 (0 : Fin 1) (0 : Fin 1)))
                      * x3 (ix2 (0 : Fin 1) k) + x4 (ix2 (0 : Fin 1) k) :=
      funext fun k => by rw [hidden_eq]; exact Cert.KerPiece.hidden_apply _ _ _ _ _ _ _ x0 x1 x2 x3 x4 p k
    rw [e]

end Cert.KerBody

end
-- ==== Proof.KerValue.lean ====
/-
  The kernel's result array as one function of the arrays its region is launched on.

  The region runs the body once per block of 1024 batch rows (4 blocks); block t of the output array is what the body
  leaves from block t of x and the whole rows w₁, b₁, V, C.  The blocks tile the output array, so after the region it holds,
  at (r, 64 g + l), the log-softmax over group g at lane l of the hidden row  relu(x[r]·w₁ + b₁) · V + C.  The one host
  operation after the region re-lays that [4096, 1216] array as [4096, 1, 19, 64], row-major: entry (b, 0, g, l) is (b, 64 g + l).
-/
import proofs.«411973_j34162169872617_3_alg».proof.Proof.Gen.KernelIdeal.Frame
import proofs.«411973_j34162169872617_3_alg».proof.Proof.Spec
import proofs.«411973_j34162169872617_3_alg».proof.Proof.KerBody
import Idealize.ShloMosaic.Lib.Pipeline.Value
import Idealize.ShloMosaic.Lib.ValueIdx
import Idealize.ShloMosaic.Lib.ValueLayout
import Idealize.ShloMosaic.Lib.StableHlo.Run
import Idealize.ShloMosaic.Lib.Tactic

noncomputable section

namespace Cert.KerValue

open Idealize.ShloMosaic Idealize.ShloMosaic.TcCoe Idealize.ShloMosaic.ValueIdx Idealize.SL.Sem
open Idealize.ShloMosaic.Pipeline (Dat)
open Cert.KernelIdeal Cert.KernelIdeal.Gen Cert.Spec

variable (m : (ℓ : Loc nD τ sig) → Buf (Elt Ideal) ℓ) (ρ : Dev nD → PrngReg)

/-- The five arrays the region reads, as it finds them, at their literal types. -/
abbrev xArr (c : Dev nD) : FVec Ideal S4096x1216 .f32 := V m c main_arg0
abbrev w1Arr (c : Dev nD) : FVec Ideal S1x1216 .f32 := V m c main_arg2
abbrev b1Arr (c : Dev nD) : FVec Ideal S1x1 .f32 := V m c main_v49
abbrev vArr (c : Dev nD) : FVec Ideal S1x1216 .f32 := V m c main_v90
abbrev cArr (c : Dev nD) : FVec Ideal S1x1216 .f32 := V m c main_v95

/-- The hidden row of batch row `r`: relu(x[r]·w₁ + b₁) · V + C. -/
def hidRow (c : Dev nD) (r : Fin 4096) (k : Fin 1216) : EReal :=
  h1Of (fun j => xArr m c (ix2 r j)) (fun j => w1Arr m c (ix2 (0 : Fin 1) j)) (b1Arr m c (ix2 (0 : Fin 1) (0 : Fin 1)))
    * vArr m c (ix2 (0 : Fin 1) k) + cArr m c (ix2 (0 : Fin 1) k)

/-- The result: at (b, 0, g, l) the log-softmax over group g, lane l, of batch row b's hidden row. -/
def kres (c : Dev nD) : FVec Ideal S4096x1x19x64 .f32 :=
  fun i => lsm (hidRow m c ⟨(i 0).val, (i 0).isLt⟩) ⟨(i 2).val, (i 2).isLt⟩ ⟨(i 3).val, (i 3).isLt⟩

/-- The grid has four points. -/
theorem t_lt (t : Fin cfg0.N) : t.val < 4 := by have := t.isLt; have h : cfg0.N = 4 := N_0; omega

/-- The block index of window 0 moves with the grid on the row axis and stays at 0 on the other. -/
theorem idx_x : ∀ t : Fin cfg0.N, win0_0.index t (0 : Fin 2) = t.val ∧ win0_0.index t (1 : Fin 2) = 0 :=
  (by decide +kernel : ∀ t : Fin grid0.N, _)

/-- Window 0's block at point `t` is rows `1024 t … 1024 t + 1023` of x. -/
theorem iblk0_apply (c : Dev nD) (t : Fin cfg0.N) (p : Fin 1024) (j : Fin 1216) :
    (iblk m c 0 t : FVec Ideal S1024x1216 .f32) (ix2 p j)
      = xArr m c (ix2 ⟨1024 * t.val + p.val, by have := t_lt t; omega⟩ j) := by
  obtain ⟨e0, e1⟩ := idx_x t
  unfold iblk
  rw [View.read_apply]
  show V m c main_arg0 _ = V m c main_arg0 _
  congr 1
  funext a
  apply Fin.ext
  match a with
  | ⟨0, _⟩ => show win0_0.index t 0 * 1024 + 1 * p.val = 1024 * t.val + p.val; rw [e0]; omega
  | ⟨1, _⟩ => show win0_0.index t 1 * 1216 + 1 * j.val = j.val; rw [e1]; omega

/-- The block indices of windows 1 … 4 stay at 0: each of them is its whole array at every point. -/
theorem idx_rest : ∀ t : Fin cfg0.N,
    (win0_1.index t (0 : Fin 2) = 0 ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0) :=
  (by decide +kernel : ∀ t : Fin grid0.N, _)

/-- Window 1's block is the whole row w₁. -/
theorem iblk1_eq (c : Dev nD) (t : Fin cfg0.N) : (iblk m c 1 t : FVec Ideal S1x1216 .f32) = w1Arr m c := by
  obtain ⟨⟨e0, e1⟩, -⟩ := idx_rest t
  funext y
  unfold iblk
  rw [View.read_apply]
  show V m c main_arg2 _ = V m c main_arg2 _
  congr 1
  funext a
  apply Fin.ext
  match a with
  | ⟨0, _⟩ => show win0_1.index t 0 * 1 + 1 * (y 0).val = (y 0).val; rw [e0]; omega
  | ⟨1, _⟩ => show win0_1.index t 1 * 1216 + 1 * (y 1).val = (y 1).val; rw [e1]; omega

/-- Window 2's block is the whole bias b₁. -/
theorem iblk2_eq (c : Dev nD) (t : Fin cfg0.N) : (iblk m c 2 t : FVec Ideal S1x1 .f32) = b1Arr m c := by
  obtain ⟨-, ⟨e0, e1⟩, -⟩ := idx_rest t
  funext y
  unfold iblk
  rw [View.read_apply]
  show V m c main_v49 _ = V m c main_v49 _
  congr 1
  funext a
  apply Fin.ext
  match a with
  | ⟨0, _⟩ => show win0_2.index t 0 * 1 + 1 * (y 0).val = (y 0).val; rw [e0]; omega
  | ⟨1, _⟩ => show win0_2.index t 1 * 1 + 1 * (y 1).val = (y 1).val; rw [e1]; omega

/-- Window 3's block is the whole row V. -/
theorem iblk3_eq (c : Dev nD) (t : Fin cfg0.N) : (iblk m c 3 t : FVec Ideal S1x1216 .f32) = vArr m c := by
  obtain ⟨-, -, ⟨e0, e1⟩, -⟩ := idx_rest t
  funext y
  unfold iblk
  rw [View.read_apply]
  show V m c main_v90 _ = V m c main_v90 _
  congr 1
  funext a
  apply Fin.ext
  match a with
  | ⟨0, _⟩ => show win0_3.index t 0 * 1 + 1 * (y 0).val = (y 0).val; rw [e0]; omega
  | ⟨1, _⟩ => show win0_3.index t 1 * 1216 + 1 * (y 1).val = (y 1).val; rw [e1]; omega

/-- Window 4's block is the whole row C. -/
theorem iblk4_eq (c : Dev nD) (t : Fin cfg0.N) : (iblk m c 4 t : FVec Ideal S1x1216 .f32) = cArr m c := by
  obtain ⟨-, -, -, ⟨e0, e1⟩⟩ := idx_rest t
  funext y
  unfold iblk
  rw [View.read_apply]
  show V m c main_v95 _ = V m c main_v95 _
  congr 1
  funext a
  apply Fin.ext
  match a with
  | ⟨0, _⟩ => show win0_4.index t 0 * 1 + 1 * (y 0).val = (y 0).val; rw [e0]; omega
  | ⟨1, _⟩ => show win0_4.index t 1 * 1216 + 1 * (y 1).val = (y 1).val; rw [e1]; omega

/-- The [4096, 1216] array the region leaves: at (r, n) the log-softmax of row r's hidden row over the group n / 64 at
    lane n % 64. -/
def outArr (c : Dev nD) : FVec Ideal S4096x1216 .f32 :=
  fun i => lsm (hidRow m c ⟨(i 0).val, idx2_lt0 i⟩) ⟨(i 1).val / 64, by have := idx2_lt1 i; omega⟩
    ⟨(i 1).val % 64, Nat.mod_lt _ (by decide)⟩

/-- The log-softmax of a hidden row depends on the row, the group and the lane only. -/
theorem lsm_hid_congr (c : Dev nD) {r r' : Fin 4096} {g g' : Fin 19} {l l' : Fin 64} (hr : r = r') (hg : g = g')
    (hl : l = l') : lsm (hidRow m c r) g l = lsm (hidRow m c r') g' l' := by
  subst hr hg hl; rfl

/-- `outArr` at an index whose row is `r` and whose column is lane `l` of group `g`. -/
theorem outArr_apply (c : Dev nD) (i : S4096x1216.Idx) (r : Fin 4096) (g : Fin 19) (l : Fin 64)
    (h0 : (i 0).val = r.val) (h1 : (i 1).val = 64 * g.val + l.val) : outArr m c i = lsm (hidRow m c r) g l := by
  have hl := l.isLt
  unfold outArr
  exact lsm_hid_congr m c (Fin.ext h0) (Fin.ext (by show (i 1).val / 64 = g.val; omega))
    (Fin.ext (by show (i 1).val % 64 = l.val; omega))

/-- An entry of the body's output block, at any index of the block: its column n is lane n % 64 of group n / 64. -/
theorem out_entry (x0 : FVec Ideal S1024x1216 .f32) (x1 : FVec Ideal S1x1216 .f32) (x2 : FVec Ideal S1x1 .f32)
    (x3 x4 : FVec Ideal S1x1216 .f32) (j : S1024x1216.Idx) :
    out0_5 (F := Ideal) x0 x1 x2 x3 x4 j
      = lsm (fun k => h1Of (fun j' => x0 (ix2 (⟨(j 0).val, idx2_lt0 j⟩ : Fin 1024) j')) (fun j' => x1 (ix2 (0 : Fin 1) j'))
                        (x2 (ix2 (0 : Fin 1) (0 : Fin 1))) * x3 (ix2 (0 : Fin 1) k) + x4 (ix2 (0 : Fin 1) k))
          ⟨(j 1).val / 64, by have := idx2_lt1 j; omega⟩ ⟨(j 1).val % 64, Nat.mod_lt _ (by decide)⟩ := by
  have hj : j = ix2 (⟨(j 0).val, idx2_lt0 j⟩ : Fin 1024)
      (lane ⟨(j 1).val / 64, by have := idx2_lt1 j; omega⟩ ⟨(j 1).val % 64, Nat.mod_lt _ (by decide)⟩) := by
    funext a
    match a with
    | ⟨0, _⟩ => rfl
    | ⟨1, _⟩ => apply Fin.ext; show (j 1).val = 64 * ((j 1).val / 64) + (j 1).val % 64; omega
  exact (congrArg (out0_5 (F := Ideal) x0 x1 x2 x3 x4) hj).trans (Cert.KerBody.out_block x0 x1 x2 x3 x4 _ _ _)

/-- The block index of the output window moves with the grid on the row axis and stays at 0 on the other. -/
theorem idx_out : ∀ t : Fin cfg0.N, win0_5.index t (0 : Fin 2) = t.val ∧ win0_5.index t (1 : Fin 2) = 0 :=
  (by decide +kernel : ∀ t : Fin grid0.N, _)

/-- What point `t` writes back is block `t` of `outArr`. -/
theorem flushed_eq (c : Dev nD) (t : Fin cfg0.N) :
    (dats m 0 c).flushed 5 t = ((cfg0.win 5).blk t).view.read (Elt Ideal) (outArr m c) := by
  obtain ⟨e0, e1⟩ := idx_out t
  have ht := t_lt t
  show (cfg0.win 5).cut (grid0.coords t) ((dats m 0 c).after 5 t) = _
  rw [after0_5]
  funext j
  rw [View.read_apply]
  refine (out_entry (iblk m c 0 t) (iblk m c 1 t) (iblk m c 2 t) (iblk m c 3 t) (iblk m c 4 t) j).trans ?_
  rw [iblk1_eq m c t, iblk2_eq m c t, iblk3_eq m c t, iblk4_eq m c t]
  simp only [iblk0_apply m c t]
  refine (outArr_apply m c _ ⟨1024 * t.val + (j 0).val, by have := idx2_lt0 j; omega⟩
    ⟨(j 1).val / 64, by have := idx2_lt1 j; omega⟩ ⟨(j 1).val % 64, Nat.mod_lt _ (by decide)⟩ ?_ ?_).symm
  · show win0_5.index t 0 * 1024 + 1 * (j 0).val = 1024 * t.val + (j 0).val
    rw [e0]; omega
  · show win0_5.index t 1 * 1216 + 1 * (j 1).val = 64 * ((j 1).val / 64) + (j 1).val % 64
    rw [e1]; omega

/-- An index of the array lies in point `t`'s block iff, axis by axis, it lies in the block's range. -/
theorem mem_blk_out (t : Fin cfg0.N) (i : S4096x1216.Idx) :
    i ∈ ((cfg0.win 5).blk t).view.set ↔ ∀ a : Fin 2, win0_5.index t a * S1024x1216.size a ≤ (i a).val
      ∧ (i a).val < win0_5.index t a * S1024x1216.size a + S1024x1216.size a := by
  show i ∈ ((View.whole main_v96).slice (win0_5.rect t)).set ↔ _
  rw [View.set_slice_whole, Rect.mem_set_unit]
  exact Iff.rfl

/-- The four blocks tile the array: row `r` is in the block of point `r / 1024`. -/
theorem cover (i : S4096x1216.Idx) :
    ∃ t : Fin cfg0.N, (cfg0.win 5).flush t = true ∧ i ∈ ((cfg0.win 5).blk t).view.set := by
  have h0 : (i 0).val < 4096 := idx2_lt0 i
  have h1 : (i 1).val < 1216 := idx2_lt1 i
  have hlt : (i 0).val / 1024 < cfg0.N := by have hN : cfg0.N = 4 := N_0; omega
  obtain ⟨e0, e1⟩ := idx_out ⟨(i 0).val / 1024, hlt⟩
  have e0' : win0_5.index ⟨(i 0).val / 1024, hlt⟩ 0 = (i 0).val / 1024 := e0
  refine ⟨⟨(i 0).val / 1024, hlt⟩, flush0_5 _, ?_⟩
  rw [mem_blk_out]
  intro a
  match a with
  | ⟨0, _⟩ =>
    show win0_5.index ⟨(i 0).val / 1024, hlt⟩ 0 * 1024 ≤ (i 0).val
      ∧ (i 0).val < win0_5.index ⟨(i 0).val / 1024, hlt⟩ 0 * 1024 + 1024
    rw [e0']; omega
  | ⟨1, _⟩ =>
    show win0_5.index ⟨(i 0).val / 1024, hlt⟩ 1 * 1216 ≤ (i 1).val
      ∧ (i 1).val < win0_5.index ⟨(i 0).val / 1024, hlt⟩ 1 * 1216 + 1216
    rw [e1]; omega

/-- So after the region the output array holds `outArr`. -/
theorem final5 (c : Dev nD) : (dats m 0 c).arrAt 5 cfg0.N = outArr m c :=
  (dats m 0 c).arrAt_eq_of_cover 5 (outArr m c) (fun t _ => flushed_eq m c t) cover

/-- The row-major re-laying of a [4096, 1216] array as [4096, 1, 19, 64]: entry (b, 0, g, l) is entry (b, 64 g + l). -/
theorem relay_apply (X : FVec Ideal S4096x1216 .f32) (h : S4096x1216.ShapeCasts S4096x1x19x64)
    (j : S4096x1x19x64.Idx) (n : Fin 1216) (hn : n.val = 64 * (j 2).val + (j 3).val) :
    shapeCast S4096x1x19x64 X h j = X (ix2 (⟨(j 0).val, (j 0).isLt⟩ : Fin 4096) n) := by
  have j1 : (j 1).val < 1 := (j 1).isLt
  have j2 : (j 2).val < 19 := (j 2).isLt
  have j3 : (j 3).val < 64 := (j 3).isLt
  refine shapeCast_apply X h j _ ?_
  rw [Shape.rowMajor_val_two, Shape.rowMajor_val_four]
  show (j 0).val * 1216 + n.val = (((j 0).val * 1 + (j 1).val) * 19 + (j 2).val) * 64 + (j 3).val
  omega

/-- The host operation after the region re-lays the output array, so the result buffer ends at `kres`. -/
theorem tail_eq (c : Dev nD) :
    Pipeline.afterTail₀ cfgs (dats m) 0 (V0 m) [hostOps1] c main_v97 = kres m c := by
  unfold Pipeline.afterTail₀
  show StableHlo.after hostOps1 _ (Proc.devRef .tc main_v97) = _
  after_results
  funext j
  have hw : Pipeline.withArrays (cfgs 0).spec c (V0 m c) (fun w => (dats m 0 c).arrAt w (cfgs 0).N)
      (Proc.devRef .tc main_v96) = outArr m c :=
    (Pipeline.withArrays_arr spec0 launch0.win.arr_inj c _ _ 5).trans (final5 m c)
  have j2 : (j 2).val < 19 := (j 2).isLt
  have j3 : (j 3).val < 64 := (j 3).isLt
  show shapeCast S4096x1x19x64 (Pipeline.withArrays (cfgs 0).spec c (V0 m c)
      (fun w => (dats m 0 c).arrAt w (cfgs 0).N) (Proc.devRef .tc main_v96))
      shapeCasts_S4096x1216_S4096x1x19x64 j = kres m c j
  rw [hw]
  refine (relay_apply (outArr m c) _ j ⟨64 * (j 2).val + (j 3).val, by omega⟩ rfl).trans ?_
  exact outArr_apply m c _ ⟨(j 0).val, (j 0).isLt⟩ ⟨(j 2).val, j2⟩ ⟨(j 3).val, j3⟩ rfl rfl

/-- THE RUN, READ: every weakly fair execution of the kernel's @main terminates with the result buffer at `kres` and the
    seven argument arrays as launched. -/
theorem run : θ_run defs (onTc (τ := τ) (main (F := Ideal))) ⟨m, fun _ => 0, ρ⟩ fun r => ∀ c : Dev nD,
      r.2.mem ((c : Thread nD τ).loc main_v97) = kres m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun _ h c =>
    ⟨((h c).2 main_v97 (Pipeline.mem_restRefs_of main_v97 (by decide) (by decide))).trans (tail_eq m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).1 1).trans (((dats m 0 c).arrAt_in 1 rfl _).trans ((A_eq m c 1).trans (V_main_arg2 m c))),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c)⟩)
    (run_main m ρ)

end Cert.KerValue

end
-- ==== Proof.SpecAlg.lean ====
/-
  The two facts about the specification that need real arithmetic.

  Every edge weight is a real number.  And a propagation step is linear on real data,
      hop (h · v + c) n = h · (Σ_j v j · A n j) + Σ_j c j · A n j,
  since each edge into n has exactly one source j; iterating it three times and collecting the weights tp gives the
  kernel's collapsed form  h · V n + C n  for the reference's propagated hidden row.
-/
import proofs.«411973_j34162169872617_3_alg».proof.Proof.Spec

noncomputable section

namespace Cert.Spec

open Idealize.ShloMosaic Idealize.ShloMosaic.ValueIdx Cert.LibReal
open scoped BigOperators

/-! ### The three float constants as reals -/

/-- The word of `1.0` denotes the real `1`. -/
theorem ofBits_one_eq : Ideal.ofBits .f32 0x3F800000#32 = ((1 : ℝ) : EReal) := by
  simp [Ideal.ofBits, Ideal.ieee, -EReal.coe_mul]; norm_num

/-- The word of `+0.0` denotes the real `0`. -/
theorem ofBits_zero_eq : Ideal.ofBits .f32 0x00000000#32 = ((0 : ℝ) : EReal) := by
  simp [Ideal.ofBits, Ideal.ieee]

/-- The word of ε denotes the positive real `9223372 · 2⁻⁶³` (sign 0, exponent field 87, fraction 834764). -/
theorem ofBits_eps_eq :
    Ideal.ofBits .f32 0x2B8CBCCC#32 = (((9223372 : ℝ) * (2 : ℝ) ^ (-63 : Int) : ℝ) : EReal) := by
  simp [Ideal.ofBits, Ideal.ieee, -EReal.coe_mul]

/-! ### Degrees, normalising factors and edge weights are real -/

/-- A degree is the real number of edges into the node. -/
theorem degOf_eq (ei : IVec SEdge 32) (n : Fin 1216) :
    degOf ei n = (((Finset.univ.filter (fun e : Fin 40128 => colOf ei e = n)).card : ℝ) : EReal) := by
  unfold degOf
  rw [ofBits_one_eq, ← coe_sum, Finset.sum_const, nsmul_eq_mul, mul_one]

/-- The normalising factor of a real degree is real: where the degree is positive it is the reciprocal square root of
    a real that is at least ε > 0, elsewhere it is 0. -/
theorem dinvOf_isReal (r : ℝ) : IsReal (dinvOf (r : EReal)) := by
  unfold dinvOf Scalar.select
  split_ifs with hc
  · rw [ofBits_eps_eq, ← EReal.coe_strictMono.monotone.map_max, Ideal.rsqrt_coe]
    have hpos : 0 < max r ((9223372 : ℝ) * (2 : ℝ) ^ (-63 : Int)) := lt_max_of_lt_right (by positivity)
    rw [if_neg (not_lt.mpr hpos.le), if_neg hpos.ne']
    exact IsReal.coe _
  · rw [ofBits_zero_eq]; exact IsReal.coe 0

/-- Every edge weight is a real number: a degree is a finite sum of ones, so max(deg, ε) is a positive real and its
    reciprocal square root is real; the other branch is 0. -/
theorem nrmOf_isReal (ei : IVec SEdge 32) (e : Fin 40128) : IsReal (nrmOf ei e) := by
  unfold nrmOf
  rw [degOf_eq, degOf_eq]
  exact (dinvOf_isReal _).mul (dinvOf_isReal _)

/-- Every entry of the adjacency matrix is real. -/
theorem adj_isReal (ei : IVec SEdge 32) (i j : Fin 1216) : IsReal (adj ei i j) := by
  unfold adj
  exact IsReal.sum _ _ fun e _ => nrmOf_isReal ei e

/-- A real vector's propagated image is real. -/
theorem prop_isReal (ei : IVec SEdge 32) (v : Fin 1216 → EReal) (hv : ∀ k, IsReal (v k)) (n : Fin 1216) :
    IsReal (prop ei v n) := by
  unfold prop
  exact IsReal.sum _ _ fun j _ => (hv j).mul (adj_isReal ei n j)

/-! ### Regrouping the edges into a node by their source, over the reals -/

/-- Each edge into `n` has exactly one source, so a weighted sum over the edges into `n` of a function of the
    source is the sum over the sources `j` of that function times the total weight of the edges from `j` into `n`. -/
theorem sum_edges_by_source {E N : Type} [Fintype E] [Fintype N] [DecidableEq N] (row col : E → N) (w : E → ℝ)
    (x : N → ℝ) (n : N) :
    ∑ e ∈ Finset.univ.filter (fun e => col e = n), w e * x (row e)
      = ∑ j, x j * ∑ e ∈ Finset.univ.filter (fun e => col e = n ∧ row e = j), w e := by
  rw [← Finset.sum_fiberwise (Finset.univ.filter (fun e => col e = n)) row (fun e => w e * x (row e))]
  refine Finset.sum_congr rfl fun j _ => ?_
  rw [Finset.filter_filter, Finset.mul_sum]
  refine Finset.sum_congr rfl fun e he => ?_
  rw [(Finset.mem_filter.1 he).2.2, mul_comm]

/-- On a real family a propagation step along the edges is the product with the adjacency matrix. -/
theorem hop_eq_prop (ei : IVec SEdge 32) (X : Fin 1216 → EReal) (hX : ∀ k, IsReal (X k)) (n : Fin 1216) :
    hop ei X n = prop ei X n := by
  choose x hx using hX
  choose W hW using nrmOf_isReal ei
  obtain rfl : X = fun k => (x k : EReal) := funext hx
  unfold hop prop adj
  simp only [hW, ← EReal.coe_mul, ← coe_sum]
  rw [sum_edges_by_source (rowOf ei) (colOf ei) W x n]

/-- The product with the adjacency matrix is linear on real data. -/
theorem prop_linear (ei : IVec SEdge 32) (h : EReal) (v c : Fin 1216 → EReal) (hh : IsReal h)
    (hv : ∀ k, IsReal (v k)) (hc : ∀ k, IsReal (c k)) (n : Fin 1216) :
    prop ei (fun k => h * v k + c k) n = h * prop ei v n + prop ei c n := by
  obtain ⟨hr, rfl⟩ := hh
  choose v' hv' using hv
  choose c' hc' using hc
  choose A hA using adj_isReal ei n
  obtain rfl : v = fun k => (v' k : EReal) := funext hv'
  obtain rfl : c = fun k => (c' k : EReal) := funext hc'
  unfold prop
  simp only [hA, ← EReal.coe_mul, ← EReal.coe_add, ← coe_sum]
  congr 1
  rw [Finset.mul_sum, ← Finset.sum_add_distrib]
  exact Finset.sum_congr rfl fun j _ => by ring

/-- On real data the kernel's collapsed form is the reference's propagated one (linearity of a propagation step). -/
theorem hidK_eq_hidR (ei : IVec SEdge 32) (tp : Fin 4 → EReal) (w2 b2 : Fin 1216 → EReal) (h : EReal)
    (htp : ∀ k, IsReal (tp k)) (hw2 : ∀ n, IsReal (w2 n)) (hb2 : ∀ n, IsReal (b2 n)) (hh : IsReal h) (n : Fin 1216) :
    hidK ei tp w2 b2 h n = hidR ei tp w2 b2 h n := by
  have hX0 : ∀ k, IsReal (h * w2 k + b2 k) := fun k => (hh.mul (hw2 k)).add (hb2 k)
  have hw1 := prop_isReal ei w2 hw2
  have hb1 := prop_isReal ei b2 hb2
  have hw2' := prop_isReal ei _ hw1
  have hb2' := prop_isReal ei _ hb1
  have hw3 := prop_isReal ei _ hw2'
  have hb3 := prop_isReal ei _ hb2'
  have e1 : hop ei (fun k => h * w2 k + b2 k) = fun k => h * prop ei w2 k + prop ei b2 k := by
    funext k
    rw [hop_eq_prop ei _ hX0, prop_linear ei h w2 b2 hh hw2 hb2]
  have hX1 : ∀ k, IsReal (h * prop ei w2 k + prop ei b2 k) := fun k => (hh.mul (hw1 k)).add (hb1 k)
  have e2 : hop ei (hop ei (fun k => h * w2 k + b2 k))
      = fun k => h * prop ei (prop ei w2) k + prop ei (prop ei b2) k := by
    rw [e1]
    funext k
    rw [hop_eq_prop ei _ hX1, prop_linear ei h _ _ hh hw1 hb1]
  have hX2 : ∀ k, IsReal (h * prop ei (prop ei w2) k + prop ei (prop ei b2) k) :=
    fun k => (hh.mul (hw2' k)).add (hb2' k)
  have e3 : hop ei (hop ei (hop ei (fun k => h * w2 k + b2 k)))
      = fun k => h * prop ei (prop ei (prop ei w2)) k + prop ei (prop ei (prop ei b2)) k := by
    rw [e2]
    funext k
    rw [hop_eq_prop ei _ hX2, prop_linear ei h _ _ hh hw2' hb2']
  unfold hidK hidR mix
  rw [e3, e2, e1]
  obtain ⟨hr, rfl⟩ := hh
  obtain ⟨t0, ht0⟩ := htp 0
  obtain ⟨t1, ht1⟩ := htp 1
  obtain ⟨t2, ht2⟩ := htp 2
  obtain ⟨t3, ht3⟩ := htp 3
  obtain ⟨a0, ha0⟩ := hw2 n
  obtain ⟨a1, ha1⟩ := hw1 n
  obtain ⟨a2, ha2⟩ := hw2' n
  obtain ⟨a3, ha3⟩ := hw3 n
  obtain ⟨c0, hc0⟩ := hb2 n
  obtain ⟨c1, hc1⟩ := hb1 n
  obtain ⟨c2, hc2⟩ := hb2' n
  obtain ⟨c3, hc3⟩ := hb3 n
  simp only [ht0, ht1, ht2, ht3, ha0, ha1, ha2, ha3, hc0, hc1, hc2, hc3, ← EReal.coe_mul, ← EReal.coe_add]
  congr 1
  ring

end Cert.Spec

end
-- ==== Proof.PreFacts.lean ====
/-
  What the precondition says, decoded: every entry of every float input is a real number (its absolute value is
  below +∞), and every word of the edge list is a node number, 0 ≤ word < 1216 (read signed).
-/
import proofs.«411973_j34162169872617_3_alg».proof.Pre_finite_inputs
import proofs.«411973_j34162169872617_3_alg».proof.Proof.LibReal
import Idealize.ShloMosaic.Lib.ReduceAll
import Idealize.ShloMosaic.Lib.StableHlo.Predicate

noncomputable section

namespace Cert.PreFacts

open Idealize.ShloMosaic Cert.LibReal Cert.Pre_finite_inputs

/-- The precondition's content. -/
structure Decoded (a0 : FVec Ideal S4096x1216 .f32) (a1 : IVec S2x38912 32) (a2 : FVec Ideal S1x1216 .f32)
    (a3 : FVec Ideal S1 .f32) (a4 : FVec Ideal S1216x1 .f32) (a5 : FVec Ideal S1216 .f32) (a6 : FVec Ideal S4 .f32) : Prop where
  x_real : ∀ i, IsReal (a0 i)
  w1_real : ∀ i, IsReal (a2 i)
  b1_real : ∀ i, IsReal (a3 i)
  w2_real : ∀ i, IsReal (a4 i)
  b2_real : ∀ i, IsReal (a5 i)
  tp_real : ∀ i, IsReal (a6 i)
  ei_range : ∀ i, 0 ≤ (a1 i).toInt ∧ (a1 i).toInt < 1216

/-- The scalar shape has one index. -/
instance : Subsingleton S_.Idx := ⟨fun a b => funext fun d => d.elim0⟩

/-- That index. -/
abbrev j0 : S_.Idx := fun d => d.elim0

/-- The pattern with an all-ones exponent and a zero fraction, sign clear, denotes +∞. -/
theorem inf_pattern : Ideal.ofBits .f32 0x7F800000#32 = (⊤ : EReal) := by
  simp [Ideal.ofBits, Ideal.ieee]

/-- An extended real whose absolute value max x (-x) is strictly below +∞ is a real number: −∞ has
    absolute value +∞, and so has +∞. -/
theorem isReal_of_abs_lt_top (x : EReal) (h : Ideal.cmp .olt (max x (-x)) (⊤ : EReal) = 1#1) : IsReal x := by
  simp only [Ideal.cmp, StableHlo.Predicate.ofBool_eq_one_iff, decide_eq_true_eq] at h
  induction x using EReal.rec with
  | bot => simp at h
  | coe r => exact ⟨r, rfl⟩
  | top => simp at h

/-- The signed comparison w ≥ 0, read as a fact about the signed value. -/
theorem sge_zero (w : BitVec 32) (h : IntOp.cmpi .sge w 0#32 = 1#1) : 0 ≤ w.toInt := by
  simp only [IntOp.cmpi, StableHlo.Predicate.ofBool_eq_one_iff, BitVec.sle, decide_eq_true_eq] at h
  simpa using h

/-- The signed comparison w < 1216, read as a fact about the signed value. -/
theorem slt_1216 (w : BitVec 32) (h : IntOp.cmpi .slt w 1216#32 = 1#1) : w.toInt < 1216 := by
  simp only [IntOp.cmpi, StableHlo.Predicate.ofBool_eq_one_iff, BitVec.slt, decide_eq_true_eq] at h
  have e : (1216#32 : BitVec 32).toInt = 1216 := by decide
  rw [e] at h; exact h

/-- The conjunction of two one-bit scalars is 1 exactly when both are. -/
theorem andi_apply_eq_one {s : Shape} (x y : IVec s 1) (i : s.Idx) :
    andi x y i = 1#1 ↔ x i = 1#1 ∧ y i = 1#1 := IntOp.andi_eq_one

/-- One float input's conjunct: if the and-reduction over ALL axes of the elementwise test |x| < +∞ is 1,
    every entry of x is a real number. Stated at any shape and any reduced axis list. -/
theorem all_real {s : Shape} {axes : List (Fin s.rank)} (x : FVec Ideal s .f32)
    (hb : S_.BroadcastsInDim s (![] : Fin 0 → Fin s.rank)) (hr : s.ReducesTo axes S_) (hu : 0 < S_.numel) (init : IVec S_ 1)
    (e : Host.reduce IntOp.andi
        (cmpf .olt (Host.absf x) (broadcastInDim s ![] hb (constant (F := Ideal) S_ .f32 0x7F800000#32))) init hr hu
        j0 = 1#1) :
    ∀ i, IsReal (x i) := by
  intro i
  have hi := Host.reduce_andi_all _ init hr hu j0 e i
  simp only [cmpf, Host.absf, broadcastInDim, constant, Ideal.ofBits_def, inf_pattern] at hi
  exact isReal_of_abs_lt_top (x i) hi

/-- The edge list's lower conjunct: the and-reduction of the elementwise signed test w ≥ 0 being 1 gives
    0 ≤ w at every position. -/
theorem all_sge {s : Shape} {axes : List (Fin s.rank)} (x : IVec s 32)
    (hb : S_.BroadcastsInDim s (![] : Fin 0 → Fin s.rank)) (hr : s.ReducesTo axes S_) (hu : 0 < S_.numel) (init : IVec S_ 1)
    (e : Host.reduce IntOp.andi (cmpi .sge x (broadcastInDim s ![] hb (constantI S_ 32 0#32))) init hr hu
        j0 = 1#1) :
    ∀ i, 0 ≤ (x i).toInt := by
  intro i
  have hi := Host.reduce_andi_all _ init hr hu j0 e i
  simp only [cmpi, broadcastInDim, constantI] at hi
  exact sge_zero (x i) hi

/-- The edge list's upper conjunct: the and-reduction of the elementwise signed test w < 1216 being 1 gives
    w < 1216 at every position. -/
theorem all_slt {s : Shape} {axes : List (Fin s.rank)} (x : IVec s 32)
    (hb : S_.BroadcastsInDim s (![] : Fin 0 → Fin s.rank)) (hr : s.ReducesTo axes S_) (hu : 0 < S_.numel) (init : IVec S_ 1)
    (e : Host.reduce IntOp.andi (cmpi .slt x (broadcastInDim s ![] hb (constantI S_ 32 1216#32))) init hr hu
        j0 = 1#1) :
    ∀ i, (x i).toInt < 1216 := by
  intro i
  have hi := Host.reduce_andi_all _ init hr hu j0 e i
  simp only [cmpi, broadcastInDim, constantI] at hi
  exact slt_1216 (x i) hi

/-- The printed predicate, all ones, gives exactly that. -/
theorem decode [Cert.Pre_finite_inputs.Facts] (a0 : FVec Ideal S4096x1216 .f32) (a1 : IVec S2x38912 32)
    (a2 : FVec Ideal S1x1216 .f32) (a3 : FVec Ideal S1 .f32) (a4 : FVec Ideal S1216x1 .f32) (a5 : FVec Ideal S1216 .f32)
    (a6 : FVec Ideal S4 .f32)
    (h : Cert.Pre_finite_inputs.fn (F := Ideal) a0 a1 a2 a3 a4 a5 a6 = fun _ => 1#1) :
    Decoded a0 a1 a2 a3 a4 a5 a6 := by
  have h0 := congrFun h j0
  dsimp only [fn, fn_part1, fn_part2] at h0
  -- the result is a left-nested conjunction of eight one-bit scalars: peel them off from the outside
  obtain ⟨h0, hlt⟩ := (andi_apply_eq_one _ _ _).1 h0
  obtain ⟨h0, hge⟩ := (andi_apply_eq_one _ _ _).1 h0
  obtain ⟨h0, h6⟩ := (andi_apply_eq_one _ _ _).1 h0
  obtain ⟨h0, h5⟩ := (andi_apply_eq_one _ _ _).1 h0
  obtain ⟨h0, h4⟩ := (andi_apply_eq_one _ _ _).1 h0
  obtain ⟨h0, h3⟩ := (andi_apply_eq_one _ _ _).1 h0
  obtain ⟨h1, h2⟩ := (andi_apply_eq_one _ _ _).1 h0
  exact
    { x_real := all_real a0 _ _ _ _ h1
      w1_real := all_real a2 _ _ _ _ h2
      b1_real := all_real a3 _ _ _ _ h3
      w2_real := all_real a4 _ _ _ _ h4
      b2_real := all_real a5 _ _ _ _ h5
      tp_real := all_real a6 _ _ _ _ h6
      ei_range := fun i => ⟨all_sge a1 _ _ _ _ hge i, all_slt a1 _ _ _ _ hlt i⟩ }

end Cert.PreFacts

end
-- ==== Proof.RefNorm.lean ====
/-
  The reference's edge sources, targets and weights, read entry by entry, on an edge list whose words are node numbers.

  The source vector is the edge list's row 0 followed by 0, 1, …, 1215 (the self loops), the target vector its row 1 followed
  by the same; jnp's wrap of negative indices leaves both as they are.  A node's degree is the number of edges into it, its
  factor dinv the reciprocal square root of that, and an edge's weight the product of its two ends' factors.
-/
import proofs.«411973_j34162169872617_3_alg».proof.Proof.RefRead
import proofs.«411973_j34162169872617_3_alg».proof.Proof.Spec
import proofs.«411973_j34162169872617_3_alg».proof.Proof.LibIdx
import Idealize.ShloMosaic.Lib.Pipeline.Value
import Idealize.ShloMosaic.Lib.ValueIdx
import Idealize.ShloMosaic.Lib.ValueLayout
import Idealize.ShloMosaic.Lib.StableHlo.Predicate
import Idealize.ShloMosaic.PureOps.Ideal.Laws

noncomputable section

namespace Cert.RefNorm

open Idealize.ShloMosaic Idealize.ShloMosaic.ValueIdx Cert.ReferenceIdeal Cert.ReferenceIdeal.Read Cert.Spec

variable (x1 : IVec S2x38912 32)

/-- The slice of the edge list's row 0, flattened, reads the edge list at `(0, e)`. -/
theorem idx_row0 (e : Fin 38912) : idx_main_v12 (idx_main_v13 (ix1 e)) = ix2 (0 : Fin 2) e := by
  funext a
  match a with
  | ⟨0, _⟩ => rfl
  | ⟨1, _⟩ => exact Fin.ext (by show e.val % 38912 = e.val; exact Nat.mod_eq_of_lt e.isLt)

/-- The slice of the edge list's row 1, flattened, reads the edge list at `(1, e)`. -/
theorem idx_row1 (e : Fin 38912) : idx_main_v15 (idx_main_v16 (ix1 e)) = ix2 (1 : Fin 2) e := by
  funext a
  match a with
  | ⟨0, _⟩ => rfl
  | ⟨1, _⟩ => exact Fin.ext (by show e.val % 38912 = e.val; exact Nat.mod_eq_of_lt e.isLt)

/-- A vector made a column reads, at `(e, 0)`, the vector at `e`. -/
theorem idx_col20 (e : Fin 40128) : idx_main_v20 (ix2 e (0 : Fin 1)) = ix1 e := by
  funext a; match a with | ⟨0, _⟩ => rfl
theorem idx_col33 (e : Fin 40128) : idx_main_v33 (ix2 e (0 : Fin 1)) = ix1 e := by
  funext a; match a with | ⟨0, _⟩ => rfl
theorem idx_col40 (e : Fin 40128) : idx_main_v40 (ix2 e (0 : Fin 1)) = ix1 e := by
  funext a; match a with | ⟨0, _⟩ => rfl

/-- The source vector (edge list's row 0, then the self loops), read at edge `e`, is the node `rowOf x1 e`. -/
theorem row_raw (hR : ∀ i, 0 ≤ (x1 i).toInt ∧ (x1 i).toInt < 1216) (e : Fin 40128) :
    (val_main_v14 (F := Ideal) x1 (ix1 e)).toInt = ((rowOf x1 e).val : ℤ) := by
  unfold val_main_v14
  rw [LibIdx.concat2_apply (a := 38912) (b := 1216) (c := 40128) (by norm_num)]
  unfold rowOf
  by_cases h : e.val < 38912
  · rw [dif_pos h, dif_pos h, val_main_v13_apply, val_main_v12_apply, idx_row0]
    have hw := hR (ix2 (0 : Fin 2) ⟨e.val, h⟩)
    simp only [nodeAt]
    omega
  · rw [dif_neg h, dif_neg h, val_main_v11_apply]
    exact StableHlo.Predicate.toInt_ofNat_small (e.val - 38912) (by have := e.isLt; omega)

/-- The target vector, read at edge `e`, is the node `colOf x1 e`. -/
theorem col_raw (hR : ∀ i, 0 ≤ (x1 i).toInt ∧ (x1 i).toInt < 1216) (e : Fin 40128) :
    (val_main_v17 (F := Ideal) x1 (ix1 e)).toInt = ((colOf x1 e).val : ℤ) := by
  unfold val_main_v17
  rw [LibIdx.concat2_apply (a := 38912) (b := 1216) (c := 40128) (by norm_num)]
  unfold colOf
  by_cases h : e.val < 38912
  · rw [dif_pos h, dif_pos h, val_main_v16_apply, val_main_v15_apply, idx_row1]
    have hw := hR (ix2 (1 : Fin 2) ⟨e.val, h⟩)
    simp only [nodeAt]
    omega
  · rw [dif_neg h, dif_neg h, val_main_v11_apply]
    exact StableHlo.Predicate.toInt_ofNat_small (e.val - 38912) (by have := e.isLt; omega)

/-- Every word of the source vector is non-negative. -/
theorem row_nonneg (hR : ∀ i, 0 ≤ (x1 i).toInt ∧ (x1 i).toInt < 1216) (i : S40128.Idx) :
    0 ≤ (val_main_v14 (F := Ideal) x1 i).toInt := by
  obtain ⟨e, rfl⟩ : ∃ e : Fin 40128, i = ix1 e := ⟨i 0, eq_ix1 i⟩
  rw [row_raw x1 hR e]
  exact Int.natCast_nonneg _

/-- Every word of the target vector is non-negative. -/
theorem col_nonneg (hR : ∀ i, 0 ≤ (x1 i).toInt ∧ (x1 i).toInt < 1216) (i : S40128.Idx) :
    0 ≤ (val_main_v17 (F := Ideal) x1 i).toInt := by
  obtain ⟨e, rfl⟩ : ∃ e : Fin 40128, i = ix1 e := ⟨i 0, eq_ix1 i⟩
  rw [col_raw x1 hR e]
  exact Int.natCast_nonneg _

/-- The wrapped copies of the source vector (one per use as a gather's indices) are the source vector. -/
theorem wrap_v32 (hR : ∀ i, 0 ≤ (x1 i).toInt ∧ (x1 i).toInt < 1216) : val_main_v32 (F := Ideal) x1 = val_main_v14 (F := Ideal) x1 := by
  unfold val_main_v32 val_main_v29 val_main_v31
  exact LibIdx.wrap_of_nonneg _ _ _ (fun i => by rw [val_main_v28_apply, val_main_c_apply]) (row_nonneg x1 hR)
theorem wrap_v54 (hR : ∀ i, 0 ≤ (x1 i).toInt ∧ (x1 i).toInt < 1216) : val_main_v54 (F := Ideal) x1 = val_main_v14 (F := Ideal) x1 := by
  unfold val_main_v54 val_main_v51 val_main_v53
  exact LibIdx.wrap_of_nonneg _ _ _ (fun i => by rw [val_main_v50_apply, val_main_c_7_apply]) (row_nonneg x1 hR)
theorem wrap_v72 (hR : ∀ i, 0 ≤ (x1 i).toInt ∧ (x1 i).toInt < 1216) : val_main_v72 (F := Ideal) x1 = val_main_v14 (F := Ideal) x1 := by
  unfold val_main_v72 val_main_v69 val_main_v71
  exact LibIdx.wrap_of_nonneg _ _ _ (fun i => by rw [val_main_v68_apply, val_main_c_10_apply]) (row_nonneg x1 hR)
theorem wrap_v90 (hR : ∀ i, 0 ≤ (x1 i).toInt ∧ (x1 i).toInt < 1216) : val_main_v90 (F := Ideal) x1 = val_main_v14 (F := Ideal) x1 := by
  unfold val_main_v90 val_main_v87 val_main_v89
  exact LibIdx.wrap_of_nonneg _ _ _ (fun i => by rw [val_main_v86_apply, val_main_c_13_apply]) (row_nonneg x1 hR)
/-- The wrapped copy of the target vector is the target vector. -/
theorem wrap_v39 (hR : ∀ i, 0 ≤ (x1 i).toInt ∧ (x1 i).toInt < 1216) : val_main_v39 (F := Ideal) x1 = val_main_v17 (F := Ideal) x1 := by
  unfold val_main_v39 val_main_v36 val_main_v38
  exact LibIdx.wrap_of_nonneg _ _ _ (fun i => by rw [val_main_v35_apply, val_main_c_5_apply]) (col_nonneg x1 hR)

/-- A node's degree: the number of edges into it. -/
theorem deg_eq (hR : ∀ i, 0 ≤ (x1 i).toInt ∧ (x1 i).toInt < 1216) (n : Fin 1216) :
    val_main_v21 (F := Ideal) x1 (ix1 n) = degOf x1 n := by
  unfold val_main_v21 Host.scatterAdd
  rw [Ideal.hostScatterAdd_def,
    LibIdx.scatterAdd_take_of scatter_S1216_S40128x1_S40128_n_0_0_1 rfl rfl rfl rfl
      (val_main_v19 (F := Ideal)) (val_main_v20 (F := Ideal) x1) (val_main_v18 (F := Ideal)) (colOf x1)
      (fun e => by rw [val_main_v20_apply, idx_col20]; exact col_raw x1 hR e) n,
    val_main_v19_apply, val_main_cst_0_apply, Ideal.ofBits_def, Ideal.ofBits_zero_f32, zero_add]
  unfold degOf
  refine Finset.sum_congr rfl (fun e _ => ?_)
  rw [val_main_v18_apply, val_main_cst_apply, Ideal.ofBits_def]

/-- A node's normalising factor. -/
theorem dinv_eq (hR : ∀ i, 0 ≤ (x1 i).toInt ∧ (x1 i).toInt < 1216) (n : Fin 1216) :
    val_main_v27 (F := Ideal) x1 (ix1 n) = dinvOf (degOf x1 n) := by
  rw [val_main_v27_apply, val_main_v23_apply, val_main_v26_apply, val_main_v25_apply, val_main_v22_apply,
    val_main_cst_1_apply, val_main_v24_apply, val_main_cst_2_apply, val_main_call1_v1_apply, val_main_call1_v0_apply,
    val_main_cst_3_apply, deg_eq x1 hR n, Ideal.cmpf_def, Ideal.hostUnary_rsqrt_def, Ideal.maximumf_def]
  rfl

/-- An edge's weight. -/
theorem nrm_eq (hR : ∀ i, 0 ≤ (x1 i).toInt ∧ (x1 i).toInt < 1216) (e : Fin 40128) :
    val_main_v42 (F := Ideal) x1 (ix1 e) = nrmOf x1 e := by
  rw [val_main_v42_apply]
  unfold val_main_v34 val_main_v41
  rw [LibIdx.gather_take_of gather_S1216_S40128x1_S40128_n_0_n_n_0_1_1 rfl rfl rfl rfl
      (val_main_v27 (F := Ideal) x1) (val_main_v33 (F := Ideal) x1) (rowOf x1)
      (fun e' => by rw [val_main_v33_apply, idx_col33, wrap_v32 x1 hR]; exact row_raw x1 hR e') e,
    LibIdx.gather_take_of gather_S1216_S40128x1_S40128_n_0_n_n_0_1_1 rfl rfl rfl rfl
      (val_main_v27 (F := Ideal) x1) (val_main_v40 (F := Ideal) x1) (colOf x1)
      (fun e' => by rw [val_main_v40_apply, idx_col40, wrap_v39 x1 hR]; exact col_raw x1 hR e') e,
    dinv_eq x1 hR, dinv_eq x1 hR, Ideal.mulf_def]
  rfl

end Cert.RefNorm

end
-- ==== Proof.RefHidden.lean ====
/-
  The reference's hidden array, entry by entry: at node n and batch row b it is the start row
  X₀ = relu(x[b]·w₁ + b₁) · w₂ + b₂ and its three propagated images (each a gather of the rows at the edges' sources, scaled by
  the edges' weights and summed at the edges' targets), mixed with the weights tp.
-/
import proofs.«411973_j34162169872617_3_alg».proof.Proof.RefNorm

noncomputable section

namespace Cert.RefHidden

open Idealize.ShloMosaic Idealize.ShloMosaic.ValueIdx Cert.ReferenceIdeal Cert.ReferenceIdeal.Read Cert.Spec
open scoped BigOperators

/-- Two rank-1 indices with the same coordinate, two rank-2 indices with the same coordinates. -/
local macro "idx1" : tactic => `(tactic| exact funext fun a => match a with | ⟨0, _⟩ => rfl)
local macro "idx2" : tactic => `(tactic| exact funext fun a => match a with | ⟨0, _⟩ => rfl | ⟨1, _⟩ => rfl)

/-! ## The mixing weights: entry k of tp, sliced out and reshaped to a scalar -/

/-- The scalar shape has one element. -/
private theorem numel_scalar : S_.numel = 1 := by
  unfold Shape.numel
  exact Finset.prod_empty

/-- A one-element vector reshaped to a scalar is its entry. -/
private theorem reshape_scalar (v : FVec Ideal S1 .f32) (h : S1.ShapeCasts S_) (j : S_.Idx) :
    shapeCast S_ v h j = v (ix1 (0 : Fin 1)) :=
  shapeCast_apply v h j (ix1 (0 : Fin 1)) (by
    rw [Shape.rowMajor_val_one]
    have hl : (S_.rowMajor j).val < 1 := lt_of_lt_of_eq (S_.rowMajor j).isLt numel_scalar
    show 0 = _
    omega)

theorem tp0_eq (x6 : FVec Ideal S4 .f32) (j : S_.Idx) : val_main_v44 (F := Ideal) x6 j = x6 (ix1 (0 : Fin 4)) := by
  unfold val_main_v44
  rw [reshape_scalar, val_main_v43_apply]
  exact congrArg x6 (by idx1)

theorem tp1_eq (x6 : FVec Ideal S4 .f32) (j : S_.Idx) : val_main_v63 (F := Ideal) x6 j = x6 (ix1 (1 : Fin 4)) := by
  unfold val_main_v63
  rw [reshape_scalar, val_main_v62_apply]
  exact congrArg x6 (by idx1)

theorem tp2_eq (x6 : FVec Ideal S4 .f32) (j : S_.Idx) : val_main_v81 (F := Ideal) x6 j = x6 (ix1 (2 : Fin 4)) := by
  unfold val_main_v81
  rw [reshape_scalar, val_main_v80_apply]
  exact congrArg x6 (by idx1)

theorem tp3_eq (x6 : FVec Ideal S4 .f32) (j : S_.Idx) : val_main_v99 (F := Ideal) x6 j = x6 (ix1 (3 : Fin 4)) := by
  unfold val_main_v99
  rw [reshape_scalar, val_main_v98_apply]
  exact congrArg x6 (by idx1)

/-! ## The start row -/

/-- The first layer at batch row `b`: relu(x[b]·w₁ + b₁). -/
theorem h1_eq (x0 : FVec Ideal S4096x1216 .f32) (x2 : FVec Ideal S1x1216 .f32) (x3 : FVec Ideal S1 .f32) (b : Fin 4096) :
    val_main_v5 (F := Ideal) x0 x2 x3 (ix2 b (0 : Fin 1))
      = h1Of (fun j => x0 (ix2 b j)) (fun j => x2 (ix2 (0 : Fin 1) j)) (x3 (ix1 (0 : Fin 1))) := by
  rw [val_main_v5_apply, val_main_v4_apply, val_main_v1_apply, val_main_v3_apply, val_main_v2_apply,
    val_main_call0_v0_apply, val_main_call0_cst_apply, Ideal.maximumf_def, Ideal.addf_def, Ideal.ofBits_def]
  unfold h1Of
  have hs : ∀ k : Fin 1216, x0 (lidx_main_v1 (ix2 b (0 : Fin 1)) k) * val_main_v0 (F := Ideal) x2 (ridx_main_v1 (ix2 b (0 : Fin 1)) k)
      = x0 (ix2 b k) * x2 (ix2 (0 : Fin 1) k) := fun k => by
    rw [val_main_v0_apply]
    have e1 : lidx_main_v1 (ix2 b (0 : Fin 1)) k = ix2 b k := by idx2
    have e2 : idx_main_v0 (ridx_main_v1 (ix2 b (0 : Fin 1)) k) = ix2 (0 : Fin 1) k := by idx2
    rw [e1, e2]
  have e3 : idx_main_v2 (idx_main_v3 (ix2 b (0 : Fin 1))) = ix1 (0 : Fin 1) := by idx1
  rw [Finset.sum_congr rfl fun k _ => hs k, e3]

/-- The start row at batch row `b`, node `n`: h · w₂ n + b₂ n. -/
theorem start_eq (x0 : FVec Ideal S4096x1216 .f32) (x2 : FVec Ideal S1x1216 .f32) (x3 : FVec Ideal S1 .f32)
    (x4 : FVec Ideal S1216x1 .f32) (x5 : FVec Ideal S1216 .f32) (b : Fin 4096) (n : Fin 1216) :
    val_main_v10 (F := Ideal) x0 x2 x3 x4 x5 (ix2 b n)
      = h1Of (fun j => x0 (ix2 b j)) (fun j => x2 (ix2 (0 : Fin 1) j)) (x3 (ix1 (0 : Fin 1))) * x4 (ix2 n (0 : Fin 1))
        + x5 (ix1 n) := by
  rw [val_main_v10_apply, val_main_v7_apply, val_main_v9_apply, val_main_v8_apply, Ideal.addf_def, Fin.sum_univ_one,
    val_main_v6_apply]
  have e1 : lidx_main_v7 (ix2 b n) (0 : Fin 1) = ix2 b (0 : Fin 1) := by idx2
  have e2 : idx_main_v6 (ridx_main_v7 (ix2 b n) (0 : Fin 1)) = ix2 n (0 : Fin 1) := by idx2
  have e3 : idx_main_v8 (idx_main_v9 (ix2 b n)) = ix1 n := by idx1
  rw [e1, e2, e3, h1_eq]

/-- The start row transposed. -/
theorem startT_eq (x0 : FVec Ideal S4096x1216 .f32) (x2 : FVec Ideal S1x1216 .f32) (x3 : FVec Ideal S1 .f32)
    (x4 : FVec Ideal S1216x1 .f32) (x5 : FVec Ideal S1216 .f32) (n : Fin 1216) (b : Fin 4096) :
    val_main_v48 (F := Ideal) x0 x2 x3 x4 x5 (ix2 n b)
      = h1Of (fun j => x0 (ix2 b j)) (fun j => x2 (ix2 (0 : Fin 1) j)) (x3 (ix1 (0 : Fin 1))) * x4 (ix2 n (0 : Fin 1))
        + x5 (ix1 n) := by
  rw [val_main_v48_apply]
  have e1 : idx_main_v48 (ix2 n b) = ix2 b n := by idx2
  rw [e1, start_eq]

/-- The start row scaled by tp 0, transposed. -/
theorem mix0_eq (x0 : FVec Ideal S4096x1216 .f32) (x2 : FVec Ideal S1x1216 .f32) (x3 : FVec Ideal S1 .f32)
    (x4 : FVec Ideal S1216x1 .f32) (x5 : FVec Ideal S1216 .f32) (x6 : FVec Ideal S4 .f32) (n : Fin 1216) (b : Fin 4096) :
    val_main_v47 (F := Ideal) x0 x2 x3 x4 x5 x6 (ix2 n b)
      = (h1Of (fun j => x0 (ix2 b j)) (fun j => x2 (ix2 (0 : Fin 1) j)) (x3 (ix1 (0 : Fin 1))) * x4 (ix2 n (0 : Fin 1))
        + x5 (ix1 n)) * x6 (ix1 (0 : Fin 4)) := by
  rw [val_main_v47_apply]
  have e1 : idx_main_v47 (ix2 n b) = ix2 b n := by idx2
  rw [e1, val_main_v46_apply, val_main_v45_apply, tp0_eq, start_eq, Ideal.mulf_def]

/-! ## One propagation step -/

/-- Rows of a table gathered at the edges' sources, scaled by the edges' weights and summed at the edges' targets into a
    table of zeros: at node `n`, column `b`, one propagation step of the table's column `b`. -/
theorem hop_stage (x1 : IVec S2x38912 32)
    (ds : ScatterDims S1216x4096 S40128x1 S40128x4096)
    (huw : ds.updateWindowDims = [1]) (hiw : ds.insertedWindowDims = [0])
    (hsd : ds.scatterDimsToOperandDims = [0]) (hivd : ds.indexVectorDim = 1)
    (dg : GatherDims S1216x4096 S40128x1 S40128x4096)
    (hoff : dg.offsetDims = [1]) (hcoll : dg.collapsedSliceDims = [0]) (hob : dg.operandBatchingDims = [])
    (hsim : dg.startIndexMap = [0]) (hgivd : dg.indexVectorDim = 1)
    (T z : FVec Ideal S1216x4096 .f32) (gi si : IVec S40128x1 32) (wt : FVec Ideal S40128x4096 .f32)
    (hgi : ∀ e : Fin 40128, (gi (ix2 e (0 : Fin 1))).toInt = ((rowOf x1 e).val : ℤ))
    (hsi : ∀ e : Fin 40128, (si (ix2 e (0 : Fin 1))).toInt = ((colOf x1 e).val : ℤ))
    (hwt : ∀ (e : Fin 40128) (q : Fin 4096), wt (ix2 e q) = nrmOf x1 e)
    (hz : ∀ i, z i = 0) (n : Fin 1216) (b : Fin 4096) :
    Host.scatterAdd ds z si (mulf wt (Host.gather dg T gi)) (ix2 n b) = hop x1 (fun k => T (ix2 k b)) n := by
  unfold Host.scatterAdd
  rw [Ideal.hostScatterAdd_def]
  rw [Cert.LibIdx.scatterAdd_rows_of ds huw hiw hsd hivd z si _ (colOf x1) hsi n b, hz, zero_add]
  unfold hop
  refine Finset.sum_congr rfl fun e _ => ?_
  rw [mulf_apply, hwt, Cert.LibIdx.gather_rows_of dg hoff hcoll hob hsim hgivd T gi (rowOf x1) hgi e b]

section Hops

variable (x0 : FVec Ideal S4096x1216 .f32) (x1 : IVec S2x38912 32) (x2 : FVec Ideal S1x1216 .f32)
  (x3 : FVec Ideal S1 .f32) (x4 : FVec Ideal S1216x1 .f32) (x5 : FVec Ideal S1216 .f32)
  (hR : ∀ i, 0 ≤ (x1 i).toInt ∧ (x1 i).toInt < 1216)

include hR

/-- The target column: edge `e`'s word names the node `colOf x1 e`. -/
theorem tgt1 (e : Fin 40128) : (val_main_v60 (F := Ideal) x1 (ix2 e (0 : Fin 1))).toInt = ((colOf x1 e).val : ℤ) := by
  rw [val_main_v60_apply]
  have e1 : idx_main_v60 (ix2 e (0 : Fin 1)) = ix1 e := by idx1
  rw [e1]; exact Cert.RefNorm.col_raw x1 hR e
theorem tgt2 (e : Fin 40128) : (val_main_v78 (F := Ideal) x1 (ix2 e (0 : Fin 1))).toInt = ((colOf x1 e).val : ℤ) := by
  rw [val_main_v78_apply]
  have e1 : idx_main_v78 (ix2 e (0 : Fin 1)) = ix1 e := by idx1
  rw [e1]; exact Cert.RefNorm.col_raw x1 hR e
theorem tgt3 (e : Fin 40128) : (val_main_v96 (F := Ideal) x1 (ix2 e (0 : Fin 1))).toInt = ((colOf x1 e).val : ℤ) := by
  rw [val_main_v96_apply]
  have e1 : idx_main_v96 (ix2 e (0 : Fin 1)) = ix1 e := by idx1
  rw [e1]; exact Cert.RefNorm.col_raw x1 hR e

/-- The source column (wrapped): edge `e`'s word names the node `rowOf x1 e`. -/
theorem src1 (e : Fin 40128) : (val_main_v55 (F := Ideal) x1 (ix2 e (0 : Fin 1))).toInt = ((rowOf x1 e).val : ℤ) := by
  rw [val_main_v55_apply, Cert.RefNorm.wrap_v54 x1 hR]
  have e1 : idx_main_v55 (ix2 e (0 : Fin 1)) = ix1 e := by idx1
  rw [e1]; exact Cert.RefNorm.row_raw x1 hR e
theorem src2 (e : Fin 40128) : (val_main_v73 (F := Ideal) x1 (ix2 e (0 : Fin 1))).toInt = ((rowOf x1 e).val : ℤ) := by
  rw [val_main_v73_apply, Cert.RefNorm.wrap_v72 x1 hR]
  have e1 : idx_main_v73 (ix2 e (0 : Fin 1)) = ix1 e := by idx1
  rw [e1]; exact Cert.RefNorm.row_raw x1 hR e
theorem src3 (e : Fin 40128) : (val_main_v91 (F := Ideal) x1 (ix2 e (0 : Fin 1))).toInt = ((rowOf x1 e).val : ℤ) := by
  rw [val_main_v91_apply, Cert.RefNorm.wrap_v90 x1 hR]
  have e1 : idx_main_v91 (ix2 e (0 : Fin 1)) = ix1 e := by idx1
  rw [e1]; exact Cert.RefNorm.row_raw x1 hR e

/-- The weights broadcast along the rows: at `(e, q)` the weight of edge `e`. -/
theorem wt1 (e : Fin 40128) (q : Fin 4096) : val_main_v57 (F := Ideal) x1 (ix2 e q) = nrmOf x1 e := by
  rw [val_main_v57_apply, val_main_v49_apply]
  have e1 : idx_main_v49 (idx_main_v57 (ix2 e q)) = ix1 e := by idx1
  rw [e1]; exact Cert.RefNorm.nrm_eq x1 hR e
theorem wt2 (e : Fin 40128) (q : Fin 4096) : val_main_v75 (F := Ideal) x1 (ix2 e q) = nrmOf x1 e := by
  rw [val_main_v75_apply, val_main_v67_apply]
  have e1 : idx_main_v67 (idx_main_v75 (ix2 e q)) = ix1 e := by idx1
  rw [e1]; exact Cert.RefNorm.nrm_eq x1 hR e
theorem wt3 (e : Fin 40128) (q : Fin 4096) : val_main_v93 (F := Ideal) x1 (ix2 e q) = nrmOf x1 e := by
  rw [val_main_v93_apply, val_main_v85_apply]
  have e1 : idx_main_v85 (idx_main_v93 (ix2 e q)) = ix1 e := by idx1
  rw [e1]; exact Cert.RefNorm.nrm_eq x1 hR e

omit hR in
/-- The tables of zeros the sums start from. -/
theorem zero1 (i : S1216x4096.Idx) : val_main_v59 (F := Ideal) i = 0 := by
  rw [val_main_v59_apply, val_main_cst_9_apply, Ideal.ofBits_def, Ideal.ofBits_zero_f32]
omit hR in
theorem zero2 (i : S1216x4096.Idx) : val_main_v77 (F := Ideal) i = 0 := by
  rw [val_main_v77_apply, val_main_cst_12_apply, Ideal.ofBits_def, Ideal.ofBits_zero_f32]
omit hR in
theorem zero3 (i : S1216x4096.Idx) : val_main_v95 (F := Ideal) i = 0 := by
  rw [val_main_v95_apply, val_main_cst_15_apply, Ideal.ofBits_def, Ideal.ofBits_zero_f32]

/-- The first propagated image: one step on the start row. -/
theorem hop1_eq (n : Fin 1216) (b : Fin 4096) :
    val_main_v61 (F := Ideal) x0 x1 x2 x3 x4 x5 (ix2 n b)
      = hop x1 (fun k => val_main_v48 (F := Ideal) x0 x2 x3 x4 x5 (ix2 k b)) n := by
  unfold val_main_v61 val_main_v58 val_main_v56
  exact hop_stage x1 scatter_S1216x4096_S40128x1_S40128x4096_1_0_0_1 rfl rfl rfl rfl gather_S1216x4096_S40128x1_S40128x4096_1_0_n_n_0_1_14096 rfl rfl rfl rfl rfl
    (val_main_v48 (F := Ideal) x0 x2 x3 x4 x5) (val_main_v59 (F := Ideal)) (val_main_v55 (F := Ideal) x1)
    (val_main_v60 (F := Ideal) x1) (val_main_v57 (F := Ideal) x1) (src1 x1 hR) (tgt1 x1 hR) (wt1 x1 hR) zero1 n b

/-- The second: one step on the first. -/
theorem hop2_eq (n : Fin 1216) (b : Fin 4096) :
    val_main_v79 (F := Ideal) x0 x1 x2 x3 x4 x5 (ix2 n b)
      = hop x1 (fun k => val_main_v61 (F := Ideal) x0 x1 x2 x3 x4 x5 (ix2 k b)) n := by
  unfold val_main_v79 val_main_v76 val_main_v74
  exact hop_stage x1 scatter_S1216x4096_S40128x1_S40128x4096_1_0_0_1 rfl rfl rfl rfl gather_S1216x4096_S40128x1_S40128x4096_1_0_n_n_0_1_14096 rfl rfl rfl rfl rfl
    (val_main_v61 (F := Ideal) x0 x1 x2 x3 x4 x5) (val_main_v77 (F := Ideal)) (val_main_v73 (F := Ideal) x1)
    (val_main_v78 (F := Ideal) x1) (val_main_v75 (F := Ideal) x1) (src2 x1 hR) (tgt2 x1 hR) (wt2 x1 hR) zero2 n b

/-- The third: one step on the second. -/
theorem hop3_eq (n : Fin 1216) (b : Fin 4096) :
    val_main_v97 (F := Ideal) x0 x1 x2 x3 x4 x5 (ix2 n b)
      = hop x1 (fun k => val_main_v79 (F := Ideal) x0 x1 x2 x3 x4 x5 (ix2 k b)) n := by
  unfold val_main_v97 val_main_v94 val_main_v92
  exact hop_stage x1 scatter_S1216x4096_S40128x1_S40128x4096_1_0_0_1 rfl rfl rfl rfl gather_S1216x4096_S40128x1_S40128x4096_1_0_n_n_0_1_14096 rfl rfl rfl rfl rfl
    (val_main_v79 (F := Ideal) x0 x1 x2 x3 x4 x5) (val_main_v95 (F := Ideal)) (val_main_v91 (F := Ideal) x1)
    (val_main_v96 (F := Ideal) x1) (val_main_v93 (F := Ideal) x1) (src3 x1 hR) (tgt3 x1 hR) (wt3 x1 hR) zero3 n b

end Hops

/-- The hidden array at node `n`, batch row `b`. -/
theorem hidden_eq (x0 : FVec Ideal S4096x1216 .f32) (x1 : IVec S2x38912 32) (x2 : FVec Ideal S1x1216 .f32)
    (x3 : FVec Ideal S1 .f32) (x4 : FVec Ideal S1216x1 .f32) (x5 : FVec Ideal S1216 .f32) (x6 : FVec Ideal S4 .f32)
    (hR : ∀ i, 0 ≤ (x1 i).toInt ∧ (x1 i).toInt < 1216) (n : Fin 1216) (b : Fin 4096) :
    val_main_v102 (F := Ideal) x0 x1 x2 x3 x4 x5 x6 (ix2 n b)
      = hidR x1 (fun k => x6 (ix1 k)) (fun k => x4 (ix2 k (0 : Fin 1))) (fun k => x5 (ix1 k))
          (h1Of (fun j => x0 (ix2 b j)) (fun j => x2 (ix2 (0 : Fin 1) j)) (x3 (ix1 (0 : Fin 1)))) n := by
  have hX : (fun k => val_main_v48 (F := Ideal) x0 x2 x3 x4 x5 (ix2 k b))
      = fun k => h1Of (fun j => x0 (ix2 b j)) (fun j => x2 (ix2 (0 : Fin 1) j)) (x3 (ix1 (0 : Fin 1))) * x4 (ix2 k (0 : Fin 1))
          + x5 (ix1 k) := funext fun k => startT_eq x0 x2 x3 x4 x5 k b
  have h1 : (fun k => val_main_v61 (F := Ideal) x0 x1 x2 x3 x4 x5 (ix2 k b))
      = hop x1 (fun k => val_main_v48 (F := Ideal) x0 x2 x3 x4 x5 (ix2 k b)) :=
    funext fun k => hop1_eq x0 x1 x2 x3 x4 x5 hR k b
  have h2 : (fun k => val_main_v79 (F := Ideal) x0 x1 x2 x3 x4 x5 (ix2 k b))
      = hop x1 (fun k => val_main_v61 (F := Ideal) x0 x1 x2 x3 x4 x5 (ix2 k b)) :=
    funext fun k => hop2_eq x0 x1 x2 x3 x4 x5 hR k b
  unfold hidR
  rw [val_main_v102_apply, val_main_v84_apply, val_main_v66_apply, val_main_v65_apply, val_main_v83_apply,
    val_main_v101_apply, val_main_v64_apply, val_main_v82_apply, val_main_v100_apply, tp1_eq, tp2_eq, tp3_eq,
    mix0_eq, hop3_eq x0 x1 x2 x3 x4 x5 hR n b, hop2_eq x0 x1 x2 x3 x4 x5 hR n b, hop1_eq x0 x1 x2 x3 x4 x5 hR n b,
    h2, h1, hX]
  simp only [Ideal.addf_def, Ideal.mulf_def]

end Cert.RefHidden

end
-- ==== Proof.RefSoftmax.lean ====
/-
  The reference's result from its hidden array: the hidden array transposed to batch-major, cut into 19 groups of 64, and
  log-softmaxed over each group — the maximum folded from −∞, the shifted row, the logarithm of the sum of its exponentials.
-/
import proofs.«411973_j34162169872617_3_alg».proof.Proof.RefRead
import proofs.«411973_j34162169872617_3_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.RefSoftmax

open Idealize.ShloMosaic Idealize.ShloMosaic.ValueIdx Cert.ReferenceIdeal Cert.ReferenceIdeal.Read Cert.Spec
open scoped BigOperators

/-- The word of −∞ is the least extended real. -/
theorem ninf_eq_bot : Ideal.ofBits .f32 0xFF800000#32 = (⊥ : EReal) := by
  simp [Ideal.ofBits, Ideal.ieee]

/-- The reduced index (b, 0, g) with coordinate `k` put back on the last axis is (b, 0, g, k). -/
theorem lift_eq (h : S4096x1x19x64.Reduces [3] S4096x1x19) (b : Fin 4096) (g : Fin 19) (k : Fin (S4096x1x19x64.size 3)) :
    h.lift (ix3 b (0 : Fin 1) g) k = ix4 b (0 : Fin 1) g (⟨k.val, k.isLt⟩ : Fin 64) := by
  funext c; apply Fin.ext
  match c with
  | ⟨0, _⟩ => rfl
  | ⟨1, _⟩ => rfl
  | ⟨2, _⟩ => rfl
  | ⟨3, _⟩ => rfl

/-- Row-major: entry (b, 0, g, l) of the [4096, 1, 19, 64] array is entry (b, 64 g + l) of the [4096, 1216] one. -/
theorem lane_arith (b : Fin 4096) (g : Fin 19) (l : Fin 64) :
    (((b.val * 1 + ((0 : Fin 1) : Nat)) * 19 + g.val) * 64 + l.val) % 1216 = 64 * g.val + l.val
    ∧ (((b.val * 1 + ((0 : Fin 1) : Nat)) * 19 + g.val) * 64 + l.val) / 1216 = b.val := by
  have hb := b.isLt; have hg := g.isLt; have hl := l.isLt
  have h0 : ((0 : Fin 1) : Nat) = 0 := rfl
  rw [h0]
  constructor <;> omega

/-- The reshaped array at (b, 0, g, l) is the hidden array at (node 64 g + l, b). -/
theorem v104_eq (x0 : FVec Ideal S4096x1216 .f32) (x1 : IVec S2x38912 32) (x2 : FVec Ideal S1x1216 .f32)
    (x3 : FVec Ideal S1 .f32) (x4 : FVec Ideal S1216x1 .f32) (x5 : FVec Ideal S1216 .f32) (x6 : FVec Ideal S4 .f32)
    (b : Fin 4096) (g : Fin 19) (l : Fin 64) :
    val_main_v104 (F := Ideal) x0 x1 x2 x3 x4 x5 x6 (ix4 b (0 : Fin 1) g l)
      = val_main_v102 (F := Ideal) x0 x1 x2 x3 x4 x5 x6 (ix2 (lane g l) b) := by
  rw [val_main_v104_apply, val_main_v103_apply]
  generalize val_main_v102 (F := Ideal) x0 x1 x2 x3 x4 x5 x6 = H
  refine congrArg H (funext fun a => Fin.ext ?_)
  match a with
  | ⟨0, _⟩ => exact (lane_arith b g l).1
  | ⟨1, _⟩ => exact (lane_arith b g l).2

/-- The maximum-reduce over a group is the fold of the hidden row's 64 lanes from −∞. -/
theorem call2_v0_eq (x0 : FVec Ideal S4096x1216 .f32) (x1 : IVec S2x38912 32) (x2 : FVec Ideal S1x1216 .f32)
    (x3 : FVec Ideal S1 .f32) (x4 : FVec Ideal S1216x1 .f32) (x5 : FVec Ideal S1216 .f32) (x6 : FVec Ideal S4 .f32)
    (b : Fin 4096) (g : Fin 19) :
    val_main_call2_v0 (F := Ideal) x0 x1 x2 x3 x4 x5 x6 (ix3 b (0 : Fin 1) g)
      = gmax (fun n => val_main_v102 (F := Ideal) x0 x1 x2 x3 x4 x5 x6 (ix2 n b)) g := by
  have h : S4096x1x19x64.Reduces [3] S4096x1x19 := by decide
  unfold val_main_call2_v0
  rw [Host.reduce_eq_fold_single FloatOps.maximumf _ _ _ h]
  have hf : (val_main_v104 (F := Ideal) x0 x1 x2 x3 x4 x5 x6 ∘ h.lift (ix3 b (0 : Fin 1) g))
      = fun l : Fin 64 => val_main_v102 (F := Ideal) x0 x1 x2 x3 x4 x5 x6 (ix2 (lane g l) b) :=
    funext fun k => by
      show val_main_v104 (F := Ideal) x0 x1 x2 x3 x4 x5 x6 (h.lift (ix3 b (0 : Fin 1) g) k) = _
      rw [lift_eq h b g k]
      exact v104_eq x0 x1 x2 x3 x4 x5 x6 b g ⟨k.val, k.isLt⟩
  unfold gmax
  exact congrArg (fun f => Finset.fold max (Ideal.ofBits .f32 0xFF800000#32) f (Finset.univ : Finset (Fin 64))) hf

/-- The maximum against −∞ changes nothing. -/
theorem call2_v2_eq (x0 : FVec Ideal S4096x1216 .f32) (x1 : IVec S2x38912 32) (x2 : FVec Ideal S1x1216 .f32)
    (x3 : FVec Ideal S1 .f32) (x4 : FVec Ideal S1216x1 .f32) (x5 : FVec Ideal S1216 .f32) (x6 : FVec Ideal S4 .f32)
    (b : Fin 4096) (g : Fin 19) :
    val_main_call2_v2 (F := Ideal) x0 x1 x2 x3 x4 x5 x6 (ix3 b (0 : Fin 1) g)
      = gmax (fun n => val_main_v102 (F := Ideal) x0 x1 x2 x3 x4 x5 x6 (ix2 n b)) g := by
  rw [val_main_call2_v2_apply, val_main_call2_v1_apply, val_main_call2_cst_0_apply, call2_v0_eq,
    Ideal.maximumf_def, Ideal.ofBits_def, ninf_eq_bot]
  exact max_eq_right bot_le

/-- The group's maximum broadcast back over the lanes. -/
theorem call2_v4_eq (x0 : FVec Ideal S4096x1216 .f32) (x1 : IVec S2x38912 32) (x2 : FVec Ideal S1x1216 .f32)
    (x3 : FVec Ideal S1 .f32) (x4 : FVec Ideal S1216x1 .f32) (x5 : FVec Ideal S1216 .f32) (x6 : FVec Ideal S4 .f32)
    (b : Fin 4096) (g : Fin 19) (l : Fin 64) :
    val_main_call2_v4 (F := Ideal) x0 x1 x2 x3 x4 x5 x6 (ix4 b (0 : Fin 1) g l)
      = gmax (fun n => val_main_v102 (F := Ideal) x0 x1 x2 x3 x4 x5 x6 (ix2 n b)) g := by
  rw [val_main_call2_v4_apply, val_main_call2_v3_apply]
  have e : idx_main_call2_v3 (idx_main_call2_v4 (ix4 b (0 : Fin 1) g l)) = ix3 b (0 : Fin 1) g := by
    funext a
    match a with
    | ⟨0, _⟩ => rfl
    | ⟨1, _⟩ => rfl
    | ⟨2, _⟩ => rfl
  rw [e, call2_v2_eq]

/-- The shifted row. -/
theorem call2_v5_eq (x0 : FVec Ideal S4096x1216 .f32) (x1 : IVec S2x38912 32) (x2 : FVec Ideal S1x1216 .f32)
    (x3 : FVec Ideal S1 .f32) (x4 : FVec Ideal S1216x1 .f32) (x5 : FVec Ideal S1216 .f32) (x6 : FVec Ideal S4 .f32)
    (b : Fin 4096) (g : Fin 19) (l : Fin 64) :
    val_main_call2_v5 (F := Ideal) x0 x1 x2 x3 x4 x5 x6 (ix4 b (0 : Fin 1) g l)
      = val_main_v102 (F := Ideal) x0 x1 x2 x3 x4 x5 x6 (ix2 (lane g l) b)
        - gmax (fun n => val_main_v102 (F := Ideal) x0 x1 x2 x3 x4 x5 x6 (ix2 n b)) g := by
  rw [val_main_call2_v5_apply, v104_eq, call2_v4_eq, Ideal.subf_def]

/-- The sum of the shifted row's exponentials. -/
theorem call2_v7_eq (x0 : FVec Ideal S4096x1216 .f32) (x1 : IVec S2x38912 32) (x2 : FVec Ideal S1x1216 .f32)
    (x3 : FVec Ideal S1 .f32) (x4 : FVec Ideal S1216x1 .f32) (x5 : FVec Ideal S1216 .f32) (x6 : FVec Ideal S4 .f32)
    (b : Fin 4096) (g : Fin 19) :
    val_main_call2_v7 (F := Ideal) x0 x1 x2 x3 x4 x5 x6 (ix3 b (0 : Fin 1) g)
      = ∑ l' : Fin 64, Ideal.exp (val_main_v102 (F := Ideal) x0 x1 x2 x3 x4 x5 x6 (ix2 (lane g l') b)
          - gmax (fun n => val_main_v102 (F := Ideal) x0 x1 x2 x3 x4 x5 x6 (ix2 n b)) g) := by
  rw [val_main_call2_v7_apply, val_main_call2_cst_1_apply, Ideal.ofBits_def, Ideal.ofBits_zero_f32, zero_add]
  refine Finset.sum_congr rfl fun k _ => ?_
  have e : idx_main_call2_v7 (ix3 b (0 : Fin 1) g) k = ix4 b (0 : Fin 1) g k := by
    funext a
    match a with
    | ⟨0, _⟩ => rfl
    | ⟨1, _⟩ => rfl
    | ⟨2, _⟩ => rfl
    | ⟨3, _⟩ => rfl
  rw [e, val_main_call2_v6_apply, call2_v5_eq, Ideal.hostUnary_exp_def]

/-- The logarithm of that sum, broadcast back over the lanes. -/
theorem call2_v10_eq (x0 : FVec Ideal S4096x1216 .f32) (x1 : IVec S2x38912 32) (x2 : FVec Ideal S1x1216 .f32)
    (x3 : FVec Ideal S1 .f32) (x4 : FVec Ideal S1216x1 .f32) (x5 : FVec Ideal S1216 .f32) (x6 : FVec Ideal S4 .f32)
    (b : Fin 4096) (g : Fin 19) (l : Fin 64) :
    val_main_call2_v10 (F := Ideal) x0 x1 x2 x3 x4 x5 x6 (ix4 b (0 : Fin 1) g l)
      = Ideal.log (∑ l' : Fin 64, Ideal.exp (val_main_v102 (F := Ideal) x0 x1 x2 x3 x4 x5 x6 (ix2 (lane g l') b)
          - gmax (fun n => val_main_v102 (F := Ideal) x0 x1 x2 x3 x4 x5 x6 (ix2 n b)) g)) := by
  rw [val_main_call2_v10_apply, val_main_call2_v9_apply, val_main_call2_v8_apply]
  have e : idx_main_call2_v8 (idx_main_call2_v10 (ix4 b (0 : Fin 1) g l)) = ix3 b (0 : Fin 1) g := by
    funext a
    match a with
    | ⟨0, _⟩ => rfl
    | ⟨1, _⟩ => rfl
    | ⟨2, _⟩ => rfl
  rw [e, call2_v7_eq, Ideal.hostUnary_log_def]

/-- The result at batch row `b`, group `g`, lane `l`. -/
theorem softmax_eq (x0 : FVec Ideal S4096x1216 .f32) (x1 : IVec S2x38912 32) (x2 : FVec Ideal S1x1216 .f32)
    (x3 : FVec Ideal S1 .f32) (x4 : FVec Ideal S1216x1 .f32) (x5 : FVec Ideal S1216 .f32) (x6 : FVec Ideal S4 .f32)
    (b : Fin 4096) (g : Fin 19) (l : Fin 64) :
    val_main_v105 (F := Ideal) x0 x1 x2 x3 x4 x5 x6 (ix4 b (0 : Fin 1) g l)
      = lsm (fun n => val_main_v102 (F := Ideal) x0 x1 x2 x3 x4 x5 x6 (ix2 n b)) g l := by
  rw [val_main_v105_apply, call2_v5_eq, call2_v10_eq, Ideal.subf_def]
  unfold lsm
  rfl

end Cert.RefSoftmax

end
-- ==== Proof.Bridge.lean ====
/-
  The two results are one function of the arguments.

  At batch row b, group g, lane l the reference's result is the log-softmax of its propagated hidden row, the kernel's the
  log-softmax of  relu(x[b]·w₁ + b₁) · V + C  with V, C the mixes of w₂ and b₂ through the adjacency matrix.  On real data
  (the precondition) the two hidden rows are equal entry by entry — a propagation step is linear — so their log-softmaxes are.
-/
import proofs.«411973_j34162169872617_3_alg».proof.Proof.SpecAlg
import proofs.«411973_j34162169872617_3_alg».proof.Proof.PreFacts
import proofs.«411973_j34162169872617_3_alg».proof.Proof.RefHidden
import proofs.«411973_j34162169872617_3_alg».proof.Proof.RefSoftmax

noncomputable section

namespace Cert.Bridge

open Idealize.ShloMosaic Idealize.ShloMosaic.ValueIdx Cert.LibReal Cert.Spec
open Cert.ReferenceIdeal Cert.ReferenceIdeal.Read

/-- The reference's result at (b, 0, g, l) is the log-softmax of the kernel's hidden row, given the kernel's three computed
    arrays: the bias laid out 1 × 1 (`b1a`), and the mixes of w₂ and b₂ laid out as rows (`va`, `ca`). -/
theorem result_entry (x0 : FVec Ideal S4096x1216 .f32) (x1 : IVec S2x38912 32) (x2 : FVec Ideal S1x1216 .f32)
    (x3 : FVec Ideal S1 .f32) (x4 : FVec Ideal S1216x1 .f32) (x5 : FVec Ideal S1216 .f32) (x6 : FVec Ideal S4 .f32)
    (hD : Cert.PreFacts.Decoded x0 x1 x2 x3 x4 x5 x6)
    (b1a : FVec Ideal S1x1 .f32) (va ca : FVec Ideal S1x1216 .f32)
    (hb : b1a (ix2 (0 : Fin 1) (0 : Fin 1)) = x3 (ix1 (0 : Fin 1)))
    (hv : ∀ n : Fin 1216, va (ix2 (0 : Fin 1) n) = mix x1 (fun k => x6 (ix1 k)) (fun k => x4 (ix2 k (0 : Fin 1))) n)
    (hc : ∀ n : Fin 1216, ca (ix2 (0 : Fin 1) n) = mix x1 (fun k => x6 (ix1 k)) (fun k => x5 (ix1 k)) n)
    (b : Fin 4096) (g : Fin 19) (l : Fin 64) :
    val_main_v105 (F := Ideal) x0 x1 x2 x3 x4 x5 x6 (ix4 b (0 : Fin 1) g l)
      = lsm (fun k => h1Of (fun j => x0 (ix2 b j)) (fun j => x2 (ix2 (0 : Fin 1) j)) (b1a (ix2 (0 : Fin 1) (0 : Fin 1)))
                        * va (ix2 (0 : Fin 1) k) + ca (ix2 (0 : Fin 1) k)) g l := by
  rw [Cert.RefSoftmax.softmax_eq]
  congr 1
  funext n
  rw [Cert.RefHidden.hidden_eq x0 x1 x2 x3 x4 x5 x6 hD.ei_range n b, hb, hv n, hc n]
  -- the first layer's value at row b is real: a finite sum of products of reals, plus a real, against zero
  have hh : IsReal (h1Of (fun j => x0 (ix2 b j)) (fun j => x2 (ix2 (0 : Fin 1) j)) (x3 (ix1 (0 : Fin 1)))) := by
    unfold h1Of
    refine IsReal.max (IsReal.add (IsReal.sum _ _ fun j _ => IsReal.mul (hD.x_real _) (hD.w1_real _)) (hD.b1_real _)) ?_
    rw [Ideal.ofBits_zero_f32]; exact IsReal.zero
  exact (hidK_eq_hidR x1 (fun k => x6 (ix1 k)) (fun k => x4 (ix2 k (0 : Fin 1))) (fun k => x5 (ix1 k)) _
    (fun k => hD.tp_real _) (fun k => hD.w2_real _) (fun k => hD.b2_real _) hh n).symm

end Cert.Bridge

end
-- ==== Proof.lean ====
/-
  The certificate of `Cert.Claim`: the kernel (a rank-one collapse of a three-step graph propagation, fused with a
  grouped log-softmax) against its reference, over the extended reals, on finite float inputs and an edge list whose
  words are node numbers.

  The three frames: the kernel's at both instances by its generated frame certificate, the reference's by its run.
  `preserves` has no entry.  `algebraic`: the kernel's run read as one function of the arguments (the region's blocks tile
  the output; the host code before the region builds the adjacency matrix and the two mixed vectors), the reference's run
  read one operation at a time (gathers and segment sums over the edges), and the two are one function because a
  propagation step is linear on real data.
-/
import proofs.«411973_j34162169872617_3_alg».proof.Defs
import proofs.«411973_j34162169872617_3_alg».proof.Proof.Gen.Kernel
import proofs.«411973_j34162169872617_3_alg».proof.Proof.Gen.Kernel.Skeleton
import proofs.«411973_j34162169872617_3_alg».proof.Proof.Gen.Kernel.Launch
import proofs.«411973_j34162169872617_3_alg».proof.Proof.Gen.Kernel.Points
import proofs.«411973_j34162169872617_3_alg».proof.Proof.Gen.Kernel.Frame
import proofs.«411973_j34162169872617_3_alg».proof.Proof.Gen.KernelIdeal
import proofs.«411973_j34162169872617_3_alg».proof.Proof.Gen.KernelIdeal.Skeleton
import proofs.«411973_j34162169872617_3_alg».proof.Proof.Gen.KernelIdeal.Launch
import proofs.«411973_j34162169872617_3_alg».proof.Proof.Gen.KernelIdeal.Points
import proofs.«411973_j34162169872617_3_alg».proof.Proof.Gen.KernelIdeal.Frame
import proofs.«411973_j34162169872617_3_alg».proof.Proof.Gen.ReferenceIdeal
import proofs.«411973_j34162169872617_3_alg».proof.Proof.Gen.Pre_finite_inputs
import proofs.«411973_j34162169872617_3_alg».proof.Proof.RefRunJoin
import proofs.«411973_j34162169872617_3_alg».proof.Proof.RefRead
import proofs.«411973_j34162169872617_3_alg».proof.Proof.KerHost
import proofs.«411973_j34162169872617_3_alg».proof.Proof.KerValue
import proofs.«411973_j34162169872617_3_alg».proof.Proof.Bridge
import Idealize.ShloMosaic.Adequacy
import Idealize.ShloMosaic.Init

noncomputable section

namespace Cert.Proof

open Idealize.ShloMosaic Idealize.ShloMosaic.TcCoe Idealize.ShloMosaic.ValueIdx Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Hand.run (F := Ideal) m ρ)

/-- The kernel's result array is the reference's result term of the same arguments: entry (b, 0, g, l) of both is the
    log-softmax over group g, lane l, of batch row b's hidden row. -/
theorem result_eq (m : (ℓ : Loc Cert.KernelIdeal.nD Cert.KernelIdeal.τ Cert.KernelIdeal.sig) → Buf (Elt Ideal) ℓ)
    (hpre : Cert.Pre_KernelIdeal m) (c : Dev Cert.KernelIdeal.nD) :
    Cert.ReferenceIdeal.Read.val_main_v105 (F := Ideal)
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4))
        (m ((c.tc : Thread Cert.KernelIdeal.nD Cert.KernelIdeal.τ).loc Cert.KernelIdeal.main_arg5))
        (m ((c.tc : Thread Cert.KernelIdeal.nD Cert.KernelIdeal.τ).loc Cert.KernelIdeal.main_arg6))
      = Cert.KerValue.kres m c := by
  have hD := Cert.PreFacts.decode _ _ _ _ _ _ _ (hpre c)
  funext i
  obtain ⟨b, z, g, l, rfl⟩ : ∃ (b : Fin 4096) (z : Fin 1) (g : Fin 19) (l : Fin 64), i = ix4 b z g l :=
    ⟨i 0, i 1, i 2, i 3, eq_ix4 i⟩
  obtain rfl : z = 0 := Subsingleton.elim _ _
  refine (Cert.Bridge.result_entry _ _ _ _ _ _ _ hD (Cert.KerValue.b1Arr m c) (Cert.KerValue.vArr m c) (Cert.KerValue.cArr m c)
    (Cert.KerHost.B_arr m c) (Cert.KerHost.V_arr m c hD.ei_range) (Cert.KerHost.C_arr m c hD.ei_range) b g l).trans ?_
  show _ = Cert.Spec.lsm (Cert.KerValue.hidRow m c b) g l
  unfold Cert.KerValue.hidRow
  rw [show Cert.KerValue.xArr m c = _ from Cert.KernelIdeal.Gen.V_main_arg0 m c,
    show Cert.KerValue.w1Arr m c = _ from Cert.KernelIdeal.Gen.V_main_arg2 m c]

theorem algebraic : Cert.algebraic_KernelIdeal_ReferenceIdeal := by
  intro m ρ m' ρ' hpre hagree
  refine ⟨fun c => Cert.KerValue.kres m c, Cert.KerValue.run m ρ, ?_⟩
  refine (θ_run Cert.ReferenceIdeal.defs _ _).mono (fun _ h c => ⟨(h c).1.trans ?_, (h c).2⟩)
    (Cert.ReferenceIdeal.Hand.run (F := Ideal) m' ρ')
  rw [(hagree c).1, (hagree c).2.1, (hagree c).2.2.1, (hagree c).2.2.2.1,
    (hagree c).2.2.2.2.1, (hagree c).2.2.2.2.2.1, (hagree c).2.2.2.2.2.2]
  exact result_eq m hpre c

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
